-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)) (v5 : (c : Dev Cert.KernelIdeal.nD) → Buf (Elt Ideal) ((c.tc : Thread Cert.KernelIdeal.nD Cert.KernelIdeal.τ).loc Cert.KernelIdeal.main_v1_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_v1_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_v108) = v2 c
          ∧ r.2.mem ((c.tc : Thread Cert.ReferenceIdeal.nD Cert.ReferenceIdeal.τ).loc Cert.ReferenceIdeal.main_v123) = v3 c
          ∧ r.2.mem ((c.tc : Thread Cert.ReferenceIdeal.nD Cert.ReferenceIdeal.τ).loc Cert.ReferenceIdeal.main_v115) = v4 c
          ∧ r.2.mem ((c.tc : Thread Cert.ReferenceIdeal.nD Cert.ReferenceIdeal.τ).loc Cert.ReferenceIdeal.main_v148) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x128 : Shape := ⟨3, ![16, 2048, 128]⟩
abbrev S16x512x128 : Shape := ⟨3, ![16, 512, 128]⟩
abbrev S16x2048 : Shape := ⟨2, ![16, 2048]⟩
abbrev S_ : Shape := ⟨0, ![]⟩
abbrev S16x1x2048 : Shape := ⟨3, ![16, 1, 2048]⟩
abbrev S32 : Shape := ⟨1, ![32]⟩
abbrev S1x32x1 : Shape := ⟨3, ![1, 32, 1]⟩
abbrev S16x32x2048 : Shape := ⟨3, ![16, 32, 2048]⟩
abbrev S16x32 : Shape := ⟨2, ![16, 32]⟩

class Facts : Prop where
  bcast_S_S16x2048x128 : S_.BroadcastsInDim S16x2048x128 (![] : Fin 0 → Fin S16x2048x128.rank)
  reducesTo_S16x2048x128_S_d0_1_2 : S16x2048x128.ReducesTo [0, 1, 2] S_
  h_S_ : 0 < S_.numel
  bcast_S_S16x512x128 : S_.BroadcastsInDim S16x512x128 (![] : Fin 0 → Fin S16x512x128.rank)
  reducesTo_S16x512x128_S_d0_1_2 : S16x512x128.ReducesTo [0, 1, 2] S_
  bcast_S_S16x2048 : S_.BroadcastsInDim S16x2048 (![] : Fin 0 → Fin S16x2048.rank)
  reducesTo_S16x2048_S_d0_1 : S16x2048.ReducesTo [0, 1] S_
  bcast_S16x2048_S16x1x2048_0_2 : S16x2048.BroadcastsInDim S16x1x2048 (![0, 2] : Fin 2 → Fin S16x1x2048.rank)
  bcast_S32_S1x32x1_1 : S32.BroadcastsInDim S1x32x1 (![1] : Fin 1 → Fin S1x32x1.rank)
  bcast_S16x1x2048_S16x32x2048_0_1_2 : S16x1x2048.BroadcastsInDim S16x32x2048 (![0, 1, 2] : Fin 3 → Fin S16x32x2048.rank)
  bcast_S1x32x1_S16x32x2048_0_1_2 : S1x32x1.BroadcastsInDim S16x32x2048 (![0, 1, 2] : Fin 3 → Fin S16x32x2048.rank)
  reducesTo_S16x32x2048_S16x32_d2 : S16x32x2048.ReducesTo [2] S16x32
  reducesTo_S16x32_S_d0_1 : S16x32.ReducesTo [0, 1] S_

variable [Facts]

def fn_part2 {F : FTy → Type} [FloatOps F] (main_arg4 : IVec S16x2048 32) (main_v29 : IVec S_ 1) (main_v32 : IVec S_ 1) : IVec S_ 1 :=
  let main_v33 : IVec S_ 1 := andi main_v29 main_v32
  let main_v34 : IVec S16x1x2048 32 := broadcastInDim S16x1x2048 ![0, 2] bcast_S16x2048_S16x1x2048_0_2 main_arg4
  let main_v35 : IVec S32 32 := iotaInDim S32 32 0
  let main_v36 : IVec S1x32x1 32 := broadcastInDim S1x32x1 ![1] bcast_S32_S1x32x1_1 main_v35
  let main_v37 : IVec S16x32x2048 32 := broadcastInDim S16x32x2048 ![0, 1, 2] bcast_S16x1x2048_S16x32x2048_0_1_2 main_v34
  let main_v38 : IVec S16x32x2048 32 := broadcastInDim S16x32x2048 ![0, 1, 2] bcast_S1x32x1_S16x32x2048_0_1_2 main_v36
  let main_v39 : IVec S16x32x2048 1 := cmpi .eq main_v37 main_v38
  let main_c_13 : IVec S_ 1 := constantI S_ 1 0#1
  let main_v40 : IVec S16x32 1 := (fun x v => Host.reduce IntOp.ori x v reducesTo_S16x32x2048_S16x32_d2 h_S_) main_v39 main_c_13
  let main_c_14 : IVec S_ 1 := constantI S_ 1 1#1
  let main_v41 : IVec S_ 1 := (fun x v => Host.reduce IntOp.andi x v reducesTo_S16x32_S_d0_1 h_S_) main_v40 main_c_14
  let main_v42 : IVec S_ 1 := andi main_v33 main_v41
  main_v42

def fn_part1 {F : FTy → Type} [FloatOps F] (main_arg1 : FVec F S16x2048x128 .f32) (main_arg3 : FVec F S16x512x128 .f32) (main_arg4 : IVec S16x2048 32) (main_v13 : IVec S_ 1) (main_v16 : IVec S16x512x128 1) : IVec S_ 1 :=
  let main_c_5 : IVec S_ 1 := constantI S_ 1 1#1
  let main_v17 : IVec S_ 1 := (fun x v => Host.reduce IntOp.andi x v reducesTo_S16x512x128_S_d0_1_2 h_S_) main_v16 main_c_5
  let main_v18 : IVec S_ 1 := andi main_v13 main_v17
  let main_c_6 : IVec S_ 32 := constantI S_ 32 0#32
  let main_v19 : IVec S16x2048 32 := broadcastInDim S16x2048 ![] bcast_S_S16x2048 main_c_6
  let main_v20 : IVec S16x2048 1 := cmpi .sge main_arg4 main_v19
  let main_c_7 : IVec S_ 32 := constantI S_ 32 32#32
  let main_v21 : IVec S16x2048 32 := broadcastInDim S16x2048 ![] bcast_S_S16x2048 main_c_7
  let main_v22 : IVec S16x2048 1 := cmpi .slt main_arg4 main_v21
  let main_v23 : IVec S16x2048 1 := andi main_v20 main_v22
  let main_c_8 : IVec S_ 1 := constantI S_ 1 1#1
  let main_v24 : IVec S_ 1 := (fun x v => Host.reduce IntOp.andi x v reducesTo_S16x2048_S_d0_1 h_S_) main_v23 main_c_8
  let main_v25 : IVec S_ 1 := andi main_v18 main_v24
  let main_cst_9 : FVec F S_ .f32 := constant S_ .f32 0x00000000#32
  let main_v26 : FVec F S16x2048x128 .f32 := broadcastInDim S16x2048x128 ![] bcast_S_S16x2048x128 main_cst_9
  let main_v27 : IVec S16x2048x128 1 := cmpf .ogt main_arg1 main_v26
  let main_c_10 : IVec S_ 1 := constantI S_ 1 1#1
  let main_v28 : IVec S_ 1 := (fun x v => Host.reduce IntOp.andi x v reducesTo_S16x2048x128_S_d0_1_2 h_S_) main_v27 main_c_10
  let main_v29 : IVec S_ 1 := andi main_v25 main_v28
  let main_cst_11 : FVec F S_ .f32 := constant S_ .f32 0x00000000#32
  let main_v30 : FVec F S16x512x128 .f32 := broadcastInDim S16x512x128 ![] bcast_S_S16x512x128 main_cst_11
  let main_v31 : IVec S16x512x128 1 := cmpf .ogt main_arg3 main_v30
  let main_c_12 : IVec S_ 1 := constantI S_ 1 1#1
  let main_v32 : IVec S_ 1 := (fun x v => Host.reduce IntOp.andi x v reducesTo_S16x512x128_S_d0_1_2 h_S_) main_v31 main_c_12
  fn_part2 (F := F) main_arg4 main_v29 main_v32

def fn {F : FTy → Type} [FloatOps F] (main_arg0 : FVec F S16x2048x128 .f32) (main_arg1 : FVec F S16x2048x128 .f32) (main_arg2 : FVec F S16x512x128 .f32) (main_arg3 : FVec F S16x512x128 .f32) (main_arg4 : IVec S16x2048 32) : IVec S_ 1 :=
  let main_v0 : FVec F S16x2048x128 .f32 := Host.absf main_arg0
  let main_cst : FVec F S_ .f32 := constant S_ .f32 0x7F800000#32
  let main_v1 : FVec F S16x2048x128 .f32 := broadcastInDim S16x2048x128 ![] bcast_S_S16x2048x128 main_cst
  let main_v2 : IVec S16x2048x128 1 := cmpf .olt main_v0 main_v1
  let main_c : IVec S_ 1 := constantI S_ 1 1#1
  let main_v3 : IVec S_ 1 := (fun x v => Host.reduce IntOp.andi x v reducesTo_S16x2048x128_S_d0_1_2 h_S_) main_v2 main_c
  let main_v4 : FVec F S16x2048x128 .f32 := Host.absf main_arg1
  let main_cst_0 : FVec F S_ .f32 := constant S_ .f32 0x7F800000#32
  let main_v5 : FVec F S16x2048x128 .f32 := broadcastInDim S16x2048x128 ![] bcast_S_S16x2048x128 main_cst_0
  let main_v6 : IVec S16x2048x128 1 := cmpf .olt main_v4 main_v5
  let main_c_1 : IVec S_ 1 := constantI S_ 1 1#1
  let main_v7 : IVec S_ 1 := (fun x v => Host.reduce IntOp.andi x v reducesTo_S16x2048x128_S_d0_1_2 h_S_) main_v6 main_c_1
  let main_v8 : IVec S_ 1 := andi main_v3 main_v7
  let main_v9 : FVec F S16x512x128 .f32 := Host.absf main_arg2
  let main_cst_2 : FVec F S_ .f32 := constant S_ .f32 0x7F800000#32
  let main_v10 : FVec F S16x512x128 .f32 := broadcastInDim S16x512x128 ![] bcast_S_S16x512x128 main_cst_2
  let main_v11 : IVec S16x512x128 1 := cmpf .olt main_v9 main_v10
  let main_c_3 : IVec S_ 1 := constantI S_ 1 1#1
  let main_v12 : IVec S_ 1 := (fun x v => Host.reduce IntOp.andi x v reducesTo_S16x512x128_S_d0_1_2 h_S_) main_v11 main_c_3
  let main_v13 : IVec S_ 1 := andi main_v8 main_v12
  let main_v14 : FVec F S16x512x128 .f32 := Host.absf main_arg3
  let main_cst_4 : FVec F S_ .f32 := constant S_ .f32 0x7F800000#32
  let main_v15 : FVec F S16x512x128 .f32 := broadcastInDim S16x512x128 ![] bcast_S_S16x512x128 main_cst_4
  let main_v16 : IVec S16x512x128 1 := cmpf .olt main_v14 main_v15
  fn_part1 (F := F) main_arg1 main_arg3 main_arg4 main_v13 main_v16
-- ==== Kernel.lean ====
abbrev S16x2048x128 : Shape := ⟨3, ![16, 2048, 128]⟩
abbrev S16x512x128 : Shape := ⟨3, ![16, 512, 128]⟩
abbrev S16x2048 : Shape := ⟨2, ![16, 2048]⟩
abbrev S16x1x2048 : Shape := ⟨3, ![16, 1, 2048]⟩
abbrev S16x32x128 : Shape := ⟨3, ![16, 32, 128]⟩
abbrev S16x32x1 : Shape := ⟨3, ![16, 32, 1]⟩
abbrev S16x32x512x128 : Shape := ⟨4, ![16, 32, 512, 128]⟩
abbrev S16x32x512 : Shape := ⟨3, ![16, 32, 512]⟩
abbrev S1x2048x128 : Shape := ⟨3, ![1, 2048, 128]⟩
abbrev S1x1x2048 : Shape := ⟨3, ![1, 1, 2048]⟩
abbrev S1x256x128 : Shape := ⟨3, ![1, 256, 128]⟩
abbrev S1x32x128 : Shape := ⟨3, ![1, 32, 128]⟩
abbrev S1x32x1 : Shape := ⟨3, ![1, 32, 1]⟩
abbrev S1x32x256x128 : Shape := ⟨4, ![1, 32, 256, 128]⟩
abbrev S1x32x256 : Shape := ⟨3, ![1, 32, 256]⟩
abbrev S2048x128 : Shape := ⟨2, ![2048, 128]⟩
abbrev S2048 : Shape := ⟨1, ![2048]⟩
abbrev S32x2048 : Shape := ⟨2, ![32, 2048]⟩
abbrev S1x2048 : Shape := ⟨2, ![1, 2048]⟩
abbrev S32 : Shape := ⟨1, ![32]⟩
abbrev S32x1 : Shape := ⟨2, ![32, 1]⟩
abbrev S32x128 : Shape := ⟨2, ![32, 128]⟩
abbrev S256x128 : Shape := ⟨2, ![256, 128]⟩
abbrev S32x1x128 : Shape := ⟨3, ![32, 1, 128]⟩
abbrev S32x256x128 : Shape := ⟨3, ![32, 256, 128]⟩
abbrev S32x256 : Shape := ⟨2, ![32, 256]⟩
abbrev S16x32 : Shape := ⟨2, ![16, 32]⟩

abbrev nBuf : Space → Nat
  | .hbm => 13
  | .vmem => 22
  | .smem => 0
  | _ => 0

abbrev bufTy : (tb : Table) → Fin (tcTables nBuf tb) → BufTy
  | .hbm, ⟨0, _⟩ => ⟨S16x2048x128, .f32⟩
  | .hbm, ⟨1, _⟩ => ⟨S16x2048x128, .f32⟩
  | .hbm, ⟨2, _⟩ => ⟨S16x512x128, .f32⟩
  | .hbm, ⟨3, _⟩ => ⟨S16x512x128, .f32⟩
  | .hbm, ⟨4, _⟩ => ⟨S16x2048, .i32⟩
  | .hbm, ⟨5, _⟩ => ⟨S16x1x2048, .i32⟩
  | .hbm, ⟨6, _⟩ => ⟨S16x32x128, .f32⟩
  | .hbm, ⟨7, _⟩ => ⟨S16x32x128, .f32⟩
  | .hbm, ⟨8, _⟩ => ⟨S16x32x1, .f32⟩
  | .hbm, ⟨9, _⟩ => ⟨S16x32x512x128, .f32⟩
  | .hbm, ⟨10, _⟩ => ⟨S16x32x512x128, .f32⟩
  | .hbm, ⟨11, _⟩ => ⟨S16x32x512, .f32⟩
  | .hbm, ⟨12, _⟩ => ⟨S16x32, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x1x2048, .i32⟩
  | .local _ .vmem, ⟨5, _⟩ => ⟨S1x1x2048, .i32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1x32x128, .f32⟩
  | .local _ .vmem, ⟨11, _⟩ => ⟨S1x32x128, .f32⟩
  | .local _ .vmem, ⟨12, _⟩ => ⟨S1x32x128, .f32⟩
  | .local _ .vmem, ⟨13, _⟩ => ⟨S1x32x128, .f32⟩
  | .local _ .vmem, ⟨14, _⟩ => ⟨S1x32x1, .f32⟩
  | .local _ .vmem, ⟨15, _⟩ => ⟨S1x32x1, .f32⟩
  | .local _ .vmem, ⟨16, _⟩ => ⟨S1x32x256x128, .f32⟩
  | .local _ .vmem, ⟨17, _⟩ => ⟨S1x32x256x128, .f32⟩
  | .local _ .vmem, ⟨18, _⟩ => ⟨S1x32x256x128, .f32⟩
  | .local _ .vmem, ⟨19, _⟩ => ⟨S1x32x256x128, .f32⟩
  | .local _ .vmem, ⟨20, _⟩ => ⟨S1x32x256, .f32⟩
  | .local _ .vmem, ⟨21, _⟩ => ⟨S1x32x256, .f32⟩
  | _, _ => ⟨S16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev main_v1_5 : Ref sig .tc := ⟨.hbm, 11, rfl⟩
abbrev main_v2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![16, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x32x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x32x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x32x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x32x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

class Facts₀ : Prop where
  shapeCasts_S16x2048_S16x1x2048 : S16x2048.ShapeCasts S16x1x2048
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S2048 : S1x1x2048.ShapeCasts S2048
  iota_S32x2048_d0_w32 : S32x2048.Iotas .tc 32 [0]
  shapeCasts_S2048_S1x2048 : S2048.ShapeCasts S1x2048
  broadcasts_S1x2048_S32x2048 : S1x2048.Broadcasts S32x2048
  natLt_1_32 : 1 < 32
  reduces_S32x2048_S32 : S32x2048.Reduces [1] S32
  shapeCasts_S32_S32x1 : S32.ShapeCasts S32x1
  broadcasts_S32x1_S32x128 : S32x1.Broadcasts S32x128
  reduces_S32x128_S32 : S32x128.Reduces [1] S32
  inb_S1x32x128_S1x32x128_0_0_0 : ∀ a, (![0, 0, 0] : Fin 3 → Nat) a + S1x32x128.size a ≤ S1x32x128.size a
  h_S1x32x128 : 0 < S1x32x128.numel
  shapeCasts_S1x32x128_S32x128 : S1x32x128.ShapeCasts S32x128
  shapeCasts_S32x128_S1x32x128 : S32x128.ShapeCasts S1x32x128
  inb_S1x32x1_S1x32x1_0_0_0 : ∀ a, (![0, 0, 0] : Fin 3 → Nat) a + S1x32x1.size a ≤ S1x32x1.size a
  h_S1x32x1 : 0 < S1x32x1.numel
  shapeCasts_S1x32x1_S32x1 : S1x32x1.ShapeCasts S32x1
  shapeCasts_S32x1_S1x32x1 : S32x1.ShapeCasts S1x32x1
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  shapeCasts_S32x128_S32x1x128 : S32x128.ShapeCasts S32x1x128
  shapeCasts_S256x128_S1x256x128 : S256x128.ShapeCasts S1x256x128
  broadcasts_S32x1x128_S32x256x128 : S32x1x128.Broadcasts S32x256x128
  broadcasts_S1x256x128_S32x256x128 : S1x256x128.Broadcasts S32x256x128
  inb_S1x32x256x128_S1x32x256x128_0_0_0_0 : ∀ a, (![0, 0, 0, 0] : Fin 4 → Nat) a + S1x32x256x128.size a ≤ S1x32x256x128.size a
  h_S1x32x256x128 : 0 < S1x32x256x128.numel
  shapeCasts_S1x32x256x128_S32x256x128 : S1x32x256x128.ShapeCasts S32x256x128
  shapeCasts_S32x256x128_S1x32x256x128 : S32x256x128.ShapeCasts S1x32x256x128
  reduces_S32x256x128_S32x256 : S32x256x128.Reduces [2] S32x256
  inb_S1x32x256_S1x32x256_0_0_0 : ∀ a, (![0, 0, 0] : Fin 3 → Nat) a + S1x32x256.size a ≤ S1x32x256.size a
  h_S1x32x256 : 0 < S1x32x256.numel
  shapeCasts_S1x32x256_S32x256 : S1x32x256.ShapeCasts S32x256
  shapeCasts_S32x256_S1x32x256 : S32x256.ShapeCasts S1x32x256
  shapeCasts_S16x32x1_S16x32 : S16x32x1.ShapeCasts S16x32
  dot_S32x2048_S2048x128_S32x128_1_0_0_1_n_n_wf : DotDims.WF S32x2048 S2048x128 S32x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S16x2048x128.size a
  hwx0_0 : ∀ i : grid0.Coords, EltTy.bits .f32 = 32 ∨ (Rect.block (s := S16x2048x128) S1x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S16x2048x128.size a
  hwx0_1 : ∀ i : grid0.Coords, EltTy.bits .f32 = 32 ∨ (Rect.block (s := S16x2048x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S16x1x2048.size a
  hwx0_2 : ∀ i : grid0.Coords, EltTy.bits .i32 = 32 ∨ (Rect.block (s := S16x1x2048) S1x1x2048.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x128.size a ≤ S16x512x128.size a
  hwx0_3 : ∀ i : grid0.Coords, EltTy.bits .f32 = 32 ∨ (Rect.block (s := S16x512x128) S1x256x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x128.size a ≤ S16x512x128.size a
  hwx0_4 : ∀ i : grid0.Coords, EltTy.bits .f32 = 32 ∨ (Rect.block (s := S16x512x128) S1x256x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x32x128.size a ≤ S16x32x128.size a
  hwx0_5 : ∀ i : grid0.Coords, EltTy.bits .f32 = 32 ∨ (Rect.block (s := S16x32x128) S1x32x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x32x128.size a ≤ S16x32x128.size a
  hwx0_6 : ∀ i : grid0.Coords, EltTy.bits .f32 = 32 ∨ (Rect.block (s := S16x32x128) S1x32x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x32x1.size a ≤ S16x32x1.size a
  hwx0_7 : ∀ i : grid0.Coords, EltTy.bits .f32 = 32 ∨ (Rect.block (s := S16x32x1) S1x32x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x32x256x128.size a ≤ S16x32x512x128.size a
  hwx0_8 : ∀ i : grid0.Coords, EltTy.bits .f32 = 32 ∨ (Rect.block (s := S16x32x512x128) S1x32x256x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x32x256x128.size a ≤ S16x32x512x128.size a
  hwx0_9 : ∀ i : grid0.Coords, EltTy.bits .f32 = 32 ∨ (Rect.block (s := S16x32x512x128) S1x32x256x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x32x256.size a ≤ S16x32x512.size a
  hwx0_10 : ∀ i : grid0.Coords, EltTy.bits .f32 = 32 ∨ (Rect.block (s := S16x32x512) S1x32x256.size (cc0_transform_10 i) (hinb0_10 i)).WholeWords (EltTy.packing .f32)

variable [Facts₀]

def dot_S32x2048_S2048x128_S32x128_1_0_0_1_n_n : DotDims S32x2048 S2048x128 S32x128 where
  lhsContracting := [1]
  rhsContracting := [0]
  lhsNonContracting := [0]
  rhsNonContracting := [1]
  lhsBatch := []
  rhsBatch := []
  wf := dot_S32x2048_S2048x128_S32x128_1_0_0_1_n_n_wf

abbrev win0_0 : Pipeline.Window sig grid0 :=
  Pipeline.Window.ofSpec (Memref.whole main_arg0) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x256x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1x256x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_0) S1x32x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_1) S1x32x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1_2) S1x32x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v1_3) S1x32x256x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v1_4) S1x32x256x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v1_5) S1x32x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun i => !(k0_cond1 i == 1#1) | 6 => fun i => !(k0_cond1 i == 1#1) | 7 => fun i => !(k0_cond1 i == 1#1) | 8 => fun _ => false | 9 => fun _ => false | 10 => fun _ => false | ⟨_ + 11, h⟩ => absurd h (Nat.not_lt.2 (Nat.le_add_left _ _))

class Facts : Prop extends Facts₀ where

variable [Facts]
-- ==== ReferenceIdeal.lean ====
abbrev S16x2048x128 : Shape := ⟨3, ![16, 2048, 128]⟩
abbrev S16x512x128 : Shape := ⟨3, ![16, 512, 128]⟩
abbrev S16x2048 : Shape := ⟨2, ![16, 2048]⟩
abbrev S16 : Shape := ⟨1, ![16]⟩
abbrev S16x1 : Shape := ⟨2, ![16, 1]⟩
abbrev S_ : Shape := ⟨0, ![]⟩
abbrev S16x32 : Shape := ⟨2, ![16, 32]⟩
abbrev S16x2048x1 : Shape := ⟨3, ![16, 2048, 1]⟩
abbrev S16x2048x2 : Shape := ⟨3, ![16, 2048, 2]⟩
abbrev S16x32x1 : Shape := ⟨3, ![16, 32, 1]⟩
abbrev S16x32x128 : Shape := ⟨3, ![16, 32, 128]⟩
abbrev S16x1x512x128 : Shape := ⟨4, ![16, 1, 512, 128]⟩
abbrev S16x32x1x128 : Shape := ⟨4, ![16, 32, 1, 128]⟩
abbrev S16x32x512x128 : Shape := ⟨4, ![16, 32, 512, 128]⟩
abbrev S16x32x512 : Shape := ⟨3, ![16, 32, 512]⟩

abbrev nBuf : Space → Nat
  | .hbm => 190
  | .vmem => 0
  | .smem => 0
  | _ => 0

abbrev hbmTy0_0 (i : Nat) : BufTy := match i % 128 with
  | 0 => ⟨S16x2048x128, .f32⟩
  | 1 => ⟨S16x2048x128, .f32⟩
  | 2 => ⟨S16x512x128, .f32⟩
  | 3 => ⟨S16x512x128, .f32⟩
  | 4 => ⟨S16x2048, .i32⟩
  | 5 => ⟨S16, .i32⟩
  | 6 => ⟨S16x1, .i32⟩
  | 7 => ⟨S_, .f32⟩
  | 8 => ⟨S16x32, .f32⟩
  | 9 => ⟨S_, .f32⟩
  | 10 => ⟨S16x2048, .f32⟩
  | 11 => ⟨S_, .i32⟩
  | 12 => ⟨S16x1, .i32⟩
  | 13 => ⟨S16x1, .i1⟩
  | 14 => ⟨S_, .i32⟩
  | 15 => ⟨S16x1, .i32⟩
  | 16 => ⟨S16x1, .i32⟩
  | 17 => ⟨S16x1, .i32⟩
  | 18 => ⟨S_, .i32⟩
  | 19 => ⟨S16x2048, .i32⟩
  | 20 => ⟨S16x2048, .i1⟩
  | 21 => ⟨S_, .i32⟩
  | 22 => ⟨S16x2048, .i32⟩
  | 23 => ⟨S16x2048, .i32⟩
  | 24 => ⟨S16x2048, .i32⟩
  | 25 => ⟨S16x2048, .i32⟩
  | 26 => ⟨S16x2048x1, .i32⟩
  | 27 => ⟨S16x2048x1, .i32⟩
  | 28 => ⟨S16x2048x2, .i32⟩
  | 29 => ⟨S16x32, .f32⟩
  | 30 => ⟨S_, .f32⟩
  | 31 => ⟨S16x32, .f32⟩
  | 32 => ⟨S16x32, .f32⟩
  | 33 => ⟨S16x32x1, .f32⟩
  | 34 => ⟨S_, .f32⟩
  | 35 => ⟨S16x32x128, .f32⟩
  | 36 => ⟨S_, .i32⟩
  | 37 => ⟨S16x1, .i32⟩
  | 38 => ⟨S16x1, .i1⟩
  | 39 => ⟨S_, .i32⟩
  | 40 => ⟨S16x1, .i32⟩
  | 41 => ⟨S16x1, .i32⟩
  | 42 => ⟨S16x1, .i32⟩
  | 43 => ⟨S_, .i32⟩
  | 44 => ⟨S16x2048, .i32⟩
  | 45 => ⟨S16x2048, .i1⟩
  | 46 => ⟨S_, .i32⟩
  | 47 => ⟨S16x2048, .i32⟩
  | 48 => ⟨S16x2048, .i32⟩
  | 49 => ⟨S16x2048, .i32⟩
  | 50 => ⟨S16x2048, .i32⟩
  | 51 => ⟨S16x2048x1, .i32⟩
  | 52 => ⟨S16x2048x1, .i32⟩
  | 53 => ⟨S16x2048x2, .i32⟩
  | 54 => ⟨S16x32x128, .f32⟩
  | 55 => ⟨S_, .f32⟩
  | 56 => ⟨S16x32x128, .f32⟩
  | 57 => ⟨S16x32x128, .f32⟩
  | 58 => ⟨S16x2048x128, .f32⟩
  | 59 => ⟨S_, .i32⟩
  | 60 => ⟨S16x1, .i32⟩
  | 61 => ⟨S16x1, .i1⟩
  | 62 => ⟨S_, .i32⟩
  | 63 => ⟨S16x1, .i32⟩
  | 64 => ⟨S16x1, .i32⟩
  | 65 => ⟨S16x1, .i32⟩
  | 66 => ⟨S_, .i32⟩
  | 67 => ⟨S16x2048, .i32⟩
  | 68 => ⟨S16x2048, .i1⟩
  | 69 => ⟨S_, .i32⟩
  | 70 => ⟨S16x2048, .i32⟩
  | 71 => ⟨S16x2048, .i32⟩
  | 72 => ⟨S16x2048, .i32⟩
  | 73 => ⟨S16x2048, .i32⟩
  | 74 => ⟨S16x2048x1, .i32⟩
  | 75 => ⟨S16x2048x1, .i32⟩
  | 76 => ⟨S16x2048x2, .i32⟩
  | 77 => ⟨S16x32x128, .f32⟩
  | 78 => ⟨S16x32x128, .f32⟩
  | 79 => ⟨S16x2048x128, .f32⟩
  | 80 => ⟨S16x2048x128, .f32⟩
  | 81 => ⟨S_, .i32⟩
  | 82 => ⟨S16x1, .i32⟩
  | 83 => ⟨S16x1, .i1⟩
  | 84 => ⟨S_, .i32⟩
  | 85 => ⟨S16x1, .i32⟩
  | 86 => ⟨S16x1, .i32⟩
  | 87 => ⟨S16x1, .i32⟩
  | 88 => ⟨S_, .i32⟩
  | 89 => ⟨S16x2048, .i32⟩
  | 90 => ⟨S16x2048, .i1⟩
  | 91 => ⟨S_, .i32⟩
  | 92 => ⟨S16x2048, .i32⟩
  | 93 => ⟨S16x2048, .i32⟩
  | 94 => ⟨S16x2048, .i32⟩
  | 95 => ⟨S16x2048, .i32⟩
  | 96 => ⟨S16x2048x1, .i32⟩
  | 97 => ⟨S16x2048x1, .i32⟩
  | 98 => ⟨S16x2048x2, .i32⟩
  | 99 => ⟨S16x32x128, .f32⟩
  | 100 => ⟨S16x32x128, .f32⟩
  | 101 => ⟨S16x32x128, .f32⟩
  | 102 => ⟨S16x32x128, .f32⟩
  | 103 => ⟨S_, .f32⟩
  | 104 => ⟨S16x32x128, .f32⟩
  | 105 => ⟨S16x32x128, .f32⟩
  | 106 => ⟨S16x2048x128, .f32⟩
  | 107 => ⟨S_, .i32⟩
  | 108 => ⟨S16x1, .i32⟩
  | 109 => ⟨S16x1, .i1⟩
  | 110 => ⟨S_, .i32⟩
  | 111 => ⟨S16x1, .i32⟩
  | 112 => ⟨S16x1, .i32⟩
  | 113 => ⟨S16x1, .i32⟩
  | 114 => ⟨S_, .i32⟩
  | 115 => ⟨S16x2048, .i32⟩
  | 116 => ⟨S16x2048, .i1⟩
  | 117 => ⟨S_, .i32⟩
  | 118 => ⟨S16x2048, .i32⟩
  | 119 => ⟨S16x2048, .i32⟩
  | 120 => ⟨S16x2048, .i32⟩
  | 121 => ⟨S16x2048, .i32⟩
  | 122 => ⟨S16x2048x1, .i32⟩
  | 123 => ⟨S16x2048x1, .i32⟩
  | 124 => ⟨S16x2048x2, .i32⟩
  | 125 => ⟨S16x32x128, .f32⟩
  | 126 => ⟨S_, .f32⟩
  | 127 => ⟨S16x32x1, .f32⟩
  | _ => ⟨S16x2048x128, .f32⟩

abbrev hbmTy0_1 (i : Nat) : BufTy := match i % 128 with
  | 0 => ⟨S16x32x1, .f32⟩
  | 1 => ⟨S_, .f32⟩
  | 2 => ⟨S16x32x1, .f32⟩
  | 3 => ⟨S16x32x1, .f32⟩
  | 4 => ⟨S_, .f32⟩
  | 5 => ⟨S16x32x1, .f32⟩
  | 6 => ⟨S16x32x1, .f32⟩
  | 7 => ⟨S16x32x128, .f32⟩
  | 8 => ⟨S16x32x128, .f32⟩
  | 9 => ⟨S_, .f32⟩
  | 10 => ⟨S16x32x128, .f32⟩
  | 11 => ⟨S16x32x128, .f32⟩
  | 12 => ⟨S16x32x128, .f32⟩
  | 13 => ⟨S16x32x128, .f32⟩
  | 14 => ⟨S16x32x128, .f32⟩
  | 15 => ⟨S_, .f32⟩
  | 16 => ⟨S16x32, .f32⟩
  | 17 => ⟨S16x1x512x128, .f32⟩
  | 18 => ⟨S16x1x512x128, .f32⟩
  | 19 => ⟨S16x32x1x128, .f32⟩
  | 20 => ⟨S16x32x1x128, .f32⟩
  | 21 => ⟨S16x32x512x128, .f32⟩
  | 22 => ⟨S16x32x512x128, .f32⟩
  | 23 => ⟨S16x32x512x128, .f32⟩
  | 24 => ⟨S_, .f32⟩
  | 25 => ⟨S16x32x512x128, .f32⟩
  | 26 => ⟨S16x32x512x128, .f32⟩
  | 27 => ⟨S16x1x512x128, .f32⟩
  | 28 => ⟨S16x32x1x128, .f32⟩
  | 29 => ⟨S16x32x512x128, .f32⟩
  | 30 => ⟨S16x32x512x128, .f32⟩
  | 31 => ⟨S16x32x512x128, .f32⟩
  | 32 => ⟨S16x32x512x128, .f32⟩
  | 33 => ⟨S16x32x512x128, .f32⟩
  | 34 => ⟨S16x32x512x128, .f32⟩
  | 35 => ⟨S16x1x512x128, .f32⟩
  | 36 => ⟨S16x1x512x128, .f32⟩
  | 37 => ⟨S16x32x512x128, .f32⟩
  | 38 => ⟨S16x32x512x128, .f32⟩
  | 39 => ⟨S16x32x1x128, .f32⟩
  | 40 => ⟨S16x32x1x128, .f32⟩
  | 41 => ⟨S16x32x512x128, .f32⟩
  | 42 => ⟨S16x32x512x128, .f32⟩
  | 43 => ⟨S_, .f32⟩
  | 44 => ⟨S16x32x512x128, .f32⟩
  | 45 => ⟨S16x32x512x128, .f32⟩
  | 46 => ⟨S16x1x512x128, .f32⟩
  | 47 => ⟨S16x32x1x128, .f32⟩
  | 48 => ⟨S16x32x512x128, .f32⟩
  | 49 => ⟨S16x32x512x128, .f32⟩
  | 50 => ⟨S16x32x512x128, .f32⟩
  | 51 => ⟨S16x32x512x128, .f32⟩
  | 52 => ⟨S16x32x512x128, .f32⟩
  | 53 => ⟨S_, .f32⟩
  | 54 => ⟨S16x32x512x128, .f32⟩
  | 55 => ⟨S16x32x512x128, .f32⟩
  | 56 => ⟨S_, .f32⟩
  | 57 => ⟨S16x32x512x128, .f32⟩
  | 58 => ⟨S16x32x512x128, .f32⟩
  | 59 => ⟨S16x32x512x128, .f32⟩
  | 60 => ⟨S_, .f32⟩
  | 61 => ⟨S16x32x512, .f32⟩
  | _ => ⟨S16x2048x128, .f32⟩

abbrev hbmTy (i : Nat) : BufTy := match i / 128 with
  | 0 => hbmTy0_0 i
  | 1 => hbmTy0_1 i
  | _ => ⟨S16x2048x128, .f32⟩

abbrev bufTy : (tb : Table) → Fin (tcTables nBuf tb) → BufTy
  | .hbm, ⟨i, _⟩ => hbmTy i
  | _, _ => ⟨S16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_c_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_c_6 : Ref sig .tc := ⟨.hbm, 36, rfl⟩
abbrev main_v23 : Ref sig .tc := ⟨.hbm, 37, rfl⟩
abbrev main_v24 : Ref sig .tc := ⟨.hbm, 38, rfl⟩
abbrev main_c_7 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_8 : Ref sig .tc := ⟨.hbm, 43, rfl⟩
abbrev main_v28 : Ref sig .tc := ⟨.hbm, 44, rfl⟩
abbrev main_v29 : Ref sig .tc := ⟨.hbm, 45, rfl⟩
abbrev main_c_9 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_10 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_11 : Ref sig .tc := ⟨.hbm, 59, rfl⟩
abbrev main_v41 : Ref sig .tc := ⟨.hbm, 60, rfl⟩
abbrev main_v42 : Ref sig .tc := ⟨.hbm, 61, rfl⟩
abbrev main_c_12 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_13 : Ref sig .tc := ⟨.hbm, 66, rfl⟩
abbrev main_v46 : Ref sig .tc := ⟨.hbm, 67, rfl⟩
abbrev main_v47 : Ref sig .tc := ⟨.hbm, 68, rfl⟩
abbrev main_c_14 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_c_15 : Ref sig .tc := ⟨.hbm, 81, rfl⟩
abbrev main_v59 : Ref sig .tc := ⟨.hbm, 82, rfl⟩
abbrev main_v60 : Ref sig .tc := ⟨.hbm, 83, rfl⟩
abbrev main_c_16 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_17 : Ref sig .tc := ⟨.hbm, 88, rfl⟩
abbrev main_v64 : Ref sig .tc := ⟨.hbm, 89, rfl⟩
abbrev main_v65 : Ref sig .tc := ⟨.hbm, 90, rfl⟩
abbrev main_c_18 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_19 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_c_20 : Ref sig .tc := ⟨.hbm, 107, rfl⟩
abbrev main_v80 : Ref sig .tc := ⟨.hbm, 108, rfl⟩
abbrev main_v81 : Ref sig .tc := ⟨.hbm, 109, rfl⟩
abbrev main_c_21 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_c_22 : Ref sig .tc := ⟨.hbm, 114, rfl⟩
abbrev main_v85 : Ref sig .tc := ⟨.hbm, 115, rfl⟩
abbrev main_v86 : Ref sig .tc := ⟨.hbm, 116, rfl⟩
abbrev main_c_23 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_24 : Ref sig .tc := ⟨.hbm, 126, rfl⟩
abbrev main_v95 : Ref sig .tc := ⟨.hbm, 127, rfl⟩
abbrev main_v96 : Ref sig .tc := ⟨.hbm, 128, rfl⟩
abbrev main_cst_25 : Ref sig .tc := ⟨.hbm, 129, rfl⟩
abbrev main_v97 : Ref sig .tc := ⟨.hbm, 130, rfl⟩
abbrev main_v98 : Ref sig .tc := ⟨.hbm, 131, rfl⟩
abbrev main_cst_26 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_cst_27 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_cst_28 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_cst_29 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_cst_30 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_cst_31 : Ref sig .tc := ⟨.hbm, 181, rfl⟩
abbrev main_v143 : Ref sig .tc := ⟨.hbm, 182, rfl⟩
abbrev main_v144 : Ref sig .tc := ⟨.hbm, 183, rfl⟩
abbrev main_cst_32 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_cst_33 : Ref sig .tc := ⟨.hbm, 188, rfl⟩
abbrev main_v148 : Ref sig .tc := ⟨.hbm, 189, rfl⟩

abbrev nD : Nat := 1
abbrev τ : Topo := Topo.v7x

variable {F : FTy → Type} [FloatOps F]

class Facts₀ : Prop where
  bcast_S16_S16x1_0 : S16.BroadcastsInDim S16x1 (![0] : Fin 1 → Fin S16x1.rank)
  bcast_S_S16x32 : S_.BroadcastsInDim S16x32 (![] : Fin 0 → Fin S16x32.rank)
  bcast_S_S16x2048 : S_.BroadcastsInDim S16x2048 (![] : Fin 0 → Fin S16x2048.rank)
  bcast_S_S16x1 : S_.BroadcastsInDim S16x1 (![] : Fin 0 → Fin S16x1.rank)
  bcast_S16x1_S16x2048_0_1 : S16x1.BroadcastsInDim S16x2048 (![0, 1] : Fin 2 → Fin S16x2048.rank)
  bcast_S16x2048_S16x2048x1_0_1 : S16x2048.BroadcastsInDim S16x2048x1 (![0, 1] : Fin 2 → Fin S16x2048x1.rank)
  concatenates_S16x2048x1_S16x2048x1_S16x2048x2_d2 : Shape.Concatenates [S16x2048x1, S16x2048x1] S16x2048x2 2
  bcast_S16x32_S16x32x1_0_1 : S16x32.BroadcastsInDim S16x32x1 (![0, 1] : Fin 2 → Fin S16x32x1.rank)
  bcast_S_S16x32x128 : S_.BroadcastsInDim S16x32x128 (![] : Fin 0 → Fin S16x32x128.rank)
  bcast_S_S16x32x1 : S_.BroadcastsInDim S16x32x1 (![] : Fin 0 → Fin S16x32x1.rank)
  bcast_S16x32x1_S16x32x128_0_1_2 : S16x32x1.BroadcastsInDim S16x32x128 (![0, 1, 2] : Fin 3 → Fin S16x32x128.rank)
  reducesTo_S16x32x128_S16x32_d2 : S16x32x128.ReducesTo [2] S16x32
  h_S_ : 0 < S_.numel
  bcast_S16x512x128_S16x1x512x128_0_2_3 : S16x512x128.BroadcastsInDim S16x1x512x128 (![0, 2, 3] : Fin 3 → Fin S16x1x512x128.rank)
  bcast_S16x32x128_S16x32x1x128_0_1_3 : S16x32x128.BroadcastsInDim S16x32x1x128 (![0, 1, 3] : Fin 3 → Fin S16x32x1x128.rank)
  bcast_S16x1x512x128_S16x32x512x128_0_1_2_3 : S16x1x512x128.BroadcastsInDim S16x32x512x128 (![0, 1, 2, 3] : Fin 4 → Fin S16x32x512x128.rank)
  bcast_S16x32x1x128_S16x32x512x128_0_1_2_3 : S16x32x1x128.BroadcastsInDim S16x32x512x128 (![0, 1, 2, 3] : Fin 4 → Fin S16x32x512x128.rank)
  bcast_S_S16x32x512x128 : S_.BroadcastsInDim S16x32x512x128 (![] : Fin 0 → Fin S16x32x512x128.rank)
  reducesTo_S16x32x512x128_S16x32x512_d3 : S16x32x512x128.ReducesTo [3] S16x32x512
  scatter_S16x32_S16x2048x2_S16x2048_n_01_01_2_wf : ScatterDims.WF S16x32 S16x2048x2 S16x2048 [] [0, 1] [0, 1] 2
  scatter_S16x32x128_S16x2048x2_S16x2048x128_2_01_01_2_wf : ScatterDims.WF S16x32x128 S16x2048x2 S16x2048x128 [2] [0, 1] [0, 1] 2

variable [Facts₀]

def scatter_S16x32_S16x2048x2_S16x2048_n_01_01_2 : ScatterDims S16x32 S16x2048x2 S16x2048 where
  updateWindowDims := []
  insertedWindowDims := [0, 1]
  scatterDimsToOperandDims := [0, 1]
  indexVectorDim := 2
  wf := scatter_S16x32_S16x2048x2_S16x2048_n_01_01_2_wf
def scatter_S16x32x128_S16x2048x2_S16x2048x128_2_01_01_2 : ScatterDims S16x32x128 S16x2048x2 S16x2048x128 where
  updateWindowDims := [2]
  insertedWindowDims := [0, 1]
  scatterDimsToOperandDims := [0, 1]
  indexVectorDim := 2
  wf := scatter_S16x32x128_S16x2048x2_S16x2048x128_2_01_01_2_wf

class Facts : Prop extends Facts₀ where

variable [Facts]
-- ==== Proof.BlocksBits.lean ====
/-
  What the kernel body stores into its six output blocks, as functions of the blocks it loaded.

  At the first query tile of a batch the body computes, from the batch's block of support means `x0`, of support
  precisions `x1` and of class labels `x2`, the class means (`pmBlk`), the class precisions (`ppBlk`) and the
  classes' log-normalisers (`lnBlk`). At every query tile it reads the class means `pm` and precisions `pp` back and
  combines them with the tile's query means `x3` and precisions `x4`: the products' precisions (`opBlk`), means
  (`omBlk`) and log-normalisers (`olBlk`).
-/
import proofs.«409652_j37331855737078_2_alg».proof.Proof.Gen.Kernel.Skeleton

noncomputable section

namespace Cert.Kernel.Hand

open Cert.Kernel Cert.Kernel.Gen Idealize.ShloMosaic

variable {F : FTy → Type} [FloatOps F]

def pmBlk (x0 x1 : Vec F S1x2048x128 .f32) (x2 : Vec F S1x1x2048 .i32) : Vec F S1x32x128 .f32 :=
  k0_pay10 (k0_pay6 x0 x1 x2)

def ppBlk (x1 : Vec F S1x2048x128 .f32) (x2 : Vec F S1x1x2048 .i32) : Vec F S1x32x128 .f32 :=
  k0_pay11 (k0_pay5 x1 x2)

def lnBlk (x0 x1 : Vec F S1x2048x128 .f32) (x2 : Vec F S1x1x2048 .i32) : Vec F S1x32x1 .f32 :=
  k0_pay12 (k0_pay7 x0 x1 x2) (k0_pay8 x2) (k0_pay9 x1 x2)

def opBlk (pp : Vec F S1x32x128 .f32) (x4 : Vec F S1x256x128 .f32) : Vec F S1x32x256x128 .f32 :=
  k0_pay18 pp x4

def omBlk (pm pp : Vec F S1x32x128 .f32) (x3 x4 : Vec F S1x256x128 .f32) : Vec F S1x32x256x128 .f32 :=
  k0_pay20 pm pp x3 x4

def olBlk (pm pp : Vec F S1x32x128 .f32) (x3 x4 : Vec F S1x256x128 .f32) : Vec F S1x32x256 .f32 :=
  k0_pay1 (k0_pay13 pp) (k0_pay14 pm) (k0_pay15 x4) (k0_pay17 pp x4) (k0_pay21 pm pp x3 x4) (k0_pay22 x3)

end Cert.Kernel.Hand

end
-- ==== Proof.BodyBits.lean ====
/-
  The kernel body at every grid point, and the program's run.

  The grid has 32 points: batch b = t / 2, query tile t % 2. At a batch's first tile (t even) the body computes the
  batch's class means, class precisions and class log-normalisers from the batch's support blocks and stores them into
  three output buffers; at both tiles it reads the class means and precisions back from those buffers and stores the
  products with the tile's queries into three more. The three class buffers are written back only after the batch's
  second tile, where the body stores nothing into them: they then still hold what the first tile stored. So after
  the body at point t the class buffers hold the classes of the batch opened at `base t` (the even point of t's
  batch) and the product buffers the products of those classes with tile t's queries. Stated for any float
  instance: nothing here depends on what a float is.
-/
import proofs.«409652_j37331855737078_2_alg».proof.Proof.Gen.Kernel.Frame
import proofs.«409652_j37331855737078_2_alg».proof.Proof.BlocksBits
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero offsets of a whole-block access, however many axes. -/
theorem hz3 : (![0, 0, 0] : Fin 3 → Nat) = fun _ => 0 := by funext a; fin_cases a <;> rfl
theorem hz4 : (![0, 0, 0, 0] : Fin 4 → Nat) = fun _ => 0 := by funext a; fin_cases a <;> rfl

set_option maxHeartbeats 6000000 in
/-- The body at a batch's first query tile. On whole staging buffers — the five inputs' at their blocks, the six
    outputs' at anything — it runs to the continuation with the inputs' buffers as they were and each output's at
    the block it stored: the class means, precisions and log-normalisers of the batch, and the products of those
    (read back from their buffers) with the tile's queries. -/
theorem runA (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x1x2048 .i32) (harg4 : arg4.IsWhole) (arg5 : Memref sig .tc .vmem S1x256x128 .f32) (harg5 : arg5.IsWhole) (arg6 : Memref sig .tc .vmem S1x256x128 .f32) (harg6 : arg6.IsWhole) (arg7 : Memref sig .tc .vmem S1x32x128 .f32) (harg7 : arg7.IsWhole) (arg8 : Memref sig .tc .vmem S1x32x128 .f32) (harg8 : arg8.IsWhole) (arg9 : Memref sig .tc .vmem S1x32x1 .f32) (harg9 : arg9.IsWhole) (arg10 : Memref sig .tc .vmem S1x32x256x128 .f32) (harg10 : arg10.IsWhole) (arg11 : Memref sig .tc .vmem S1x32x256x128 .f32) (harg11 : arg11.IsWhole) (arg12 : Memref sig .tc .vmem S1x32x256 .f32) (harg12 : arg12.IsWhole) (hc0 : k0_cond1 i = 1#1)
    (x0 x1 : Vec F S1x2048x128 .f32) (x2 : Vec F S1x1x2048 .i32) (x3 x4 : Vec F S1x256x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (pmBlk x0 x1 x2) ∗ owns (c : Thread nD τ) arg8 fullShare (ppBlk x1 x2) ∗ owns (c : Thread nD τ) arg9 fullShare (lnBlk x0 x1 x2) ∗ owns (c : Thread nD τ) arg10 fullShare (omBlk (pmBlk x0 x1 x2) (ppBlk x1 x2) x3 x4) ∗ owns (c : Thread nD τ) arg11 fullShare (opBlk (ppBlk x1 x2) x4) ∗ owns (c : Thread nD τ) arg12 fullShare (olBlk (pmBlk x0 x1 x2) (ppBlk x1 x2) x3 x4)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12) K := by
    intro E K
    simp only [cc0__fused_kernel_eq_skeleton]; unfold cc0__fused_kernel_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      sl_unfold_run_names
      rw [View.read_writes_eq_canon _ _ _ (fun y => ⟨_, List.mem_singleton_self _, View.mem_set_unit_zero hz3 inb_S1x32x128_S1x32x128_0_0_0 y⟩)]
      rw [View.canon_unit_zero hz3]
      simp only [View.readAt_eq_ld]
      simp only [harg2.read_unread, harg3.read_unread, harg4.read_unread, harg5.read_unread, harg6.read_unread, harg7.read_unread, harg8.read_unread, harg9.read_unread]
      simp only [View.ld_unit_zero (S := S1x2048x128) hz3, View.ld_unit_zero (S := S1x1x2048) hz3, View.ld_unit_zero (S := S1x256x128) hz3, View.ld_unit_zero (S := S1x32x128) hz3, View.ld_unit_zero (S := S1x32x1) hz3]
      try simp only [View.readCov_unit_zero (S := S1x32x128) _ hz3]
      exact rfl
    isplitl [H6]
    · iexists _; isplitr; swap; · iexact H6
      ipureintro
      sl_unfold_run_names
      rw [View.read_writes_eq_canon _ _ _ (fun y => ⟨_, List.mem_singleton_self _, View.mem_set_unit_zero hz3 inb_S1x32x128_S1x32x128_0_0_0 y⟩)]
      rw [View.canon_unit_zero hz3]
      simp only [View.readAt_eq_ld]
      simp only [harg2.read_unread, harg3.read_unread, harg4.read_unread, harg5.read_unread, harg6.read_unread, harg7.read_unread, harg8.read_unread, harg9.read_unread]
      simp only [View.ld_unit_zero (S := S1x2048x128) hz3, View.ld_unit_zero (S := S1x1x2048) hz3, View.ld_unit_zero (S := S1x256x128) hz3, View.ld_unit_zero (S := S1x32x128) hz3, View.ld_unit_zero (S := S1x32x1) hz3]
      try simp only [View.readCov_unit_zero (S := S1x32x128) _ hz3]
      exact rfl
    isplitl [H7]
    · iexists _; isplitr; swap; · iexact H7
      ipureintro
      sl_unfold_run_names
      rw [View.read_writes_eq_canon _ _ _ (fun y => ⟨_, List.mem_singleton_self _, View.mem_set_unit_zero hz3 inb_S1x32x1_S1x32x1_0_0_0 y⟩)]
      rw [View.canon_unit_zero hz3]
      simp only [View.readAt_eq_ld]
      simp only [harg2.read_unread, harg3.read_unread, harg4.read_unread, harg5.read_unread, harg6.read_unread, harg7.read_unread, harg8.read_unread, harg9.read_unread]
      simp only [View.ld_unit_zero (S := S1x2048x128) hz3, View.ld_unit_zero (S := S1x1x2048) hz3, View.ld_unit_zero (S := S1x256x128) hz3, View.ld_unit_zero (S := S1x32x128) hz3, View.ld_unit_zero (S := S1x32x1) hz3]
      try simp only [View.readCov_unit_zero (S := S1x32x128) _ hz3]
      exact rfl
    isplitl [H8]
    · iexists _; isplitr; swap; · iexact H8
      ipureintro
      sl_unfold_run_names
      rw [View.read_writes_eq_canon _ _ _ (fun y => ⟨_, List.mem_singleton_self _, View.mem_set_unit_zero hz4 inb_S1x32x256x128_S1x32x256x128_0_0_0_0 y⟩)]
      rw [View.canon_unit_zero hz4]
      simp only [View.readAt_eq_ld]
      simp only [harg2.read_unread, harg3.read_unread, harg4.read_unread, harg5.read_unread, harg6.read_unread, harg7.read_unread, harg8.read_unread, harg9.read_unread]
      simp only [View.ld_unit_zero (S := S1x2048x128) hz3, View.ld_unit_zero (S := S1x1x2048) hz3, View.ld_unit_zero (S := S1x256x128) hz3, View.ld_unit_zero (S := S1x32x128) hz3, View.ld_unit_zero (S := S1x32x1) hz3]
      try simp only [View.readCov_unit_zero (S := S1x32x128) _ hz3]
      exact rfl
    isplitl [H9]
    · iexists _; isplitr; swap; · iexact H9
      ipureintro
      sl_unfold_run_names
      rw [View.read_writes_eq_canon _ _ _ (fun y => ⟨_, List.mem_singleton_self _, View.mem_set_unit_zero hz4 inb_S1x32x256x128_S1x32x256x128_0_0_0_0 y⟩)]
      rw [View.canon_unit_zero hz4]
      simp only [View.readAt_eq_ld]
      simp only [harg2.read_unread, harg3.read_unread, harg4.read_unread, harg5.read_unread, harg6.read_unread, harg7.read_unread, harg8.read_unread, harg9.read_unread]
      simp only [View.ld_unit_zero (S := S1x2048x128) hz3, View.ld_unit_zero (S := S1x1x2048) hz3, View.ld_unit_zero (S := S1x256x128) hz3, View.ld_unit_zero (S := S1x32x128) hz3, View.ld_unit_zero (S := S1x32x1) hz3]
      try simp only [View.readCov_unit_zero (S := S1x32x128) _ hz3]
      exact rfl
    iexists _; isplitr; swap; · iexact H10
    ipureintro
    sl_unfold_run_names
    rw [View.read_writes_eq_canon _ _ _ (fun y => ⟨_, List.mem_singleton_self _, View.mem_set_unit_zero hz3 inb_S1x32x256_S1x32x256_0_0_0 y⟩)]
    rw [View.canon_unit_zero hz3]
    simp only [View.readAt_eq_ld]
    simp only [harg2.read_unread, harg3.read_unread, harg4.read_unread, harg5.read_unread, harg6.read_unread, harg7.read_unread, harg8.read_unread, harg9.read_unread]
    simp only [View.ld_unit_zero (S := S1x2048x128) hz3, View.ld_unit_zero (S := S1x1x2048) hz3, View.ld_unit_zero (S := S1x256x128) hz3, View.ld_unit_zero (S := S1x32x128) hz3, View.ld_unit_zero (S := S1x32x1) hz3]
    try simp only [View.readCov_unit_zero (S := S1x32x128) _ hz3]
    exact rfl

set_option maxHeartbeats 1000000 in
/-- The body at a batch's later query tiles. The class means and precisions are in their buffers (`y5`, `y6`) from
    the batch's first tile and are only read; the class log-normalisers' buffer is not touched; the three product
    buffers end at the products of the classes with the tile's queries. -/
theorem runB (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x1x2048 .i32) (harg4 : arg4.IsWhole) (arg5 : Memref sig .tc .vmem S1x256x128 .f32) (harg5 : arg5.IsWhole) (arg6 : Memref sig .tc .vmem S1x256x128 .f32) (harg6 : arg6.IsWhole) (arg7 : Memref sig .tc .vmem S1x32x128 .f32) (harg7 : arg7.IsWhole) (arg8 : Memref sig .tc .vmem S1x32x128 .f32) (harg8 : arg8.IsWhole) (arg9 : Memref sig .tc .vmem S1x32x1 .f32) (harg9 : arg9.IsWhole) (arg10 : Memref sig .tc .vmem S1x32x256x128 .f32) (harg10 : arg10.IsWhole) (arg11 : Memref sig .tc .vmem S1x32x256x128 .f32) (harg11 : arg11.IsWhole) (arg12 : Memref sig .tc .vmem S1x32x256 .f32) (harg12 : arg12.IsWhole) (hc0 : ¬ k0_cond1 i = 1#1)
    (x0 x1 : Vec F S1x2048x128 .f32) (x2 : Vec F S1x1x2048 .i32) (x3 x4 : Vec F S1x256x128 .f32)
    (y5 y6 : Vec F S1x32x128 .f32) (y7 : Vec F S1x32x1 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare (omBlk y5 y6 x3 x4) ∗ owns (c : Thread nD τ) arg11 fullShare (opBlk y6 x4) ∗ owns (c : Thread nD τ) arg12 fullShare (olBlk y5 y6 x3 x4)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12) K := by
    intro E K
    simp only [cc0__fused_kernel_eq_skeleton]; unfold cc0__fused_kernel_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5; obtain rfl := harg8.eq_unread hf6; obtain rfl := harg9.eq_unread hf7
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; swap; · iexact H8
      ipureintro
      sl_unfold_run_names
      rw [View.read_writes_eq_canon _ _ _ (fun y => ⟨_, List.mem_singleton_self _, View.mem_set_unit_zero hz4 inb_S1x32x256x128_S1x32x256x128_0_0_0_0 y⟩), View.canon_unit_zero hz4]
      simp only [View.readAt_eq_ld, harg2.read_unread, harg3.read_unread, harg4.read_unread, harg5.read_unread, harg6.read_unread, harg7.read_unread, harg8.read_unread, harg9.read_unread,
        View.ld_unit_zero (S := S1x2048x128) hz3, View.ld_unit_zero (S := S1x1x2048) hz3, View.ld_unit_zero (S := S1x256x128) hz3,
        View.ld_unit_zero (S := S1x32x128) hz3, View.ld_unit_zero (S := S1x32x1) hz3, View.readCov_unit_zero (S := S1x32x128) _ hz3]
      try rfl
    isplitl [H9]
    · iexists _; isplitr; swap; · iexact H9
      ipureintro
      sl_unfold_run_names
      rw [View.read_writes_eq_canon _ _ _ (fun y => ⟨_, List.mem_singleton_self _, View.mem_set_unit_zero hz4 inb_S1x32x256x128_S1x32x256x128_0_0_0_0 y⟩), View.canon_unit_zero hz4]
      simp only [View.readAt_eq_ld, harg2.read_unread, harg3.read_unread, harg4.read_unread, harg5.read_unread, harg6.read_unread, harg7.read_unread, harg8.read_unread, harg9.read_unread,
        View.ld_unit_zero (S := S1x2048x128) hz3, View.ld_unit_zero (S := S1x1x2048) hz3, View.ld_unit_zero (S := S1x256x128) hz3,
        View.ld_unit_zero (S := S1x32x128) hz3, View.ld_unit_zero (S := S1x32x1) hz3, View.readCov_unit_zero (S := S1x32x128) _ hz3]
      try rfl
    iexists _; isplitr; swap; · iexact H10
    ipureintro
    sl_unfold_run_names
    rw [View.read_writes_eq_canon _ _ _ (fun y => ⟨_, List.mem_singleton_self _, View.mem_set_unit_zero hz3 inb_S1x32x256_S1x32x256_0_0_0 y⟩), View.canon_unit_zero hz3]
    simp only [View.readAt_eq_ld, harg2.read_unread, harg3.read_unread, harg4.read_unread, harg5.read_unread, harg6.read_unread, harg7.read_unread, harg8.read_unread, harg9.read_unread,
      View.ld_unit_zero (S := S1x2048x128) hz3, View.ld_unit_zero (S := S1x1x2048) hz3, View.ld_unit_zero (S := S1x256x128) hz3,
      View.ld_unit_zero (S := S1x32x128) hz3, View.ld_unit_zero (S := S1x32x1) hz3, View.readCov_unit_zero (S := S1x32x128) _ hz3]
    try rfl

/-! ## The schedule -/

/-- The body computes the classes at the points that open a batch: the even ones. -/
theorem hcond : ∀ t : Fin cfg0.N, k0_cond1 (grid0.coords t) = 1#1 ↔ t.val % 2 = 0 :=
  (by decide +kernel : ∀ t : Fin grid0.N, k0_cond1 (grid0.coords t) = 1#1 ↔ t.val % 2 = 0)

/-- The point that opens `t`'s batch. -/
def base (t : Fin cfg0.N) : Fin cfg0.N := ⟨t.val - t.val % 2, lt_of_le_of_lt (Nat.sub_le _ _) t.isLt⟩

theorem base_even (t : Fin cfg0.N) (h : t.val % 2 = 0) : base t = t :=
  Fin.ext (by show t.val - t.val % 2 = t.val; omega)

theorem base_odd (t : Fin cfg0.N) (h : ¬ t.val % 2 = 0) :
    base ⟨t.val - 1, lt_of_le_of_lt (Nat.sub_le _ _) t.isLt⟩ = base t :=
  Fin.ext (by show t.val - 1 - (t.val - 1) % 2 = t.val - t.val % 2; omega)

/-- Each window's current staging buffer at a point, as the pipeline passes it to the body. -/
abbrev ms_0 (t : Fin cfg0.N) : Memref sig .tc .vmem S1x2048x128 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1x2048x128 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1x1x2048 .i32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1x256x128 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S1x256x128 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S1x32x128 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S1x32x128 .f32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S1x32x1 .f32 := win0_7.stage (cfg0.slots t 7)
abbrev hs_7 (t : Fin cfg0.N) : (ms_7 t).IsWhole := hstage0_7 ((cfg0.slots t 7).cast nbuf0_7)
abbrev ms_8 (t : Fin cfg0.N) : Memref sig .tc .vmem S1x32x256x128 .f32 := win0_8.stage (cfg0.slots t 8)
abbrev hs_8 (t : Fin cfg0.N) : (ms_8 t).IsWhole := hstage0_8 ((cfg0.slots t 8).cast nbuf0_8)
abbrev ms_9 (t : Fin cfg0.N) : Memref sig .tc .vmem S1x32x256x128 .f32 := win0_9.stage (cfg0.slots t 9)
abbrev hs_9 (t : Fin cfg0.N) : (ms_9 t).IsWhole := hstage0_9 ((cfg0.slots t 9).cast nbuf0_9)
abbrev ms_10 (t : Fin cfg0.N) : Memref sig .tc .vmem S1x32x256 .f32 := win0_10.stage (cfg0.slots t 10)
abbrev hs_10 (t : Fin cfg0.N) : (ms_10 t).IsWhole := hstage0_10 ((cfg0.slots t 10).cast nbuf0_10)

/-! ## What the body leaves in the output buffers -/

/-- The class means, precisions and log-normalisers of the batch opened at point `s`. -/
def pmAt (c : Dev nD) (s : Fin cfg0.N) : Vec F S1x32x128 .f32 := pmBlk (iblk m c 0 s) (iblk m c 1 s) (iblk m c 2 s)
def ppAt (c : Dev nD) (s : Fin cfg0.N) : Vec F S1x32x128 .f32 := ppBlk (iblk m c 1 s) (iblk m c 2 s)
def lnAt (c : Dev nD) (s : Fin cfg0.N) : Vec F S1x32x1 .f32 := lnBlk (iblk m c 0 s) (iblk m c 1 s) (iblk m c 2 s)

/-- The products of the classes of `t`'s batch with the queries of `t`'s tile. -/
def omAt (c : Dev nD) (t : Fin cfg0.N) : Vec F S1x32x256x128 .f32 :=
  omBlk (pmAt m c (base t)) (ppAt m c (base t)) (iblk m c 3 t) (iblk m c 4 t)
def opAt (c : Dev nD) (t : Fin cfg0.N) : Vec F S1x32x256x128 .f32 := opBlk (ppAt m c (base t)) (iblk m c 4 t)
def olAt (c : Dev nD) (t : Fin cfg0.N) : Vec F S1x32x256 .f32 :=
  olBlk (pmAt m c (base t)) (ppAt m c (base t)) (iblk m c 3 t) (iblk m c 4 t)

/-- The proof data of the pipeline on core `c`: the arrays as the region finds them; after the body at point `t` every
    input's buffer still at its block, the three class buffers at the classes of `t`'s batch (computed at the batch's
    first tile and kept through its second), the three product buffers at the tile's products. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => pmAt m c (base t)
    | ⟨6, _⟩ => ppAt m c (base t)
    | ⟨7, _⟩ => lnAt m c (base t)
    | ⟨8, _⟩ => omAt m c t
    | ⟨9, _⟩ => opAt m c t
    | ⟨10, _⟩ => olAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = pmAt m c (base t) := by dsimp only [dats]
theorem after_6 (c : Dev nD) (t : Fin cfg0.N) : (dats m 0 c).after 6 t = ppAt m c (base t) := by dsimp only [dats]
theorem after_7 (c : Dev nD) (t : Fin cfg0.N) : (dats m 0 c).after 7 t = lnAt m c (base t) := by dsimp only [dats]
theorem after_8 (c : Dev nD) (t : Fin cfg0.N) : (dats m 0 c).after 8 t = omAt m c t := by dsimp only [dats]
theorem after_9 (c : Dev nD) (t : Fin cfg0.N) : (dats m 0 c).after 9 t = opAt m c t := by dsimp only [dats]
theorem after_10 (c : Dev nD) (t : Fin cfg0.N) : (dats m 0 c).after 10 t = olAt m c t := by dsimp only [dats]

/-- Each input's current buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- At a batch's second tile the buffer of window 5 holds what the first tile left: the point before did not write
    it back, and stored into it. -/
theorem before_5_odd (c : Dev nD) (t : Fin cfg0.N) (h : ¬ t.val % 2 = 0) (d) :
    (dats m 0 c).before 5 t d = pmAt m c (base t) := by
  have ht : t.val ≠ 0 := fun h0 => h (by rw [h0])
  have hfl : (cfg0.win 5).flush ⟨t.val - 1, lt_of_le_of_lt (Nat.sub_le _ _) t.isLt⟩ = false :=
    Bool.eq_false_iff.mpr fun hh => by have := (flush0_5 _).mp hh; dsimp only at this; omega
  have hc : k0_cond1 (grid0.coords ⟨t.val - 1, lt_of_le_of_lt (Nat.sub_le _ _) t.isLt⟩) = 1#1 :=
    (hcond _).mpr (by show (t.val - 1) % 2 = 0; omega)
  have hid : cfg0.idle 5 (cfg0.grid.coords ⟨t.val - 1, lt_of_le_of_lt (Nat.sub_le _ _) t.isLt⟩) = false := by
    show (!(k0_cond1 (grid0.coords ⟨t.val - 1, _⟩) == 1#1)) = false
    rw [hc]; rfl
  rw [Dat.before_of_pos _ 5 t ht ((cfg0.win 5).fetch_out rfl t), hfl, if_neg Bool.false_ne_true]
  unfold Dat.left; rw [hid]
  show (dats m 0 c).kept 5 _ d = _
  unfold Dat.kept
  rw [Pipeline.fill_of_clip_none 5 _ (fun _ => rfl) d ((dats m 0 c).after 5 _), Window.fill_cut, after_5, base_odd t h]

/-- At a batch's second tile the buffer of window 6 holds what the first tile left: the point before did not write
    it back, and stored into it. -/
theorem before_6_odd (c : Dev nD) (t : Fin cfg0.N) (h : ¬ t.val % 2 = 0) (d) :
    (dats m 0 c).before 6 t d = ppAt m c (base t) := by
  have ht : t.val ≠ 0 := fun h0 => h (by rw [h0])
  have hfl : (cfg0.win 6).flush ⟨t.val - 1, lt_of_le_of_lt (Nat.sub_le _ _) t.isLt⟩ = false :=
    Bool.eq_false_iff.mpr fun hh => by have := (flush0_6 _).mp hh; dsimp only at this; omega
  have hc : k0_cond1 (grid0.coords ⟨t.val - 1, lt_of_le_of_lt (Nat.sub_le _ _) t.isLt⟩) = 1#1 :=
    (hcond _).mpr (by show (t.val - 1) % 2 = 0; omega)
  have hid : cfg0.idle 6 (cfg0.grid.coords ⟨t.val - 1, lt_of_le_of_lt (Nat.sub_le _ _) t.isLt⟩) = false := by
    show (!(k0_cond1 (grid0.coords ⟨t.val - 1, _⟩) == 1#1)) = false
    rw [hc]; rfl
  rw [Dat.before_of_pos _ 6 t ht ((cfg0.win 6).fetch_out rfl t), hfl, if_neg Bool.false_ne_true]
  unfold Dat.left; rw [hid]
  show (dats m 0 c).kept 6 _ d = _
  unfold Dat.kept
  rw [Pipeline.fill_of_clip_none 6 _ (fun _ => rfl) d ((dats m 0 c).after 6 _), Window.fill_cut, after_6, base_odd t h]

/-- At a batch's second tile the buffer of window 7 holds what the first tile left: the point before did not write
    it back, and stored into it. -/
theorem before_7_odd (c : Dev nD) (t : Fin cfg0.N) (h : ¬ t.val % 2 = 0) (d) :
    (dats m 0 c).before 7 t d = lnAt m c (base t) := by
  have ht : t.val ≠ 0 := fun h0 => h (by rw [h0])
  have hfl : (cfg0.win 7).flush ⟨t.val - 1, lt_of_le_of_lt (Nat.sub_le _ _) t.isLt⟩ = false :=
    Bool.eq_false_iff.mpr fun hh => by have := (flush0_7 _).mp hh; dsimp only at this; omega
  have hc : k0_cond1 (grid0.coords ⟨t.val - 1, lt_of_le_of_lt (Nat.sub_le _ _) t.isLt⟩) = 1#1 :=
    (hcond _).mpr (by show (t.val - 1) % 2 = 0; omega)
  have hid : cfg0.idle 7 (cfg0.grid.coords ⟨t.val - 1, lt_of_le_of_lt (Nat.sub_le _ _) t.isLt⟩) = false := by
    show (!(k0_cond1 (grid0.coords ⟨t.val - 1, _⟩) == 1#1)) = false
    rw [hc]; rfl
  rw [Dat.before_of_pos _ 7 t ht ((cfg0.win 7).fetch_out rfl t), hfl, if_neg Bool.false_ne_true]
  unfold Dat.left; rw [hid]
  show (dats m 0 c).kept 7 _ d = _
  unfold Dat.kept
  rw [Pipeline.fill_of_clip_none 7 _ (fun _ => rfl) d ((dats m 0 c).after 7 _), Window.fill_cut, after_7, base_odd t h]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d))
    ∗ (∃ d, owns (c : Thread nD τ) (ms_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t)
    ∗ owns (c : Thread nD τ) (ms_5 t) fullShare ((dats m 0 c).after 5 t)
    ∗ owns (c : Thread nD τ) (ms_6 t) fullShare ((dats m 0 c).after 6 t)
    ∗ owns (c : Thread nD τ) (ms_7 t) fullShare ((dats m 0 c).after 7 t)
    ∗ owns (c : Thread nD τ) (ms_8 t) fullShare ((dats m 0 c).after 8 t)
    ∗ owns (c : Thread nD τ) (ms_9 t) fullShare ((dats m 0 c).after 9 t)
    ∗ owns (c : Thread nD τ) (ms_10 t) fullShare ((dats m 0 c).after 10 t))

set_option maxHeartbeats 1000000 in
/-- The body at any point. The inputs' buffers hold their blocks. At a point that opens a batch the case that computes
    the classes applies, the output buffers at anything; at the batch's second tile the class buffers hold the
    first tile's classes and the other case applies. The invariant passes through unread; nothing is owed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10]
  by_cases h0 : t.val % 2 = 0
  · unfold omAt opAt olAt
    rw [base_even t h0]
    unfold pmAt ppAt lnAt
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (runA c (grid0.coords t) _ _ _ _ _ _ _ _ _ _ _ _ _ _ _ _ _ _ _ _ _ _ ((hcond t).mpr h0)
      (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · simp only [before_5_odd m c t h0, before_6_odd m c t h0, before_7_odd m c t h0]
    unfold omAt opAt olAt
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (runB c (grid0.coords t) _ _ _ _ _ _ _ _ _ _ _ _ _ _ _ _ _ _ _ _ _ _ (fun hh => h0 ((hcond t).mp hh))
      (iblk m c 0 t) (iblk m c 1 t) (iblk m c 2 t) (iblk m c 3 t) (iblk m c 4 t)
      (pmAt m c (base t)) (ppAt m c (base t)) (lnAt m c (base t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- At a point that opens a batch no window is idle. -/
theorem idle_even (t : Fin cfg0.N) (h : t.val % 2 = 0) :
    idle0 5 (grid0.coords t) = false ∧ idle0 6 (grid0.coords t) = false ∧ idle0 7 (grid0.coords t) = false := by
  have hc : k0_cond1 (grid0.coords t) = 1#1 := (hcond t).mpr h
  have hb : (!(k0_cond1 (grid0.coords t) == 1#1)) = false := by rw [hc]; rfl
  exact ⟨hb, hb, hb⟩

/-- At a batch's second tile the three class windows are idle — and written back. -/
theorem idle_odd (t : Fin cfg0.N) (h : ¬ t.val % 2 = 0) :
    idle0 5 (grid0.coords t) = true ∧ idle0 6 (grid0.coords t) = true ∧ idle0 7 (grid0.coords t) = true := by
  have hc : ¬ k0_cond1 (grid0.coords t) = 1#1 := fun hh => h ((hcond t).mp hh)
  have hb : (!(k0_cond1 (grid0.coords t) == 1#1)) = true := by
    rw [Bool.not_eq_true', beq_eq_false_iff_ne]; exact hc
  exact ⟨hb, hb, hb⟩

theorem flush_odd (t : Fin cfg0.N) (h : ¬ t.val % 2 = 0) :
    (win0 5).flush t = true ∧ (win0 6).flush t = true ∧ (win0 7).flush t = true :=
  ⟨(flush0_5 t).mpr (by omega), (flush0_6 t).mpr (by omega), (flush0_7 t).mpr (by omega)⟩

/-- The library's body obligation, at every point. -/
theorem body_obligation (c : Dev nD) : BodyObligation (dats (F := F) m 0 c) (defs₀ (F := F)) Variants.none () Set.univ := fun t => by
  rw [bigSep_W0, bigSep_W0]
  by_cases h : t.val % 2 = 0
  · obtain ⟨i5, i6, i7⟩ := idle_even t h
    simp only [i5, i6, i7]
    exact sound_body m c t
  · obtain ⟨i5, i6, i7⟩ := idle_odd t h
    obtain ⟨f5, f6, f7⟩ := flush_odd t h
    simp only [i5, i6, i7, f5, f6, f7]
    exact sound_body m c t

/-! ## The run and the frame -/

set_option backward.isDefEq.respectTransparency.types false in
/-- Every weakly fair execution of the program terminates, and every final state has every array of the pipeline at
    what the write-backs of the proof data leave in it and every other buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs and leaves its five argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Hand

end
-- ==== Proof.Blocks.lean ====
/-
  What the kernel body stores into its six output blocks, as functions of the blocks it loaded.

  At the first query tile of a batch the body computes, from the batch's block of support means `x0`, of support
  precisions `x1` and of class labels `x2`, the class means (`pmBlk`), the class precisions (`ppBlk`) and the
  classes' log-normalisers (`lnBlk`). At every query tile it reads the class means `pm` and precisions `pp` back and
  combines them with the tile's query means `x3` and precisions `x4`: the products' precisions (`opBlk`), means
  (`omBlk`) and log-normalisers (`olBlk`).
-/
import proofs.«409652_j37331855737078_2_alg».proof.Proof.Gen.KernelIdeal.Skeleton

noncomputable section

namespace Cert.KernelIdeal.Hand

open Cert.KernelIdeal Cert.KernelIdeal.Gen Idealize.ShloMosaic

variable {F : FTy → Type} [FloatOps F]

def pmBlk (x0 x1 : Vec F S1x2048x128 .f32) (x2 : Vec F S1x1x2048 .i32) : Vec F S1x32x128 .f32 :=
  k0_pay10 (k0_pay6 x0 x1 x2)

def ppBlk (x1 : Vec F S1x2048x128 .f32) (x2 : Vec F S1x1x2048 .i32) : Vec F S1x32x128 .f32 :=
  k0_pay11 (k0_pay5 x1 x2)

def lnBlk (x0 x1 : Vec F S1x2048x128 .f32) (x2 : Vec F S1x1x2048 .i32) : Vec F S1x32x1 .f32 :=
  k0_pay12 (k0_pay7 x0 x1 x2) (k0_pay8 x2) (k0_pay9 x1 x2)

def opBlk (pp : Vec F S1x32x128 .f32) (x4 : Vec F S1x256x128 .f32) : Vec F S1x32x256x128 .f32 :=
  k0_pay18 pp x4

def omBlk (pm pp : Vec F S1x32x128 .f32) (x3 x4 : Vec F S1x256x128 .f32) : Vec F S1x32x256x128 .f32 :=
  k0_pay20 pm pp x3 x4

def olBlk (pm pp : Vec F S1x32x128 .f32) (x3 x4 : Vec F S1x256x128 .f32) : Vec F S1x32x256 .f32 :=
  k0_pay1 (k0_pay13 pp) (k0_pay14 pm) (k0_pay15 x4) (k0_pay17 pp x4) (k0_pay21 pm pp x3 x4) (k0_pay22 x3)

end Cert.KernelIdeal.Hand

end
-- ==== Proof.Body.lean ====
/-
  The kernel body at every grid point, and the program's run.

  The grid has 32 points: batch b = t / 2, query tile t % 2. At a batch's first tile (t even) the body computes the
  batch's class means, class precisions and class log-normalisers from the batch's support blocks and stores them into
  three output buffers; at both tiles it reads the class means and precisions back from those buffers and stores the
  products with the tile's queries into three more. The three class buffers are written back only after the batch's
  second tile, where the body stores nothing into them: they then still hold what the first tile stored. So after
  the body at point t the class buffers hold the classes of the batch opened at `base t` (the even point of t's
  batch) and the product buffers the products of those classes with tile t's queries. Stated for any float
  instance: nothing here depends on what a float is.
-/
import proofs.«409652_j37331855737078_2_alg».proof.Proof.Gen.KernelIdeal.Frame
import proofs.«409652_j37331855737078_2_alg».proof.Proof.Blocks
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero offsets of a whole-block access, however many axes. -/
theorem hz3 : (![0, 0, 0] : Fin 3 → Nat) = fun _ => 0 := by funext a; fin_cases a <;> rfl
theorem hz4 : (![0, 0, 0, 0] : Fin 4 → Nat) = fun _ => 0 := by funext a; fin_cases a <;> rfl

set_option maxHeartbeats 6000000 in
/-- The body at a batch's first query tile. On whole staging buffers — the five inputs' at their blocks, the six
    outputs' at anything — it runs to the continuation with the inputs' buffers as they were and each output's at
    the block it stored: the class means, precisions and log-normalisers of the batch, and the products of those
    (read back from their buffers) with the tile's queries. -/
theorem runA (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x1x2048 .i32) (harg4 : arg4.IsWhole) (arg5 : Memref sig .tc .vmem S1x256x128 .f32) (harg5 : arg5.IsWhole) (arg6 : Memref sig .tc .vmem S1x256x128 .f32) (harg6 : arg6.IsWhole) (arg7 : Memref sig .tc .vmem S1x32x128 .f32) (harg7 : arg7.IsWhole) (arg8 : Memref sig .tc .vmem S1x32x128 .f32) (harg8 : arg8.IsWhole) (arg9 : Memref sig .tc .vmem S1x32x1 .f32) (harg9 : arg9.IsWhole) (arg10 : Memref sig .tc .vmem S1x32x256x128 .f32) (harg10 : arg10.IsWhole) (arg11 : Memref sig .tc .vmem S1x32x256x128 .f32) (harg11 : arg11.IsWhole) (arg12 : Memref sig .tc .vmem S1x32x256 .f32) (harg12 : arg12.IsWhole) (hc0 : k0_cond1 i = 1#1)
    (x0 x1 : Vec F S1x2048x128 .f32) (x2 : Vec F S1x1x2048 .i32) (x3 x4 : Vec F S1x256x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (pmBlk x0 x1 x2) ∗ owns (c : Thread nD τ) arg8 fullShare (ppBlk x1 x2) ∗ owns (c : Thread nD τ) arg9 fullShare (lnBlk x0 x1 x2) ∗ owns (c : Thread nD τ) arg10 fullShare (omBlk (pmBlk x0 x1 x2) (ppBlk x1 x2) x3 x4) ∗ owns (c : Thread nD τ) arg11 fullShare (opBlk (ppBlk x1 x2) x4) ∗ owns (c : Thread nD τ) arg12 fullShare (olBlk (pmBlk x0 x1 x2) (ppBlk x1 x2) x3 x4)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12) K := by
    intro E K
    simp only [cc0__fused_kernel_eq_skeleton]; unfold cc0__fused_kernel_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      sl_unfold_run_names
      rw [View.read_writes_eq_canon _ _ _ (fun y => ⟨_, List.mem_singleton_self _, View.mem_set_unit_zero hz3 inb_S1x32x128_S1x32x128_0_0_0 y⟩)]
      rw [View.canon_unit_zero hz3]
      simp only [View.readAt_eq_ld]
      simp only [harg2.read_unread, harg3.read_unread, harg4.read_unread, harg5.read_unread, harg6.read_unread, harg7.read_unread, harg8.read_unread, harg9.read_unread]
      simp only [View.ld_unit_zero (S := S1x2048x128) hz3, View.ld_unit_zero (S := S1x1x2048) hz3, View.ld_unit_zero (S := S1x256x128) hz3, View.ld_unit_zero (S := S1x32x128) hz3, View.ld_unit_zero (S := S1x32x1) hz3]
      try simp only [View.readCov_unit_zero (S := S1x32x128) _ hz3]
      exact rfl
    isplitl [H6]
    · iexists _; isplitr; swap; · iexact H6
      ipureintro
      sl_unfold_run_names
      rw [View.read_writes_eq_canon _ _ _ (fun y => ⟨_, List.mem_singleton_self _, View.mem_set_unit_zero hz3 inb_S1x32x128_S1x32x128_0_0_0 y⟩)]
      rw [View.canon_unit_zero hz3]
      simp only [View.readAt_eq_ld]
      simp only [harg2.read_unread, harg3.read_unread, harg4.read_unread, harg5.read_unread, harg6.read_unread, harg7.read_unread, harg8.read_unread, harg9.read_unread]
      simp only [View.ld_unit_zero (S := S1x2048x128) hz3, View.ld_unit_zero (S := S1x1x2048) hz3, View.ld_unit_zero (S := S1x256x128) hz3, View.ld_unit_zero (S := S1x32x128) hz3, View.ld_unit_zero (S := S1x32x1) hz3]
      try simp only [View.readCov_unit_zero (S := S1x32x128) _ hz3]
      exact rfl
    isplitl [H7]
    · iexists _; isplitr; swap; · iexact H7
      ipureintro
      sl_unfold_run_names
      rw [View.read_writes_eq_canon _ _ _ (fun y => ⟨_, List.mem_singleton_self _, View.mem_set_unit_zero hz3 inb_S1x32x1_S1x32x1_0_0_0 y⟩)]
      rw [View.canon_unit_zero hz3]
      simp only [View.readAt_eq_ld]
      simp only [harg2.read_unread, harg3.read_unread, harg4.read_unread, harg5.read_unread, harg6.read_unread, harg7.read_unread, harg8.read_unread, harg9.read_unread]
      simp only [View.ld_unit_zero (S := S1x2048x128) hz3, View.ld_unit_zero (S := S1x1x2048) hz3, View.ld_unit_zero (S := S1x256x128) hz3, View.ld_unit_zero (S := S1x32x128) hz3, View.ld_unit_zero (S := S1x32x1) hz3]
      try simp only [View.readCov_unit_zero (S := S1x32x128) _ hz3]
      exact rfl
    isplitl [H8]
    · iexists _; isplitr; swap; · iexact H8
      ipureintro
      sl_unfold_run_names
      rw [View.read_writes_eq_canon _ _ _ (fun y => ⟨_, List.mem_singleton_self _, View.mem_set_unit_zero hz4 inb_S1x32x256x128_S1x32x256x128_0_0_0_0 y⟩)]
      rw [View.canon_unit_zero hz4]
      simp only [View.readAt_eq_ld]
      simp only [harg2.read_unread, harg3.read_unread, harg4.read_unread, harg5.read_unread, harg6.read_unread, harg7.read_unread, harg8.read_unread, harg9.read_unread]
      simp only [View.ld_unit_zero (S := S1x2048x128) hz3, View.ld_unit_zero (S := S1x1x2048) hz3, View.ld_unit_zero (S := S1x256x128) hz3, View.ld_unit_zero (S := S1x32x128) hz3, View.ld_unit_zero (S := S1x32x1) hz3]
      try simp only [View.readCov_unit_zero (S := S1x32x128) _ hz3]
      exact rfl
    isplitl [H9]
    · iexists _; isplitr; swap; · iexact H9
      ipureintro
      sl_unfold_run_names
      rw [View.read_writes_eq_canon _ _ _ (fun y => ⟨_, List.mem_singleton_self _, View.mem_set_unit_zero hz4 inb_S1x32x256x128_S1x32x256x128_0_0_0_0 y⟩)]
      rw [View.canon_unit_zero hz4]
      simp only [View.readAt_eq_ld]
      simp only [harg2.read_unread, harg3.read_unread, harg4.read_unread, harg5.read_unread, harg6.read_unread, harg7.read_unread, harg8.read_unread, harg9.read_unread]
      simp only [View.ld_unit_zero (S := S1x2048x128) hz3, View.ld_unit_zero (S := S1x1x2048) hz3, View.ld_unit_zero (S := S1x256x128) hz3, View.ld_unit_zero (S := S1x32x128) hz3, View.ld_unit_zero (S := S1x32x1) hz3]
      try simp only [View.readCov_unit_zero (S := S1x32x128) _ hz3]
      exact rfl
    iexists _; isplitr; swap; · iexact H10
    ipureintro
    sl_unfold_run_names
    rw [View.read_writes_eq_canon _ _ _ (fun y => ⟨_, List.mem_singleton_self _, View.mem_set_unit_zero hz3 inb_S1x32x256_S1x32x256_0_0_0 y⟩)]
    rw [View.canon_unit_zero hz3]
    simp only [View.readAt_eq_ld]
    simp only [harg2.read_unread, harg3.read_unread, harg4.read_unread, harg5.read_unread, harg6.read_unread, harg7.read_unread, harg8.read_unread, harg9.read_unread]
    simp only [View.ld_unit_zero (S := S1x2048x128) hz3, View.ld_unit_zero (S := S1x1x2048) hz3, View.ld_unit_zero (S := S1x256x128) hz3, View.ld_unit_zero (S := S1x32x128) hz3, View.ld_unit_zero (S := S1x32x1) hz3]
    try simp only [View.readCov_unit_zero (S := S1x32x128) _ hz3]
    exact rfl

set_option maxHeartbeats 1000000 in
/-- The body at a batch's later query tiles. The class means and precisions are in their buffers (`y5`, `y6`) from
    the batch's first tile and are only read; the class log-normalisers' buffer is not touched; the three product
    buffers end at the products of the classes with the tile's queries. -/
theorem runB (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x1x2048 .i32) (harg4 : arg4.IsWhole) (arg5 : Memref sig .tc .vmem S1x256x128 .f32) (harg5 : arg5.IsWhole) (arg6 : Memref sig .tc .vmem S1x256x128 .f32) (harg6 : arg6.IsWhole) (arg7 : Memref sig .tc .vmem S1x32x128 .f32) (harg7 : arg7.IsWhole) (arg8 : Memref sig .tc .vmem S1x32x128 .f32) (harg8 : arg8.IsWhole) (arg9 : Memref sig .tc .vmem S1x32x1 .f32) (harg9 : arg9.IsWhole) (arg10 : Memref sig .tc .vmem S1x32x256x128 .f32) (harg10 : arg10.IsWhole) (arg11 : Memref sig .tc .vmem S1x32x256x128 .f32) (harg11 : arg11.IsWhole) (arg12 : Memref sig .tc .vmem S1x32x256 .f32) (harg12 : arg12.IsWhole) (hc0 : ¬ k0_cond1 i = 1#1)
    (x0 x1 : Vec F S1x2048x128 .f32) (x2 : Vec F S1x1x2048 .i32) (x3 x4 : Vec F S1x256x128 .f32)
    (y5 y6 : Vec F S1x32x128 .f32) (y7 : Vec F S1x32x1 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare (omBlk y5 y6 x3 x4) ∗ owns (c : Thread nD τ) arg11 fullShare (opBlk y6 x4) ∗ owns (c : Thread nD τ) arg12 fullShare (olBlk y5 y6 x3 x4)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12) K := by
    intro E K
    simp only [cc0__fused_kernel_eq_skeleton]; unfold cc0__fused_kernel_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5; obtain rfl := harg8.eq_unread hf6; obtain rfl := harg9.eq_unread hf7
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; swap; · iexact H8
      ipureintro
      sl_unfold_run_names
      rw [View.read_writes_eq_canon _ _ _ (fun y => ⟨_, List.mem_singleton_self _, View.mem_set_unit_zero hz4 inb_S1x32x256x128_S1x32x256x128_0_0_0_0 y⟩), View.canon_unit_zero hz4]
      simp only [View.readAt_eq_ld, harg2.read_unread, harg3.read_unread, harg4.read_unread, harg5.read_unread, harg6.read_unread, harg7.read_unread, harg8.read_unread, harg9.read_unread,
        View.ld_unit_zero (S := S1x2048x128) hz3, View.ld_unit_zero (S := S1x1x2048) hz3, View.ld_unit_zero (S := S1x256x128) hz3,
        View.ld_unit_zero (S := S1x32x128) hz3, View.ld_unit_zero (S := S1x32x1) hz3, View.readCov_unit_zero (S := S1x32x128) _ hz3]
      try rfl
    isplitl [H9]
    · iexists _; isplitr; swap; · iexact H9
      ipureintro
      sl_unfold_run_names
      rw [View.read_writes_eq_canon _ _ _ (fun y => ⟨_, List.mem_singleton_self _, View.mem_set_unit_zero hz4 inb_S1x32x256x128_S1x32x256x128_0_0_0_0 y⟩), View.canon_unit_zero hz4]
      simp only [View.readAt_eq_ld, harg2.read_unread, harg3.read_unread, harg4.read_unread, harg5.read_unread, harg6.read_unread, harg7.read_unread, harg8.read_unread, harg9.read_unread,
        View.ld_unit_zero (S := S1x2048x128) hz3, View.ld_unit_zero (S := S1x1x2048) hz3, View.ld_unit_zero (S := S1x256x128) hz3,
        View.ld_unit_zero (S := S1x32x128) hz3, View.ld_unit_zero (S := S1x32x1) hz3, View.readCov_unit_zero (S := S1x32x128) _ hz3]
      try rfl
    iexists _; isplitr; swap; · iexact H10
    ipureintro
    sl_unfold_run_names
    rw [View.read_writes_eq_canon _ _ _ (fun y => ⟨_, List.mem_singleton_self _, View.mem_set_unit_zero hz3 inb_S1x32x256_S1x32x256_0_0_0 y⟩), View.canon_unit_zero hz3]
    simp only [View.readAt_eq_ld, harg2.read_unread, harg3.read_unread, harg4.read_unread, harg5.read_unread, harg6.read_unread, harg7.read_unread, harg8.read_unread, harg9.read_unread,
      View.ld_unit_zero (S := S1x2048x128) hz3, View.ld_unit_zero (S := S1x1x2048) hz3, View.ld_unit_zero (S := S1x256x128) hz3,
      View.ld_unit_zero (S := S1x32x128) hz3, View.ld_unit_zero (S := S1x32x1) hz3, View.readCov_unit_zero (S := S1x32x128) _ hz3]
    try rfl

/-! ## The schedule -/

/-- The body computes the classes at the points that open a batch: the even ones. -/
theorem hcond : ∀ t : Fin cfg0.N, k0_cond1 (grid0.coords t) = 1#1 ↔ t.val % 2 = 0 :=
  (by decide +kernel : ∀ t : Fin grid0.N, k0_cond1 (grid0.coords t) = 1#1 ↔ t.val % 2 = 0)

/-- The point that opens `t`'s batch. -/
def base (t : Fin cfg0.N) : Fin cfg0.N := ⟨t.val - t.val % 2, lt_of_le_of_lt (Nat.sub_le _ _) t.isLt⟩

theorem base_even (t : Fin cfg0.N) (h : t.val % 2 = 0) : base t = t :=
  Fin.ext (by show t.val - t.val % 2 = t.val; omega)

theorem base_odd (t : Fin cfg0.N) (h : ¬ t.val % 2 = 0) :
    base ⟨t.val - 1, lt_of_le_of_lt (Nat.sub_le _ _) t.isLt⟩ = base t :=
  Fin.ext (by show t.val - 1 - (t.val - 1) % 2 = t.val - t.val % 2; omega)

/-- Each window's current staging buffer at a point, as the pipeline passes it to the body. -/
abbrev ms_0 (t : Fin cfg0.N) : Memref sig .tc .vmem S1x2048x128 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1x2048x128 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1x1x2048 .i32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1x256x128 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S1x256x128 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S1x32x128 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S1x32x128 .f32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S1x32x1 .f32 := win0_7.stage (cfg0.slots t 7)
abbrev hs_7 (t : Fin cfg0.N) : (ms_7 t).IsWhole := hstage0_7 ((cfg0.slots t 7).cast nbuf0_7)
abbrev ms_8 (t : Fin cfg0.N) : Memref sig .tc .vmem S1x32x256x128 .f32 := win0_8.stage (cfg0.slots t 8)
abbrev hs_8 (t : Fin cfg0.N) : (ms_8 t).IsWhole := hstage0_8 ((cfg0.slots t 8).cast nbuf0_8)
abbrev ms_9 (t : Fin cfg0.N) : Memref sig .tc .vmem S1x32x256x128 .f32 := win0_9.stage (cfg0.slots t 9)
abbrev hs_9 (t : Fin cfg0.N) : (ms_9 t).IsWhole := hstage0_9 ((cfg0.slots t 9).cast nbuf0_9)
abbrev ms_10 (t : Fin cfg0.N) : Memref sig .tc .vmem S1x32x256 .f32 := win0_10.stage (cfg0.slots t 10)
abbrev hs_10 (t : Fin cfg0.N) : (ms_10 t).IsWhole := hstage0_10 ((cfg0.slots t 10).cast nbuf0_10)

/-! ## What the body leaves in the output buffers -/

/-- The class means, precisions and log-normalisers of the batch opened at point `s`. -/
def pmAt (c : Dev nD) (s : Fin cfg0.N) : Vec F S1x32x128 .f32 := pmBlk (iblk m c 0 s) (iblk m c 1 s) (iblk m c 2 s)
def ppAt (c : Dev nD) (s : Fin cfg0.N) : Vec F S1x32x128 .f32 := ppBlk (iblk m c 1 s) (iblk m c 2 s)
def lnAt (c : Dev nD) (s : Fin cfg0.N) : Vec F S1x32x1 .f32 := lnBlk (iblk m c 0 s) (iblk m c 1 s) (iblk m c 2 s)

/-- The products of the classes of `t`'s batch with the queries of `t`'s tile. -/
def omAt (c : Dev nD) (t : Fin cfg0.N) : Vec F S1x32x256x128 .f32 :=
  omBlk (pmAt m c (base t)) (ppAt m c (base t)) (iblk m c 3 t) (iblk m c 4 t)
def opAt (c : Dev nD) (t : Fin cfg0.N) : Vec F S1x32x256x128 .f32 := opBlk (ppAt m c (base t)) (iblk m c 4 t)
def olAt (c : Dev nD) (t : Fin cfg0.N) : Vec F S1x32x256 .f32 :=
  olBlk (pmAt m c (base t)) (ppAt m c (base t)) (iblk m c 3 t) (iblk m c 4 t)

/-- The proof data of the pipeline on core `c`: the arrays as the region finds them; after the body at point `t` every
    input's buffer still at its block, the three class buffers at the classes of `t`'s batch (computed at the batch's
    first tile and kept through its second), the three product buffers at the tile's products. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => pmAt m c (base t)
    | ⟨6, _⟩ => ppAt m c (base t)
    | ⟨7, _⟩ => lnAt m c (base t)
    | ⟨8, _⟩ => omAt m c t
    | ⟨9, _⟩ => opAt m c t
    | ⟨10, _⟩ => olAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = pmAt m c (base t) := by dsimp only [dats]
theorem after_6 (c : Dev nD) (t : Fin cfg0.N) : (dats m 0 c).after 6 t = ppAt m c (base t) := by dsimp only [dats]
theorem after_7 (c : Dev nD) (t : Fin cfg0.N) : (dats m 0 c).after 7 t = lnAt m c (base t) := by dsimp only [dats]
theorem after_8 (c : Dev nD) (t : Fin cfg0.N) : (dats m 0 c).after 8 t = omAt m c t := by dsimp only [dats]
theorem after_9 (c : Dev nD) (t : Fin cfg0.N) : (dats m 0 c).after 9 t = opAt m c t := by dsimp only [dats]
theorem after_10 (c : Dev nD) (t : Fin cfg0.N) : (dats m 0 c).after 10 t = olAt m c t := by dsimp only [dats]

/-- Each input's current buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- At a batch's second tile the buffer of window 5 holds what the first tile left: the point before did not write
    it back, and stored into it. -/
theorem before_5_odd (c : Dev nD) (t : Fin cfg0.N) (h : ¬ t.val % 2 = 0) (d) :
    (dats m 0 c).before 5 t d = pmAt m c (base t) := by
  have ht : t.val ≠ 0 := fun h0 => h (by rw [h0])
  have hfl : (cfg0.win 5).flush ⟨t.val - 1, lt_of_le_of_lt (Nat.sub_le _ _) t.isLt⟩ = false :=
    Bool.eq_false_iff.mpr fun hh => by have := (flush0_5 _).mp hh; dsimp only at this; omega
  have hc : k0_cond1 (grid0.coords ⟨t.val - 1, lt_of_le_of_lt (Nat.sub_le _ _) t.isLt⟩) = 1#1 :=
    (hcond _).mpr (by show (t.val - 1) % 2 = 0; omega)
  have hid : cfg0.idle 5 (cfg0.grid.coords ⟨t.val - 1, lt_of_le_of_lt (Nat.sub_le _ _) t.isLt⟩) = false := by
    show (!(k0_cond1 (grid0.coords ⟨t.val - 1, _⟩) == 1#1)) = false
    rw [hc]; rfl
  rw [Dat.before_of_pos _ 5 t ht ((cfg0.win 5).fetch_out rfl t), hfl, if_neg Bool.false_ne_true]
  unfold Dat.left; rw [hid]
  show (dats m 0 c).kept 5 _ d = _
  unfold Dat.kept
  rw [Pipeline.fill_of_clip_none 5 _ (fun _ => rfl) d ((dats m 0 c).after 5 _), Window.fill_cut, after_5, base_odd t h]

/-- At a batch's second tile the buffer of window 6 holds what the first tile left: the point before did not write
    it back, and stored into it. -/
theorem before_6_odd (c : Dev nD) (t : Fin cfg0.N) (h : ¬ t.val % 2 = 0) (d) :
    (dats m 0 c).before 6 t d = ppAt m c (base t) := by
  have ht : t.val ≠ 0 := fun h0 => h (by rw [h0])
  have hfl : (cfg0.win 6).flush ⟨t.val - 1, lt_of_le_of_lt (Nat.sub_le _ _) t.isLt⟩ = false :=
    Bool.eq_false_iff.mpr fun hh => by have := (flush0_6 _).mp hh; dsimp only at this; omega
  have hc : k0_cond1 (grid0.coords ⟨t.val - 1, lt_of_le_of_lt (Nat.sub_le _ _) t.isLt⟩) = 1#1 :=
    (hcond _).mpr (by show (t.val - 1) % 2 = 0; omega)
  have hid : cfg0.idle 6 (cfg0.grid.coords ⟨t.val - 1, lt_of_le_of_lt (Nat.sub_le _ _) t.isLt⟩) = false := by
    show (!(k0_cond1 (grid0.coords ⟨t.val - 1, _⟩) == 1#1)) = false
    rw [hc]; rfl
  rw [Dat.before_of_pos _ 6 t ht ((cfg0.win 6).fetch_out rfl t), hfl, if_neg Bool.false_ne_true]
  unfold Dat.left; rw [hid]
  show (dats m 0 c).kept 6 _ d = _
  unfold Dat.kept
  rw [Pipeline.fill_of_clip_none 6 _ (fun _ => rfl) d ((dats m 0 c).after 6 _), Window.fill_cut, after_6, base_odd t h]

/-- At a batch's second tile the buffer of window 7 holds what the first tile left: the point before did not write
    it back, and stored into it. -/
theorem before_7_odd (c : Dev nD) (t : Fin cfg0.N) (h : ¬ t.val % 2 = 0) (d) :
    (dats m 0 c).before 7 t d = lnAt m c (base t) := by
  have ht : t.val ≠ 0 := fun h0 => h (by rw [h0])
  have hfl : (cfg0.win 7).flush ⟨t.val - 1, lt_of_le_of_lt (Nat.sub_le _ _) t.isLt⟩ = false :=
    Bool.eq_false_iff.mpr fun hh => by have := (flush0_7 _).mp hh; dsimp only at this; omega
  have hc : k0_cond1 (grid0.coords ⟨t.val - 1, lt_of_le_of_lt (Nat.sub_le _ _) t.isLt⟩) = 1#1 :=
    (hcond _).mpr (by show (t.val - 1) % 2 = 0; omega)
  have hid : cfg0.idle 7 (cfg0.grid.coords ⟨t.val - 1, lt_of_le_of_lt (Nat.sub_le _ _) t.isLt⟩) = false := by
    show (!(k0_cond1 (grid0.coords ⟨t.val - 1, _⟩) == 1#1)) = false
    rw [hc]; rfl
  rw [Dat.before_of_pos _ 7 t ht ((cfg0.win 7).fetch_out rfl t), hfl, if_neg Bool.false_ne_true]
  unfold Dat.left; rw [hid]
  show (dats m 0 c).kept 7 _ d = _
  unfold Dat.kept
  rw [Pipeline.fill_of_clip_none 7 _ (fun _ => rfl) d ((dats m 0 c).after 7 _), Window.fill_cut, after_7, base_odd t h]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d))
    ∗ (∃ d, owns (c : Thread nD τ) (ms_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t)
    ∗ owns (c : Thread nD τ) (ms_5 t) fullShare ((dats m 0 c).after 5 t)
    ∗ owns (c : Thread nD τ) (ms_6 t) fullShare ((dats m 0 c).after 6 t)
    ∗ owns (c : Thread nD τ) (ms_7 t) fullShare ((dats m 0 c).after 7 t)
    ∗ owns (c : Thread nD τ) (ms_8 t) fullShare ((dats m 0 c).after 8 t)
    ∗ owns (c : Thread nD τ) (ms_9 t) fullShare ((dats m 0 c).after 9 t)
    ∗ owns (c : Thread nD τ) (ms_10 t) fullShare ((dats m 0 c).after 10 t))

set_option maxHeartbeats 1000000 in
/-- The body at any point. The inputs' buffers hold their blocks. At a point that opens a batch the case that computes
    the classes applies, the output buffers at anything; at the batch's second tile the class buffers hold the
    first tile's classes and the other case applies. The invariant passes through unread; nothing is owed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10]
  by_cases h0 : t.val % 2 = 0
  · unfold omAt opAt olAt
    rw [base_even t h0]
    unfold pmAt ppAt lnAt
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (runA c (grid0.coords t) _ _ _ _ _ _ _ _ _ _ _ _ _ _ _ _ _ _ _ _ _ _ ((hcond t).mpr h0)
      (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · simp only [before_5_odd m c t h0, before_6_odd m c t h0, before_7_odd m c t h0]
    unfold omAt opAt olAt
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (runB c (grid0.coords t) _ _ _ _ _ _ _ _ _ _ _ _ _ _ _ _ _ _ _ _ _ _ (fun hh => h0 ((hcond t).mp hh))
      (iblk m c 0 t) (iblk m c 1 t) (iblk m c 2 t) (iblk m c 3 t) (iblk m c 4 t)
      (pmAt m c (base t)) (ppAt m c (base t)) (lnAt m c (base t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- At a point that opens a batch no window is idle. -/
theorem idle_even (t : Fin cfg0.N) (h : t.val % 2 = 0) :
    idle0 5 (grid0.coords t) = false ∧ idle0 6 (grid0.coords t) = false ∧ idle0 7 (grid0.coords t) = false := by
  have hc : k0_cond1 (grid0.coords t) = 1#1 := (hcond t).mpr h
  have hb : (!(k0_cond1 (grid0.coords t) == 1#1)) = false := by rw [hc]; rfl
  exact ⟨hb, hb, hb⟩

/-- At a batch's second tile the three class windows are idle — and written back. -/
theorem idle_odd (t : Fin cfg0.N) (h : ¬ t.val % 2 = 0) :
    idle0 5 (grid0.coords t) = true ∧ idle0 6 (grid0.coords t) = true ∧ idle0 7 (grid0.coords t) = true := by
  have hc : ¬ k0_cond1 (grid0.coords t) = 1#1 := fun hh => h ((hcond t).mp hh)
  have hb : (!(k0_cond1 (grid0.coords t) == 1#1)) = true := by
    rw [Bool.not_eq_true', beq_eq_false_iff_ne]; exact hc
  exact ⟨hb, hb, hb⟩

theorem flush_odd (t : Fin cfg0.N) (h : ¬ t.val % 2 = 0) :
    (win0 5).flush t = true ∧ (win0 6).flush t = true ∧ (win0 7).flush t = true :=
  ⟨(flush0_5 t).mpr (by omega), (flush0_6 t).mpr (by omega), (flush0_7 t).mpr (by omega)⟩

/-- The library's body obligation, at every point. -/
theorem body_obligation (c : Dev nD) : BodyObligation (dats (F := F) m 0 c) (defs₀ (F := F)) Variants.none () Set.univ := fun t => by
  rw [bigSep_W0, bigSep_W0]
  by_cases h : t.val % 2 = 0
  · obtain ⟨i5, i6, i7⟩ := idle_even t h
    simp only [i5, i6, i7]
    exact sound_body m c t
  · obtain ⟨i5, i6, i7⟩ := idle_odd t h
    obtain ⟨f5, f6, f7⟩ := flush_odd t h
    simp only [i5, i6, i7, f5, f6, f7]
    exact sound_body m c t

/-! ## The run and the frame -/

set_option backward.isDefEq.respectTransparency.types false in
/-- Every weakly fair execution of the program terminates, and every final state has every array of the pipeline at
    what the write-backs of the proof data leave in it and every other buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs and leaves its five argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Hand

end
-- ==== Proof.Spec.lean ====
/-
  The mathematics both programs compute, on the extended reals, index by index.

  For one batch b: every support sample n carries a class label t n, a mean m n e and a precision p n e.
  Per class c and feature e the samples of the class are summed:
    PP c e = Σ_{n : t n = c} p n e                 (the class's precision)
    WM c e = Σ_{n : t n = c} p n e * m n e
    SQ c e = Σ_{n : t n = c} p n e * m n e ^ 2
    SL c e = Σ_{n : t n = c} log (p n e)
  and the class's mean is PM c e = WM c e / PP c e. The class's log-normaliser is the sum over the features of
    (1/2 (1 - max(count c, 1))) log 2π + 1/2 (SL - log PP) + 1/2 (PP * PM^2 - SQ).
  Every query q is then multiplied into every class: OP = PP + qp, OM = (qp * qm + PP * PM) / OP, and the
  log-normaliser of the pair is the sum over the features of
    -1/2 log 2π + 1/2 (log qp + log PP - log OP) + 1/2 (OP * OM^2 - qp * qm^2 - PP * PM^2).
  A class's samples are selected by a 0/1 weight (`hot`): on the extended reals 0 * x = 0 and 1 * x = x for every x,
  so the weighted sum over all samples is the sum over the class's.
-/
import Idealize.ShloMosaic.PureOps.Ideal
import Idealize.ShloMosaic.Lib.ValueIdx

noncomputable section

namespace Cert.Spec

open Idealize.ShloMosaic Idealize.ShloMosaic.ValueIdx

/-- The shapes of the five arguments and the six results. -/
abbrev A3 : Shape := ⟨3, ![16, 2048, 128]⟩
abbrev Q3 : Shape := ⟨3, ![16, 512, 128]⟩
abbrev T2 : Shape := ⟨2, ![16, 2048]⟩
abbrev R3 : Shape := ⟨3, ![16, 32, 128]⟩
abbrev R2 : Shape := ⟨2, ![16, 32]⟩
abbrev R4 : Shape := ⟨4, ![16, 32, 512, 128]⟩
abbrev R3q : Shape := ⟨3, ![16, 32, 512]⟩

/-- The four float literals both programs carry, as the extended reals their words denote. -/
def half : EReal := Ideal.ofBits .f32 0x3F000000#32
def one : EReal := Ideal.ofBits .f32 0x3F800000#32
def l2pi : EReal := Ideal.ofBits .f32 0x3FEB3F8E#32
def nhl : EReal := Ideal.ofBits .f32 0xBF6B3F8E#32

/-! ## One element at a time -/

/-- A class's mean from its weighted sum and its precision. -/
def sPM (wm pp : EReal) : EReal := Ideal.div wm pp

/-- One feature's share of a class's log-normaliser. -/
def sLN (cnt sl pp pm sq : EReal) : EReal :=
  ((half * (one - max cnt one)) * l2pi + half * (sl - Ideal.log pp)) + half * (pp * (pm * pm) - sq)

/-- The precision of a class times a query. -/
def sOP (pp yp : EReal) : EReal := pp + yp

/-- Its mean. -/
def sOM (pm pp ym yp : EReal) : EReal := Ideal.div (yp * ym + pp * pm) (sOP pp yp)

/-- One feature's share of its log-normaliser. -/
def sOL (pm pp ym yp : EReal) : EReal :=
  (nhl + half * ((Ideal.log yp + Ideal.log pp) - Ideal.log (sOP pp yp)))
    + half * ((sOP pp yp * (sOM pm pp ym yp * sOM pm pp ym yp) - yp * (ym * ym)) - pp * (pm * pm))

/-! ## One batch -/

section Batch

variable (xm xp : Fin 2048 → Fin 128 → EReal) (t : Fin 2048 → BitVec 32)

/-- The 0/1 weight of sample n in class c. -/
def hot (c : Fin 32) (n : Fin 2048) : EReal := if t n = BitVec.ofNat 32 c.val then 1 else 0

def cnt (c : Fin 32) : EReal := ∑ n : Fin 2048, hot t c n
def bPP (c : Fin 32) (e : Fin 128) : EReal := ∑ n : Fin 2048, hot t c n * xp n e
def bWM (c : Fin 32) (e : Fin 128) : EReal := ∑ n : Fin 2048, hot t c n * (xp n e * xm n e)
def bSQ (c : Fin 32) (e : Fin 128) : EReal := ∑ n : Fin 2048, hot t c n * (xp n e * (xm n e * xm n e))
def bSL (c : Fin 32) (e : Fin 128) : EReal := ∑ n : Fin 2048, hot t c n * Ideal.log (xp n e)
def bPM (c : Fin 32) (e : Fin 128) : EReal := sPM (bWM xm xp t c e) (bPP xp t c e)
def bLN (c : Fin 32) : EReal :=
  ∑ e : Fin 128, sLN (cnt t c) (bSL xp t c e) (bPP xp t c e) (bPM xm xp t c e) (bSQ xm xp t c e)

end Batch

/-- The log-normaliser of class row `pm c`, `pp c` against query row `ym q`, `yp q`. -/
def bOL (pm pp ym yp : Fin 128 → EReal) : EReal := ∑ e : Fin 128, sOL (pm e) (pp e) (ym e) (yp e)

/-! ## The six result arrays as functions of the five argument arrays -/

section Arrays

variable (sm sp : A3.Idx → EReal) (qm qp : Q3.Idx → EReal) (tg : T2.Idx → BitVec 32)

/-- Batch b's slices of the support arrays. -/
def smAt (b : Fin 16) : Fin 2048 → Fin 128 → EReal := fun n e => sm (ix3 b n e)
def spAt (b : Fin 16) : Fin 2048 → Fin 128 → EReal := fun n e => sp (ix3 b n e)
def tgAt (b : Fin 16) : Fin 2048 → BitVec 32 := fun n => tg (ix2 b n)

def aPM (b : Fin 16) (c : Fin 32) (e : Fin 128) : EReal := bPM (smAt sm b) (spAt sp b) (tgAt tg b) c e
def aPP (b : Fin 16) (c : Fin 32) (e : Fin 128) : EReal := bPP (spAt sp b) (tgAt tg b) c e

def out0 : R3.Idx → EReal := fun i => aPM sm sp tg (i 0) (i 1) (i 2)
def out1 : R3.Idx → EReal := fun i => aPP sp tg (i 0) (i 1) (i 2)
def out2 : R2.Idx → EReal := fun i => bLN (smAt sm (i 0)) (spAt sp (i 0)) (tgAt tg (i 0)) (i 1)
def out3 : R4.Idx → EReal := fun i =>
  sOM (aPM sm sp tg (i 0) (i 1) (i 3)) (aPP sp tg (i 0) (i 1) (i 3)) (qm (ix3 (i 0) (i 2) (i 3))) (qp (ix3 (i 0) (i 2) (i 3)))
def out4 : R4.Idx → EReal := fun i => sOP (aPP sp tg (i 0) (i 1) (i 3)) (qp (ix3 (i 0) (i 2) (i 3)))
def out5 : R3q.Idx → EReal := fun i =>
  bOL (fun e => aPM sm sp tg (i 0) (i 1) e) (fun e => aPP sp tg (i 0) (i 1) e)
    (fun e => qm (ix3 (i 0) (i 2) e)) (fun e => qp (ix3 (i 0) (i 2) e))

end Arrays

/-! ## What the precondition says of the arguments -/

/-- Labels are class numbers, precisions are positive, and every class has a sample in every batch. -/
structure Facts (sp : A3.Idx → EReal) (qp : Q3.Idx → EReal) (tg : T2.Idx → BitVec 32) : Prop where
  tg_lt : ∀ (b : Fin 16) (n : Fin 2048), (tg (ix2 b n)).toNat < 32
  sp_pos : ∀ i : A3.Idx, 0 < sp i
  qp_pos : ∀ i : Q3.Idx, 0 < qp i
  cls : ∀ (b : Fin 16) (c : Fin 32), ∃ n : Fin 2048, tg (ix2 b n) = BitVec.ofNat 32 c.val

end Cert.Spec

end
-- ==== Proof.PayInner.lean ====
/-
  The blocks the body stores at a batch's first query tile, read at an index on the extended reals:
  the one-hot weights times a column summed over the samples is the class's sum.
-/
import proofs.«409652_j37331855737078_2_alg».proof.Proof.Blocks
import proofs.«409652_j37331855737078_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.ValueIdx

/-- The three loaded blocks as functions of the sample and the feature. -/
abbrev colsOf (x : Vec Ideal S1x2048x128 .f32) : Fin 2048 → Fin 128 → EReal := fun n e => x (ix3 0 n e)
abbrev labelsOf (x2 : Vec Ideal S1x1x2048 .i32) : Fin 2048 → BitVec 32 := fun n => x2 (ix3 0 0 n)

/-! ## Layout operations at coordinates -/

/-- A `[1, 1, a]` array cast to `[a]` reads, at `i`, the operand at `(0, 0, i)`. -/
theorem shapeCast_11a_a_apply {α : Type} {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column at `(i, 0)`. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-! ## The one-hot weight -/

/-- The word comparison, widened and converted, is 1 on equal words and 0 otherwise. -/
theorem hot_word (a b : BitVec 32) :
    (FloatOps.sitofp (F := Ideal) .f32 ((IntOp.cmpi .eq a b).setWidth 32) : EReal) = if b = a then 1 else 0 := by
  show (((((IntOp.cmpi .eq a b).setWidth 32).toInt : ℤ) : ℝ) : EReal) = _
  by_cases h : b = a
  · subst h
    rw [if_pos rfl]
    have h1 : IntOp.cmpi .eq b b = 1#1 := by simp [IntOp.cmpi]
    rw [h1]
    have h2 : ((1#1 : BitVec 1).setWidth 32).toInt = 1 := by decide
    rw [h2]; simp
  · rw [if_neg h]
    have h' : ¬a = b := fun e => h e.symm
    have hb : (a == b) = false := beq_false_of_ne h'
    have h1 : IntOp.cmpi .eq a b = 0#1 := by
      show BitVec.ofBool (a == b) = 0#1
      rw [hb]; rfl
    rw [h1]
    have h2 : ((0#1 : BitVec 1).setWidth 32).toInt = 0 := by decide
    rw [h2]; simp

/-- The one-hot block at class `c` and sample `n` is the 0/1 weight of the sample in the class. -/
theorem onehot_apply (x2 : Vec Ideal S1x1x2048 .i32) (c : Fin 32) (n : Fin 2048) :
    k0_pay4 (F := Ideal) x2 (ix2 c n) = Cert.Spec.hot (labelsOf x2) c n := by
  unfold k0_pay4
  rw [sitofp_apply, extui_apply]
  show FloatOps.sitofp (F := Ideal) .f32 ((IntOp.cmpi .eq (iota .tc S32x2048 32 [0] iota_S32x2048_d0_w32 (ix2 c n))
      (broadcastTo S32x2048 (shapeCast S1x2048 (shapeCast S2048 x2 shapeCasts_S1x1x2048_S2048) shapeCasts_S2048_S1x2048)
        broadcasts_S1x2048_S32x2048 (ix2 c n))).setWidth 32) = _
  rw [iota_single_apply, broadcastTo_1b_ab_apply, shapeCast_a_1a_apply, shapeCast_11a_a_apply, hot_word]
  rfl

/-! ## The class sums: a product with the one-hot block -/

theorem lhs_dot_0 (i : S32x128.Idx) (q : dot_S32x2048_S2048x128_S32x128_1_0_0_1_n_n.contr.Idx) :
    (dot_S32x2048_S2048x128_S32x128_1_0_0_1_n_n.lhsIdx i q 0).val = (i 0).val := by
  unfold DotDims.lhsIdx
  rw [dif_neg (show ¬(0 : Fin S32x2048.rank) ∈ dot_S32x2048_S2048x128_S32x128_1_0_0_1_n_n.lhsBatch by decide),
    dif_pos (show (0 : Fin S32x2048.rank) ∈ dot_S32x2048_S2048x128_S32x128_1_0_0_1_n_n.lhsNonContracting by decide)]
  rfl

theorem lhs_dot_1 (i : S32x128.Idx) (q : dot_S32x2048_S2048x128_S32x128_1_0_0_1_n_n.contr.Idx) :
    (dot_S32x2048_S2048x128_S32x128_1_0_0_1_n_n.lhsIdx i q 1).val = (q ⟨0, by decide⟩).val :=
  dot_S32x2048_S2048x128_S32x128_1_0_0_1_n_n.lhsIdx_val_of_single rfl i q

theorem rhs_dot_0 (i : S32x128.Idx) (q : dot_S32x2048_S2048x128_S32x128_1_0_0_1_n_n.contr.Idx) :
    (dot_S32x2048_S2048x128_S32x128_1_0_0_1_n_n.rhsIdx i q 0).val = (q ⟨0, by decide⟩).val :=
  dot_S32x2048_S2048x128_S32x128_1_0_0_1_n_n.rhsIdx_val_of_single rfl i q

theorem rhs_dot_1 (i : S32x128.Idx) (q : dot_S32x2048_S2048x128_S32x128_1_0_0_1_n_n.contr.Idx) :
    (dot_S32x2048_S2048x128_S32x128_1_0_0_1_n_n.rhsIdx i q 1).val = (i 1).val := by
  unfold DotDims.rhsIdx
  rw [dif_neg (show ¬(1 : Fin S2048x128.rank) ∈ dot_S32x2048_S2048x128_S32x128_1_0_0_1_n_n.rhsBatch by decide),
    dif_pos (show (1 : Fin S2048x128.rank) ∈ dot_S32x2048_S2048x128_S32x128_1_0_0_1_n_n.rhsNonContracting by decide)]
  rfl

/-- The product of a `[32, 2048]` block with a `[2048, 128]` block into the zero block, at class `c` and feature `e`,
    is the sum over the samples of the products. -/
theorem dot_apply (w : FVec Ideal S32x2048 .f32) (y : FVec Ideal S2048x128 .f32) (c : Fin 32) (e : Fin 128) :
    matmul dot_S32x2048_S2048x128_S32x128_1_0_0_1_n_n (some .fp32) w y (constant (F := Ideal) S32x128 .f32 0x00000000#32) (ix2 c e)
      = ∑ n : Fin 2048, w (ix2 c n) * y (ix2 n e) := by
  simp only [matmul]
  rw [Ideal.matmul_constant_zero_apply,
    ← Equiv.sum_comp (contrEquiv1 dot_S32x2048_S2048x128_S32x128_1_0_0_1_n_n 2048 rfl rfl).symm]
  refine Finset.sum_congr rfl fun k _ => ?_
  have hk := contrEquiv1_symm_val dot_S32x2048_S2048x128_S32x128_1_0_0_1_n_n 2048 rfl rfl k
  have el : dot_S32x2048_S2048x128_S32x128_1_0_0_1_n_n.lhsIdx (ix2 c e)
      ((contrEquiv1 dot_S32x2048_S2048x128_S32x128_1_0_0_1_n_n 2048 rfl rfl).symm k) = ix2 c k :=
    funext fun a => Fin.ext (by
      match a with
      | ⟨0, _⟩ => exact lhs_dot_0 _ _
      | ⟨1, _⟩ => exact (lhs_dot_1 _ _).trans hk)
  have er : dot_S32x2048_S2048x128_S32x128_1_0_0_1_n_n.rhsIdx (ix2 c e)
      ((contrEquiv1 dot_S32x2048_S2048x128_S32x128_1_0_0_1_n_n 2048 rfl rfl).symm k) = ix2 k e :=
    funext fun a => Fin.ext (by
      match a with
      | ⟨0, _⟩ => exact (rhs_dot_0 _ _).trans hk
      | ⟨1, _⟩ => exact rhs_dot_1 _ _)
  rw [el, er]

/-! ## The loaded blocks as matrices -/

theorem pay2_apply (x0 : Vec Ideal S1x2048x128 .f32) (n : Fin 2048) (e : Fin 128) :
    k0_pay2 (F := Ideal) x0 (ix2 n e) = x0 (ix3 0 n e) := by
  unfold k0_pay2
  exact shapeCast_1ab_ab_apply x0 _ n e

theorem pay3_apply (x1 : Vec Ideal S1x2048x128 .f32) (n : Fin 2048) (e : Fin 128) :
    k0_pay3 (F := Ideal) x1 (ix2 n e) = x1 (ix3 0 n e) := by
  unfold k0_pay3
  exact shapeCast_1ab_ab_apply x1 _ n e

/-- The one-hot block times any `[2048, 128]` block is the class's sum of its rows. -/
theorem classSum_apply (x2 : Vec Ideal S1x1x2048 .i32) (y : FVec Ideal S2048x128 .f32) (c : Fin 32) (e : Fin 128) :
    matmul dot_S32x2048_S2048x128_S32x128_1_0_0_1_n_n (some .fp32) (k0_pay4 (F := Ideal) x2) y
        (constant (F := Ideal) S32x128 .f32 0x00000000#32) (ix2 c e)
      = ∑ n : Fin 2048, Cert.Spec.hot (labelsOf x2) c n * y (ix2 n e) := by
  rw [dot_apply]
  refine Finset.sum_congr rfl fun n _ => ?_
  rw [onehot_apply]

/-! ## The class precisions and means -/

theorem pay5_apply (x1 : Vec Ideal S1x2048x128 .f32) (x2 : Vec Ideal S1x1x2048 .i32) (c : Fin 32) (e : Fin 128) :
    k0_pay5 (F := Ideal) x1 x2 (ix2 c e) = Cert.Spec.bPP (colsOf x1) (labelsOf x2) c e := by
  unfold k0_pay5
  show matmul dot_S32x2048_S2048x128_S32x128_1_0_0_1_n_n (some .fp32) (k0_pay4 (F := Ideal) x2) (k0_pay3 x1)
      (constant (F := Ideal) S32x128 .f32 0x00000000#32) (ix2 c e) = _
  rw [classSum_apply]
  unfold Cert.Spec.bPP
  refine Finset.sum_congr rfl fun n _ => ?_
  rw [pay3_apply]

theorem pay6_apply (x0 x1 : Vec Ideal S1x2048x128 .f32) (x2 : Vec Ideal S1x1x2048 .i32) (c : Fin 32) (e : Fin 128) :
    k0_pay6 (F := Ideal) x0 x1 x2 (ix2 c e) = Cert.Spec.bPM (colsOf x0) (colsOf x1) (labelsOf x2) c e := by
  unfold k0_pay6
  show Ideal.div (matmul dot_S32x2048_S2048x128_S32x128_1_0_0_1_n_n (some .fp32) (k0_pay4 (F := Ideal) x2)
      (mulf (k0_pay3 x1) (k0_pay2 x0)) (constant (F := Ideal) S32x128 .f32 0x00000000#32) (ix2 c e))
      (k0_pay5 (F := Ideal) x1 x2 (ix2 c e)) = _
  rw [classSum_apply, pay5_apply]
  unfold Cert.Spec.bPM Cert.Spec.sPM Cert.Spec.bWM
  congr 1
  refine Finset.sum_congr rfl fun n _ => ?_
  rw [mulf_apply, pay3_apply, pay2_apply]

theorem ppBlk_apply (x1 : Vec Ideal S1x2048x128 .f32) (x2 : Vec Ideal S1x1x2048 .i32) (c : Fin 32) (e : Fin 128) :
    ppBlk x1 x2 (ix3 0 c e) = Cert.Spec.bPP (colsOf x1) (labelsOf x2) c e := by
  unfold ppBlk k0_pay11
  exact (shapeCast_ab_1ab_apply _ _ 0 c e).trans (pay5_apply x1 x2 c e)

theorem pmBlk_apply (x0 x1 : Vec Ideal S1x2048x128 .f32) (x2 : Vec Ideal S1x1x2048 .i32) (c : Fin 32) (e : Fin 128) :
    pmBlk x0 x1 x2 (ix3 0 c e) = Cert.Spec.bPM (colsOf x0) (colsOf x1) (labelsOf x2) c e := by
  unfold pmBlk k0_pay10
  exact (shapeCast_ab_1ab_apply _ _ 0 c e).trans (pay6_apply x0 x1 x2 c e)

/-! ## The log-normaliser -/

/-- A sum along the rows of an `[a, b]` block, at row `i`, is the sum over the columns. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  show ∑ k : Fin b, src (h.lift (ix1 i) k) = _
  refine Finset.sum_congr rfl fun k _ => congrArg src ?_
  funext d
  apply Fin.ext
  match d with
  | ⟨0, _⟩ => rfl
  | ⟨1, _⟩ => rfl

/-- The one-hot block summed over the samples is the class's count. -/
theorem cnt_apply (x2 : Vec Ideal S1x1x2048 .i32) (c : Fin 32) :
    multiReduction .add [1] S32 (k0_pay4 (F := Ideal) x2) 0x00000000#32 reduces_S32x2048_S32 (.inl rfl) rfl (ix1 c)
      = Cert.Spec.cnt (labelsOf x2) c := by
  refine (rowSum_apply (k0_pay4 (F := Ideal) x2) reduces_S32x2048_S32 (.inl rfl) rfl c).trans ?_
  unfold Cert.Spec.cnt
  exact Finset.sum_congr rfl fun n _ => onehot_apply x2 c n

theorem pay8_apply (x2 : Vec Ideal S1x1x2048 .i32) (c : Fin 32) (u : Fin 1) :
    k0_pay8 (F := Ideal) x2 (ix2 c u)
      = (Cert.Spec.half * (Cert.Spec.one - max (Cert.Spec.cnt (labelsOf x2) c) Cert.Spec.one)) * Cert.Spec.l2pi := by
  unfold k0_pay8
  show (Ideal.ofBits .f32 0x3F000000#32 * (Ideal.ofBits .f32 0x3F800000#32
      - max (shapeCast S32x1 (multiReduction .add [1] S32 (k0_pay4 (F := Ideal) x2) 0x00000000#32 reduces_S32x2048_S32 (.inl rfl) rfl)
          shapeCasts_S32_S32x1 (ix2 c u)) (Ideal.ofBits .f32 0x3F800000#32))) * Ideal.ofBits .f32 0x3FEB3F8E#32 = _
  rw [shapeCast_a_a1_apply, cnt_apply]
  rfl

theorem pay9_apply (x1 : Vec Ideal S1x2048x128 .f32) (x2 : Vec Ideal S1x1x2048 .i32) (c : Fin 32) (e : Fin 128) :
    k0_pay9 (F := Ideal) x1 x2 (ix2 c e)
      = Cert.Spec.half * (Cert.Spec.bSL (colsOf x1) (labelsOf x2) c e - Ideal.log (Cert.Spec.bPP (colsOf x1) (labelsOf x2) c e)) := by
  unfold k0_pay9
  show Ideal.ofBits .f32 0x3F000000#32 * (matmul dot_S32x2048_S2048x128_S32x128_1_0_0_1_n_n (some .fp32) (k0_pay4 (F := Ideal) x2)
      (log (k0_pay3 x1)) (constant (F := Ideal) S32x128 .f32 0x00000000#32) (ix2 c e)
      - Ideal.log (k0_pay5 (F := Ideal) x1 x2 (ix2 c e))) = _
  rw [classSum_apply, pay5_apply]
  unfold Cert.Spec.bSL Cert.Spec.half
  congr 1; congr 1
  refine Finset.sum_congr rfl fun n _ => ?_
  show _ * Ideal.log (k0_pay3 (F := Ideal) x1 (ix2 n e)) = _
  rw [pay3_apply]

theorem pay7_apply (x0 x1 : Vec Ideal S1x2048x128 .f32) (x2 : Vec Ideal S1x1x2048 .i32) (c : Fin 32) (e : Fin 128) :
    k0_pay7 (F := Ideal) x0 x1 x2 (ix2 c e)
      = Cert.Spec.half * (Cert.Spec.bPP (colsOf x1) (labelsOf x2) c e
          * (Cert.Spec.bPM (colsOf x0) (colsOf x1) (labelsOf x2) c e * Cert.Spec.bPM (colsOf x0) (colsOf x1) (labelsOf x2) c e)
          - Cert.Spec.bSQ (colsOf x0) (colsOf x1) (labelsOf x2) c e) := by
  unfold k0_pay7
  show Ideal.ofBits .f32 0x3F000000#32 * (k0_pay5 (F := Ideal) x1 x2 (ix2 c e)
      * (k0_pay6 (F := Ideal) x0 x1 x2 (ix2 c e) * k0_pay6 (F := Ideal) x0 x1 x2 (ix2 c e))
      - matmul dot_S32x2048_S2048x128_S32x128_1_0_0_1_n_n (some .fp32) (k0_pay4 (F := Ideal) x2)
          (mulf (k0_pay3 x1) (mulf (k0_pay2 x0) (k0_pay2 x0))) (constant (F := Ideal) S32x128 .f32 0x00000000#32) (ix2 c e)) = _
  rw [classSum_apply, pay5_apply, pay6_apply]
  unfold Cert.Spec.bSQ Cert.Spec.half
  congr 1; congr 1
  refine Finset.sum_congr rfl fun n _ => ?_
  rw [mulf_apply, mulf_apply, pay3_apply, pay2_apply]

theorem lnBlk_apply (x0 x1 : Vec Ideal S1x2048x128 .f32) (x2 : Vec Ideal S1x1x2048 .i32) (c : Fin 32) :
    lnBlk x0 x1 x2 (ix3 0 c 0) = Cert.Spec.bLN (colsOf x0) (colsOf x1) (labelsOf x2) c := by
  unfold lnBlk k0_pay12
  refine (shapeCast_ab_1ab_apply _ _ 0 c 0).trans ?_
  refine (shapeCast_a_a1_apply _ _ c 0).trans ?_
  refine (rowSum_apply _ reduces_S32x128_S32 (.inl rfl) rfl c).trans ?_
  unfold Cert.Spec.bLN Cert.Spec.sLN
  refine Finset.sum_congr rfl fun e _ => ?_
  show (broadcastTo S32x128 (k0_pay8 (F := Ideal) x2) broadcasts_S32x1_S32x128 (ix2 c e) + k0_pay9 (F := Ideal) x1 x2 (ix2 c e))
      + k0_pay7 (F := Ideal) x0 x1 x2 (ix2 c e) = _
  rw [broadcastTo_a1_ab_apply, pay8_apply, pay9_apply, pay7_apply]

end Cert.KernelIdeal.Hand

end
-- ==== Proof.KArgs.lean ====
/-
  The five argument arrays of the idealized kernel program on a core, as the specification's functions.
-/
import proofs.«409652_j37331855737078_2_alg».proof.Proof.Gen.KernelIdeal.Frame
import proofs.«409652_j37331855737078_2_alg».proof.Proof.Spec

noncomputable section

namespace Cert.KernelIdeal.KValue

open Cert.KernelIdeal Cert.KernelIdeal.Gen
open Idealize.ShloMosaic Idealize.ShloMosaic.TcCoe Idealize.SL Idealize.SL.Sem

variable (m : (ℓ : Loc nD τ sig) → Buf (Elt Ideal) ℓ)

/-- The five argument arrays on core `c`, as launched. -/
abbrev aSm (c : Dev nD) : Cert.Spec.A3.Idx → EReal := m ((c.tc : Thread nD τ).loc main_arg0)
abbrev aSp (c : Dev nD) : Cert.Spec.A3.Idx → EReal := m ((c.tc : Thread nD τ).loc main_arg1)
abbrev aQm (c : Dev nD) : Cert.Spec.Q3.Idx → EReal := m ((c.tc : Thread nD τ).loc main_arg2)
abbrev aQp (c : Dev nD) : Cert.Spec.Q3.Idx → EReal := m ((c.tc : Thread nD τ).loc main_arg3)
abbrev aTg (c : Dev nD) : Cert.Spec.T2.Idx → BitVec 32 := m ((c.tc : Thread nD τ).loc main_arg4)

end Cert.KernelIdeal.KValue

end
-- ==== Proof.KValueInner.lean ====
/-
  The three class arrays after the run. The block of batch b is written back once, after the batch's second
  tile, and holds the classes computed from the batch's support blocks; the sixteen blocks tile the array. Read
  at an index the stored block is the specification's class mean, precision and log-normaliser of that batch.
-/
import proofs.«409652_j37331855737078_2_alg».proof.Proof.Body
import proofs.«409652_j37331855737078_2_alg».proof.Proof.PayInner
import proofs.«409652_j37331855737078_2_alg».proof.Proof.Spec
import proofs.«409652_j37331855737078_2_alg».proof.Proof.KArgs
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.KValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

namespace Inner

/-! ## The index maps over the grid -/

/-- The block indices of the support windows and of the class windows at every point: the batch, then zeros. -/
theorem idx_facts : ∀ t : Fin cfg0.N,
    win0_0.index t (0 : Fin 3) = t.val / 2 ∧ win0_0.index t (1 : Fin 3) = 0 ∧ win0_0.index t (2 : Fin 3) = 0
    ∧ win0_1.index t (0 : Fin 3) = t.val / 2 ∧ win0_1.index t (1 : Fin 3) = 0 ∧ win0_1.index t (2 : Fin 3) = 0
    ∧ win0_2.index t (0 : Fin 3) = t.val / 2 ∧ win0_2.index t (1 : Fin 3) = 0 ∧ win0_2.index t (2 : Fin 3) = 0
    ∧ win0_5.index t (0 : Fin 3) = t.val / 2 ∧ win0_5.index t (1 : Fin 3) = 0 ∧ win0_5.index t (2 : Fin 3) = 0
    ∧ win0_6.index t (0 : Fin 3) = t.val / 2 ∧ win0_6.index t (1 : Fin 3) = 0 ∧ win0_6.index t (2 : Fin 3) = 0
    ∧ win0_7.index t (0 : Fin 3) = t.val / 2 ∧ win0_7.index t (1 : Fin 3) = 0 ∧ win0_7.index t (2 : Fin 3) = 0 :=
  (by decide +kernel : ∀ t : Fin grid0.N, _)

theorem lt_N (t : Fin cfg0.N) : t.val < 32 := lt_of_lt_of_eq t.isLt N_0

/-! ## The support blocks at a point are the batch's slices of the arrays -/

theorem iblk0_apply (c : Dev nD) (s : Fin cfg0.N) (b : Fin 16) (hb : b.val = s.val / 2) (n : Fin 2048) (e : Fin 128) :
    (iblk m c 0 s : Vec Ideal S1x2048x128 .f32) (ix3 0 n e) = aSm m c (ix3 b n e) := by
  obtain ⟨e0, e1, e2, -⟩ := idx_facts s
  unfold iblk
  rw [View.read_apply]
  show V m c main_arg0 _ = _
  rw [V_main_arg0]
  refine congrArg (aSm m c) (funext fun a => Fin.ext ?_)
  match a with
  | ⟨0, _⟩ => show win0_0.index s (0 : Fin 3) * 1 + 1 * 0 = b.val; omega
  | ⟨1, _⟩ => show win0_0.index s (1 : Fin 3) * 2048 + 1 * n.val = n.val; omega
  | ⟨2, _⟩ => show win0_0.index s (2 : Fin 3) * 128 + 1 * e.val = e.val; omega

theorem iblk1_apply (c : Dev nD) (s : Fin cfg0.N) (b : Fin 16) (hb : b.val = s.val / 2) (n : Fin 2048) (e : Fin 128) :
    (iblk m c 1 s : Vec Ideal S1x2048x128 .f32) (ix3 0 n e) = aSp m c (ix3 b n e) := by
  obtain ⟨-, -, -, e0, e1, e2, -⟩ := idx_facts s
  unfold iblk
  rw [View.read_apply]
  show V m c main_arg1 _ = _
  rw [V_main_arg1]
  refine congrArg (aSp m c) (funext fun a => Fin.ext ?_)
  match a with
  | ⟨0, _⟩ => show win0_1.index s (0 : Fin 3) * 1 + 1 * 0 = b.val; omega
  | ⟨1, _⟩ => show win0_1.index s (1 : Fin 3) * 2048 + 1 * n.val = n.val; omega
  | ⟨2, _⟩ => show win0_1.index s (2 : Fin 3) * 128 + 1 * e.val = e.val; omega

/-- The labels' array as the region finds it: the argument with a unit axis inserted. -/
theorem V_main_v0 (c : Dev nD) : (V m c main_v0 : S16x1x2048.Idx → BitVec 32)
    = shapeCast S16x1x2048 (aTg m c) shapeCasts_S16x2048_S16x1x2048 := by
  show StableHlo.after hostOps0 (fun b => m (c, b)) (Proc.devRef .tc main_v0) = _
  after_results
  rfl

theorem iblk2_apply (c : Dev nD) (s : Fin cfg0.N) (b : Fin 16) (hb : b.val = s.val / 2) (n : Fin 2048) :
    (iblk m c 2 s : Vec Ideal S1x1x2048 .i32) (ix3 0 0 n) = aTg m c (ix2 b n) := by
  obtain ⟨-, -, -, -, -, -, e0, e1, e2, -⟩ := idx_facts s
  unfold iblk
  rw [View.read_apply]
  show V m c main_v0 _ = _
  rw [V_main_v0]
  refine shapeCast_apply _ _ _ _ ?_
  rw [Shape.rowMajor_val_two, Shape.rowMajor_val_three]
  show b.val * 2048 + n.val
    = ((win0_2.index s (0 : Fin 3) * 1 + 1 * 0) * 1 + (win0_2.index s (1 : Fin 3) * 1 + 1 * 0)) * 2048
      + (win0_2.index s (2 : Fin 3) * 2048 + 1 * n.val)
  omega

theorem cols0 (c : Dev nD) (s : Fin cfg0.N) (b : Fin 16) (hb : b.val = s.val / 2) :
    colsOf (iblk m c 0 s) = Cert.Spec.smAt (aSm m c) b :=
  funext fun n => funext fun e => iblk0_apply m c s b hb n e

theorem cols1 (c : Dev nD) (s : Fin cfg0.N) (b : Fin 16) (hb : b.val = s.val / 2) :
    colsOf (iblk m c 1 s) = Cert.Spec.spAt (aSp m c) b :=
  funext fun n => funext fun e => iblk1_apply m c s b hb n e

theorem labs (c : Dev nD) (s : Fin cfg0.N) (b : Fin 16) (hb : b.val = s.val / 2) :
    labelsOf (iblk m c 2 s) = Cert.Spec.tgAt (aTg m c) b :=
  funext fun n => iblk2_apply m c s b hb n

/-! ## The classes stored at a point, at an index -/

theorem pm_point (c : Dev nD) (s : Fin cfg0.N) (b : Fin 16) (hb : b.val = s.val / 2) (j : S1x32x128.Idx) :
    pmAt m c s j = Cert.Spec.aPM (aSm m c) (aSp m c) (aTg m c) b (j 1) (j 2) := by
  obtain ⟨u, cc, e, rfl⟩ : ∃ (u : Fin 1) (cc : Fin 32) (e : Fin 128), j = ix3 u cc e := ⟨j 0, j 1, j 2, eq_ix3 j⟩
  obtain rfl : u = 0 := Subsingleton.elim _ _
  unfold pmAt
  refine (pmBlk_apply (iblk m c 0 s) (iblk m c 1 s) (iblk m c 2 s) cc e).trans ?_
  rw [cols0 m c s b hb, cols1 m c s b hb, labs m c s b hb]
  rfl

theorem pp_point (c : Dev nD) (s : Fin cfg0.N) (b : Fin 16) (hb : b.val = s.val / 2) (j : S1x32x128.Idx) :
    ppAt m c s j = Cert.Spec.aPP (aSp m c) (aTg m c) b (j 1) (j 2) := by
  obtain ⟨u, cc, e, rfl⟩ : ∃ (u : Fin 1) (cc : Fin 32) (e : Fin 128), j = ix3 u cc e := ⟨j 0, j 1, j 2, eq_ix3 j⟩
  obtain rfl : u = 0 := Subsingleton.elim _ _
  unfold ppAt
  refine (ppBlk_apply (iblk m c 1 s) (iblk m c 2 s) cc e).trans ?_
  rw [cols1 m c s b hb, labs m c s b hb]
  rfl

theorem ln_point (c : Dev nD) (s : Fin cfg0.N) (b : Fin 16) (hb : b.val = s.val / 2) (j : S1x32x1.Idx) :
    lnAt m c s j = Cert.Spec.bLN (Cert.Spec.smAt (aSm m c) b) (Cert.Spec.spAt (aSp m c) b) (Cert.Spec.tgAt (aTg m c) b) (j 1) := by
  obtain ⟨u, cc, e, rfl⟩ : ∃ (u : Fin 1) (cc : Fin 32) (e : Fin 1), j = ix3 u cc e := ⟨j 0, j 1, j 2, eq_ix3 j⟩
  obtain rfl : u = 0 := Subsingleton.elim _ _
  obtain rfl : e = 0 := Subsingleton.elim _ _
  unfold lnAt
  refine (lnBlk_apply (iblk m c 0 s) (iblk m c 1 s) (iblk m c 2 s) cc).trans ?_
  rw [cols0 m c s b hb, cols1 m c s b hb, labs m c s b hb]

/-! ## What a point writes back, and the arrays after the run -/

/-- The point that opens an odd point's batch has the same batch number. -/
theorem base_half (t : Fin cfg0.N) : (base t).val / 2 = t.val / 2 := by
  show (t.val - t.val % 2) / 2 = t.val / 2
  omega

theorem flushed5_eq (c : Dev nD) (t : Fin cfg0.N) (hf : (cfg0.win 5).flush t = true) :
    (dats m 0 c).flushed 5 t
      = ((cfg0.win 5).blk t).view.read (Elt Ideal) (Cert.Spec.out0 (aSm m c) (aSp m c) (aTg m c)) := by
  have hN := lt_N t
  obtain ⟨-, -, -, -, -, -, -, -, -, e0, e1, e2, -⟩ := idx_facts t
  show (cfg0.win 5).cut (grid0.coords t) ((dats m 0 c).after 5 t) = _
  rw [after_5]
  funext j
  rw [View.read_apply]
  refine (pm_point m c (base t) ⟨t.val / 2, by omega⟩ (base_half t).symm _).trans ?_
  unfold Cert.Spec.out0
  have h0 : (⟨t.val / 2, by omega⟩ : Fin 16) = ((cfg0.win 5).blk t).view.emb j 0 := Fin.ext (by
    show t.val / 2 = win0_5.index t (0 : Fin 3) * 1 + 1 * (j 0).val
    have : (j 0).val < 1 := (j 0).isLt
    omega)
  have h1 : (⟨(j 1).val, (j 1).isLt⟩ : Fin 32) = ((cfg0.win 5).blk t).view.emb j 1 := Fin.ext (by
    show (j 1).val = win0_5.index t (1 : Fin 3) * 32 + 1 * (j 1).val
    omega)
  have h2 : (⟨(j 2).val, (j 2).isLt⟩ : Fin 128) = ((cfg0.win 5).blk t).view.emb j 2 := Fin.ext (by
    show (j 2).val = win0_5.index t (2 : Fin 3) * 128 + 1 * (j 2).val
    omega)
  rw [← h0, ← h1, ← h2]
  rfl

/-- An index of the array is in point `t`'s block iff each coordinate is in the block's range on its axis. -/
theorem mem_blk5 (t : Fin cfg0.N) (i : S16x32x128.Idx) :
    i ∈ ((cfg0.win 5).blk t).view.set ↔ ∀ a : Fin 3, win0_5.index t a * S1x32x128.size a ≤ (i a).val
      ∧ (i a).val < win0_5.index t a * S1x32x128.size a + S1x32x128.size a := by
  show i ∈ ((View.whole main_v1_0).slice (win0_5.rect t)).set ↔ _
  rw [View.set_slice_whole, Rect.mem_set_unit]
  exact Iff.rfl

/-- Every index of the array lies in the block of its batch's second point, which writes back. -/
theorem cover5 (i : S16x32x128.Idx) :
    ∃ t : Fin cfg0.N, (cfg0.win 5).flush t = true ∧ i ∈ ((cfg0.win 5).blk t).view.set := by
  have hi0 : (i 0).val < 16 := (i 0).isLt
  have hi1 : (i 1).val < 32 := (i 1).isLt
  have hi2 : (i 2).val < 128 := (i 2).isLt
  have hlt : 2 * (i 0).val + 1 < cfg0.N := by rw [show cfg0.N = 32 from N_0]; omega
  refine ⟨⟨2 * (i 0).val + 1, hlt⟩, (flush0_5 _).mpr (by show (2 * (i 0).val + 1) % 2 = 1; omega), ?_⟩
  obtain ⟨-, -, -, -, -, -, -, -, -, e0, e1, e2, -⟩ := idx_facts ⟨2 * (i 0).val + 1, hlt⟩
  have e0' : win0_5.index ⟨2 * (i 0).val + 1, hlt⟩ (0 : Fin 3) = (i 0).val := by
    rw [e0]; show (2 * (i 0).val + 1) / 2 = (i 0).val; omega
  rw [mem_blk5]
  intro a
  match a with
  | ⟨0, _⟩ =>
    show win0_5.index ⟨2 * (i 0).val + 1, hlt⟩ (0 : Fin 3) * 1 ≤ (i 0).val
      ∧ (i 0).val < win0_5.index ⟨2 * (i 0).val + 1, hlt⟩ (0 : Fin 3) * 1 + 1
    omega
  | ⟨1, _⟩ =>
    show win0_5.index ⟨2 * (i 0).val + 1, hlt⟩ (1 : Fin 3) * 32 ≤ (i 1).val
      ∧ (i 1).val < win0_5.index ⟨2 * (i 0).val + 1, hlt⟩ (1 : Fin 3) * 32 + 32
    omega
  | ⟨2, _⟩ =>
    show win0_5.index ⟨2 * (i 0).val + 1, hlt⟩ (2 : Fin 3) * 128 ≤ (i 2).val
      ∧ (i 2).val < win0_5.index ⟨2 * (i 0).val + 1, hlt⟩ (2 : Fin 3) * 128 + 128
    omega

theorem flushed6_eq (c : Dev nD) (t : Fin cfg0.N) (hf : (cfg0.win 6).flush t = true) :
    (dats m 0 c).flushed 6 t
      = ((cfg0.win 6).blk t).view.read (Elt Ideal) (Cert.Spec.out1 (aSp m c) (aTg m c)) := by
  have hN := lt_N t
  obtain ⟨-, -, -, -, -, -, -, -, -, -, -, -, e0, e1, e2, -⟩ := idx_facts t
  show (cfg0.win 6).cut (grid0.coords t) ((dats m 0 c).after 6 t) = _
  rw [after_6]
  funext j
  rw [View.read_apply]
  refine (pp_point m c (base t) ⟨t.val / 2, by omega⟩ (base_half t).symm _).trans ?_
  unfold Cert.Spec.out1
  have h0 : (⟨t.val / 2, by omega⟩ : Fin 16) = ((cfg0.win 6).blk t).view.emb j 0 := Fin.ext (by
    show t.val / 2 = win0_6.index t (0 : Fin 3) * 1 + 1 * (j 0).val
    have : (j 0).val < 1 := (j 0).isLt
    omega)
  have h1 : (⟨(j 1).val, (j 1).isLt⟩ : Fin 32) = ((cfg0.win 6).blk t).view.emb j 1 := Fin.ext (by
    show (j 1).val = win0_6.index t (1 : Fin 3) * 32 + 1 * (j 1).val
    omega)
  have h2 : (⟨(j 2).val, (j 2).isLt⟩ : Fin 128) = ((cfg0.win 6).blk t).view.emb j 2 := Fin.ext (by
    show (j 2).val = win0_6.index t (2 : Fin 3) * 128 + 1 * (j 2).val
    omega)
  rw [← h0, ← h1, ← h2]
  rfl

theorem mem_blk6 (t : Fin cfg0.N) (i : S16x32x128.Idx) :
    i ∈ ((cfg0.win 6).blk t).view.set ↔ ∀ a : Fin 3, win0_6.index t a * S1x32x128.size a ≤ (i a).val
      ∧ (i a).val < win0_6.index t a * S1x32x128.size a + S1x32x128.size a := by
  show i ∈ ((View.whole main_v1_1).slice (win0_6.rect t)).set ↔ _
  rw [View.set_slice_whole, Rect.mem_set_unit]
  exact Iff.rfl

theorem cover6 (i : S16x32x128.Idx) :
    ∃ t : Fin cfg0.N, (cfg0.win 6).flush t = true ∧ i ∈ ((cfg0.win 6).blk t).view.set := by
  have hi0 : (i 0).val < 16 := (i 0).isLt
  have hi1 : (i 1).val < 32 := (i 1).isLt
  have hi2 : (i 2).val < 128 := (i 2).isLt
  have hlt : 2 * (i 0).val + 1 < cfg0.N := by rw [show cfg0.N = 32 from N_0]; omega
  refine ⟨⟨2 * (i 0).val + 1, hlt⟩, (flush0_6 _).mpr (by show (2 * (i 0).val + 1) % 2 = 1; omega), ?_⟩
  obtain ⟨-, -, -, -, -, -, -, -, -, -, -, -, e0, e1, e2, -⟩ := idx_facts ⟨2 * (i 0).val + 1, hlt⟩
  have e0' : win0_6.index ⟨2 * (i 0).val + 1, hlt⟩ (0 : Fin 3) = (i 0).val := by
    rw [e0]; show (2 * (i 0).val + 1) / 2 = (i 0).val; omega
  rw [mem_blk6]
  intro a
  match a with
  | ⟨0, _⟩ =>
    show win0_6.index ⟨2 * (i 0).val + 1, hlt⟩ (0 : Fin 3) * 1 ≤ (i 0).val
      ∧ (i 0).val < win0_6.index ⟨2 * (i 0).val + 1, hlt⟩ (0 : Fin 3) * 1 + 1
    omega
  | ⟨1, _⟩ =>
    show win0_6.index ⟨2 * (i 0).val + 1, hlt⟩ (1 : Fin 3) * 32 ≤ (i 1).val
      ∧ (i 1).val < win0_6.index ⟨2 * (i 0).val + 1, hlt⟩ (1 : Fin 3) * 32 + 32
    omega
  | ⟨2, _⟩ =>
    show win0_6.index ⟨2 * (i 0).val + 1, hlt⟩ (2 : Fin 3) * 128 ≤ (i 2).val
      ∧ (i 2).val < win0_6.index ⟨2 * (i 0).val + 1, hlt⟩ (2 : Fin 3) * 128 + 128
    omega

theorem flushed7_eq (c : Dev nD) (t : Fin cfg0.N) (hf : (cfg0.win 7).flush t = true) :
    (dats m 0 c).flushed 7 t
      = ((cfg0.win 7).blk t).view.read (Elt Ideal)
          (fun i : S16x32x1.Idx => Cert.Spec.out2 (aSm m c) (aSp m c) (aTg m c) (ix2 (i 0) (i 1))) := by
  have hN := lt_N t
  obtain ⟨-, -, -, -, -, -, -, -, -, -, -, -, -, -, -, e0, e1, e2⟩ := idx_facts t
  show (cfg0.win 7).cut (grid0.coords t) ((dats m 0 c).after 7 t) = _
  rw [after_7]
  funext j
  rw [View.read_apply]
  refine (ln_point m c (base t) ⟨t.val / 2, by omega⟩ (base_half t).symm _).trans ?_
  have h0 : (⟨t.val / 2, by omega⟩ : Fin 16) = ((cfg0.win 7).blk t).view.emb j 0 := Fin.ext (by
    show t.val / 2 = win0_7.index t (0 : Fin 3) * 1 + 1 * (j 0).val
    have : (j 0).val < 1 := (j 0).isLt
    omega)
  have h1 : (⟨(j 1).val, (j 1).isLt⟩ : Fin 32) = ((cfg0.win 7).blk t).view.emb j 1 := Fin.ext (by
    show (j 1).val = win0_7.index t (1 : Fin 3) * 32 + 1 * (j 1).val
    omega)
  show _ = Cert.Spec.bLN (Cert.Spec.smAt (aSm m c) (((cfg0.win 7).blk t).view.emb j 0))
      (Cert.Spec.spAt (aSp m c) (((cfg0.win 7).blk t).view.emb j 0))
      (Cert.Spec.tgAt (aTg m c) (((cfg0.win 7).blk t).view.emb j 0)) (((cfg0.win 7).blk t).view.emb j 1)
  rw [← h0, ← h1]
  rfl

theorem mem_blk7 (t : Fin cfg0.N) (i : S16x32x1.Idx) :
    i ∈ ((cfg0.win 7).blk t).view.set ↔ ∀ a : Fin 3, win0_7.index t a * S1x32x1.size a ≤ (i a).val
      ∧ (i a).val < win0_7.index t a * S1x32x1.size a + S1x32x1.size a := by
  show i ∈ ((View.whole main_v1_2).slice (win0_7.rect t)).set ↔ _
  rw [View.set_slice_whole, Rect.mem_set_unit]
  exact Iff.rfl

theorem cover7 (i : S16x32x1.Idx) :
    ∃ t : Fin cfg0.N, (cfg0.win 7).flush t = true ∧ i ∈ ((cfg0.win 7).blk t).view.set := by
  have hi0 : (i 0).val < 16 := (i 0).isLt
  have hi1 : (i 1).val < 32 := (i 1).isLt
  have hi2 : (i 2).val < 1 := (i 2).isLt
  have hlt : 2 * (i 0).val + 1 < cfg0.N := by rw [show cfg0.N = 32 from N_0]; omega
  refine ⟨⟨2 * (i 0).val + 1, hlt⟩, (flush0_7 _).mpr (by show (2 * (i 0).val + 1) % 2 = 1; omega), ?_⟩
  obtain ⟨-, -, -, -, -, -, -, -, -, -, -, -, -, -, -, e0, e1, e2⟩ := idx_facts ⟨2 * (i 0).val + 1, hlt⟩
  have e0' : win0_7.index ⟨2 * (i 0).val + 1, hlt⟩ (0 : Fin 3) = (i 0).val := by
    rw [e0]; show (2 * (i 0).val + 1) / 2 = (i 0).val; omega
  rw [mem_blk7]
  intro a
  match a with
  | ⟨0, _⟩ =>
    show win0_7.index ⟨2 * (i 0).val + 1, hlt⟩ (0 : Fin 3) * 1 ≤ (i 0).val
      ∧ (i 0).val < win0_7.index ⟨2 * (i 0).val + 1, hlt⟩ (0 : Fin 3) * 1 + 1
    omega
  | ⟨1, _⟩ =>
    show win0_7.index ⟨2 * (i 0).val + 1, hlt⟩ (1 : Fin 3) * 32 ≤ (i 1).val
      ∧ (i 1).val < win0_7.index ⟨2 * (i 0).val + 1, hlt⟩ (1 : Fin 3) * 32 + 32
    omega
  | ⟨2, _⟩ =>
    show win0_7.index ⟨2 * (i 0).val + 1, hlt⟩ (2 : Fin 3) * 1 ≤ (i 2).val
      ∧ (i 2).val < win0_7.index ⟨2 * (i 0).val + 1, hlt⟩ (2 : Fin 3) * 1 + 1
    omega

end Inner

/-! ## The three class arrays after the run -/

theorem final5 (c : Dev nD) :
    (dats m 0 c).arrAt 5 cfg0.N = Cert.Spec.out0 (aSm m c) (aSp m c) (aTg m c) :=
  (dats m 0 c).arrAt_eq_of_cover 5 (Cert.Spec.out0 (aSm m c) (aSp m c) (aTg m c)) (Inner.flushed5_eq m c) Inner.cover5

theorem final6 (c : Dev nD) :
    (dats m 0 c).arrAt 6 cfg0.N = Cert.Spec.out1 (aSp m c) (aTg m c) :=
  (dats m 0 c).arrAt_eq_of_cover 6 (Cert.Spec.out1 (aSp m c) (aTg m c)) (Inner.flushed6_eq m c) Inner.cover6

theorem final7 (c : Dev nD) :
    (dats m 0 c).arrAt 7 cfg0.N = fun i : S16x32x1.Idx => Cert.Spec.out2 (aSm m c) (aSp m c) (aTg m c) (ix2 (i 0) (i 1)) :=
  (dats m 0 c).arrAt_eq_of_cover 7 (fun i : S16x32x1.Idx => Cert.Spec.out2 (aSm m c) (aSp m c) (aTg m c) (ix2 (i 0) (i 1)))
    (Inner.flushed7_eq m c) Inner.cover7

end Cert.KernelIdeal.KValue

end
-- ==== Proof.PayOuter.lean ====
/-
  The blocks the body stores at every query tile, read at an index on the extended reals: each is one
  scalar formula of the class row and the query row, the log-normaliser their sum over the features.
-/
import proofs.«409652_j37331855737078_2_alg».proof.Proof.Blocks
import proofs.«409652_j37331855737078_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.ValueIdx

/-! ## The casts and broadcasts of the body, read at coordinates -/

section Casts

variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, c]` array broadcast to `[a, b, c]` reads, at `(i, q, e)`, the operand at `(i, 0, e)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (q : Fin b) (e : Fin c) :
    broadcastTo ⟨3, ![a, b, c]⟩ v h (ix3 i q e) = v (ix3 i (0 : Fin 1) e) := by
  refine broadcastTo_apply v h (ix3 i q e) (ix3 i (0 : Fin 1) e) fun ax => ?_
  match ax with
  | ⟨0, _⟩ =>
    show i.val = if a = 1 then 0 else i.val
    split
    · have := i.isLt; omega
    · rfl
  | ⟨1, _⟩ => rfl
  | ⟨2, _⟩ =>
    show e.val = if c = 1 then 0 else e.val
    split
    · have := e.isLt; omega
    · rfl

/-- A `[1, b, c]` array broadcast to `[a, b, c]` reads, at `(i, q, e)`, the operand at `(0, q, e)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (q : Fin b) (e : Fin c) :
    broadcastTo ⟨3, ![a, b, c]⟩ v h (ix3 i q e) = v (ix3 (0 : Fin 1) q e) := by
  refine broadcastTo_apply v h (ix3 i q e) (ix3 (0 : Fin 1) q e) fun ax => ?_
  match ax with
  | ⟨0, _⟩ => rfl
  | ⟨1, _⟩ =>
    show q.val = if b = 1 then 0 else q.val
    split
    · have := q.isLt; omega
    · rfl
  | ⟨2, _⟩ =>
    show e.val = if c = 1 then 0 else e.val
    split
    · have := e.isLt; omega
    · rfl

end Casts

/-- The logarithm of a vector, read at an index. -/
theorem log_apply {s : Shape} {φ : FTy} (a : FVec Ideal s φ) (i : s.Idx) : log a i = Ideal.log (a i) := rfl

/-! ## The values the body keeps between its statements -/

/-- A class block with its unit axis moved inward: the row of class `c`. -/
theorem pay13_apply (v : Vec Ideal S1x32x128 .f32) (c : Fin 32) (u : Fin 1) (e : Fin 128) :
    k0_pay13 v (ix3 c u e) = v (ix3 0 c e) := by
  unfold k0_pay13
  rw [shapeCast_ab_a1b_apply, shapeCast_1ab_ab_apply]

theorem pay14_apply (v : Vec Ideal S1x32x128 .f32) (c : Fin 32) (u : Fin 1) (e : Fin 128) :
    k0_pay14 v (ix3 c u e) = v (ix3 0 c e) := by
  unfold k0_pay14
  rw [shapeCast_ab_a1b_apply, shapeCast_1ab_ab_apply]

/-- A query block cast down and up again is itself. -/
theorem pay15_apply (v : Vec Ideal S1x256x128 .f32) (u : Fin 1) (q : Fin 256) (e : Fin 128) :
    k0_pay15 v (ix3 u q e) = v (ix3 0 q e) := by
  unfold k0_pay15
  rw [shapeCast_ab_1ab_apply, shapeCast_1ab_ab_apply]

theorem pay16_apply (v : Vec Ideal S1x256x128 .f32) (u : Fin 1) (q : Fin 256) (e : Fin 128) :
    k0_pay16 v (ix3 u q e) = v (ix3 0 q e) := by
  unfold k0_pay16
  rw [shapeCast_ab_1ab_apply, shapeCast_1ab_ab_apply]

/-- The product's precision at class `c`, query `q`, feature `e`. -/
theorem pay17_apply (pp : Vec Ideal S1x32x128 .f32) (x4 : Vec Ideal S1x256x128 .f32) (c : Fin 32) (q : Fin 256) (e : Fin 128) :
    k0_pay17 pp x4 (ix3 c q e) = Cert.Spec.sOP (pp (ix3 0 c e)) (x4 (ix3 0 q e)) := by
  unfold k0_pay17
  rw [addf_apply, broadcastTo_a1c_abc_apply, broadcastTo_1bc_abc_apply, pay13_apply, pay15_apply]
  rfl

/-- The product's mean at class `c`, query `q`, feature `e`. -/
theorem pay19_apply (pm pp : Vec Ideal S1x32x128 .f32) (x3 x4 : Vec Ideal S1x256x128 .f32) (c : Fin 32) (q : Fin 256) (e : Fin 128) :
    k0_pay19 pm pp x3 x4 (ix3 c q e)
      = Cert.Spec.sOM (pm (ix3 0 c e)) (pp (ix3 0 c e)) (x3 (ix3 0 q e)) (x4 (ix3 0 q e)) := by
  unfold k0_pay19
  rw [divf_apply, addf_apply, broadcastTo_1bc_abc_apply, broadcastTo_a1c_abc_apply, mulf_apply, mulf_apply,
    pay13_apply, pay14_apply, pay15_apply, pay16_apply, pay17_apply]
  rfl

theorem pay21_apply (pm pp : Vec Ideal S1x32x128 .f32) (x3 x4 : Vec Ideal S1x256x128 .f32) (c : Fin 32) (q : Fin 256) (e : Fin 128) :
    k0_pay21 pm pp x3 x4 (ix3 c q e)
      = Cert.Spec.sOP (pp (ix3 0 c e)) (x4 (ix3 0 q e))
        * (Cert.Spec.sOM (pm (ix3 0 c e)) (pp (ix3 0 c e)) (x3 (ix3 0 q e)) (x4 (ix3 0 q e))
          * Cert.Spec.sOM (pm (ix3 0 c e)) (pp (ix3 0 c e)) (x3 (ix3 0 q e)) (x4 (ix3 0 q e))) := by
  unfold k0_pay21
  rw [mulf_apply, mulf_apply, pay17_apply, pay19_apply]

theorem pay22_apply (v : Vec Ideal S1x256x128 .f32) (u : Fin 1) (q : Fin 256) (e : Fin 128) :
    k0_pay22 v (ix3 u q e) = v (ix3 0 q e) * v (ix3 0 q e) := by
  unfold k0_pay22
  rw [mulf_apply, pay16_apply]

/-- The source index of the lane sum over `(c, q)` at lane `e` is `(c, q, e)`. -/
theorem lift_cq (c : Fin 32) (q : Fin 256) (e : Fin 128) :
    reduces_S32x256x128_S32x256.lift (ix2 c q) e = ix3 c q e := by
  funext d
  match d with
  | ⟨0, _⟩ => rfl
  | ⟨1, _⟩ => rfl
  | ⟨2, _⟩ => rfl

/-! ## The three stored blocks -/

theorem opBlk_apply (pp : Vec Ideal S1x32x128 .f32) (x4 : Vec Ideal S1x256x128 .f32) (c : Fin 32) (q : Fin 256) (e : Fin 128) :
    opBlk pp x4 (ix4 0 c q e) = Cert.Spec.sOP (pp (ix3 0 c e)) (x4 (ix3 0 q e)) := by
  unfold opBlk k0_pay18
  rw [shapeCast_abc_1abc_apply, pay17_apply]

theorem omBlk_apply (pm pp : Vec Ideal S1x32x128 .f32) (x3 x4 : Vec Ideal S1x256x128 .f32) (c : Fin 32) (q : Fin 256) (e : Fin 128) :
    omBlk pm pp x3 x4 (ix4 0 c q e)
      = Cert.Spec.sOM (pm (ix3 0 c e)) (pp (ix3 0 c e)) (x3 (ix3 0 q e)) (x4 (ix3 0 q e)) := by
  unfold omBlk k0_pay20
  rw [shapeCast_abc_1abc_apply, pay19_apply]

theorem olBlk_apply (pm pp : Vec Ideal S1x32x128 .f32) (x3 x4 : Vec Ideal S1x256x128 .f32) (c : Fin 32) (q : Fin 256) :
    olBlk pm pp x3 x4 (ix3 0 c q)
      = Cert.Spec.bOL (fun e => pm (ix3 0 c e)) (fun e => pp (ix3 0 c e)) (fun e => x3 (ix3 0 q e)) (fun e => x4 (ix3 0 q e)) := by
  unfold olBlk k0_pay1
  rw [shapeCast_ab_1ab_apply]
  refine (Ideal.multiReduction_add_single _ _ reduces_S32x256x128_S32x256 _ _ (ix2 c q)).trans ?_
  unfold Cert.Spec.bOL
  refine Finset.sum_congr rfl fun (e : Fin 128) _ => ?_
  rw [lift_cq c q e]
  simp only [addf_apply, mulf_apply, subf_apply, log_apply, broadcast_apply, broadcastTo_a1c_abc_apply,
    broadcastTo_1bc_abc_apply, pay13_apply, pay14_apply, pay15_apply, pay17_apply, pay21_apply, pay22_apply]
  rfl

end Cert.KernelIdeal.Hand

end
-- ==== Proof.KValueOuter.lean ====
/-
  The three product arrays after the run. The block of batch b and query tile j is written back after point
  2 b + j and holds the products of batch b's classes with the tile's 256 queries; the thirty-two blocks tile
  the array. Read at an index the stored block is the specification's product of class and query.
-/
import proofs.«409652_j37331855737078_2_alg».proof.Proof.Body
import proofs.«409652_j37331855737078_2_alg».proof.Proof.PayInner
import proofs.«409652_j37331855737078_2_alg».proof.Proof.PayOuter
import proofs.«409652_j37331855737078_2_alg».proof.Proof.Spec
import proofs.«409652_j37331855737078_2_alg».proof.Proof.KArgs
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.KValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

namespace Outer

/-! ## The printed index maps over the grid -/

theorem idx0 : ∀ t : Fin cfg0.N, win0_0.index t (0 : Fin 3) = t.val / 2 ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val / 2 ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val / 2 ∧ win0_2.index t (1 : Fin 3) = 0 ∧ win0_2.index t (2 : Fin 3) = 0 :=
  (by decide +kernel : ∀ t : Fin grid0.N, _)
theorem idx3 : ∀ t : Fin cfg0.N, win0_3.index t (0 : Fin 3) = t.val / 2 ∧ win0_3.index t (1 : Fin 3) = t.val % 2 ∧ win0_3.index t (2 : Fin 3) = 0 :=
  (by decide +kernel : ∀ t : Fin grid0.N, _)
theorem idx4 : ∀ t : Fin cfg0.N, win0_4.index t (0 : Fin 3) = t.val / 2 ∧ win0_4.index t (1 : Fin 3) = t.val % 2 ∧ win0_4.index t (2 : Fin 3) = 0 :=
  (by decide +kernel : ∀ t : Fin grid0.N, _)
theorem idx8 : ∀ t : Fin cfg0.N, win0_8.index t (0 : Fin 4) = t.val / 2 ∧ win0_8.index t (1 : Fin 4) = 0 ∧ win0_8.index t (2 : Fin 4) = t.val % 2 ∧ win0_8.index t (3 : Fin 4) = 0 :=
  (by decide +kernel : ∀ t : Fin grid0.N, _)
theorem idx9 : ∀ t : Fin cfg0.N, win0_9.index t (0 : Fin 4) = t.val / 2 ∧ win0_9.index t (1 : Fin 4) = 0 ∧ win0_9.index t (2 : Fin 4) = t.val % 2 ∧ win0_9.index t (3 : Fin 4) = 0 :=
  (by decide +kernel : ∀ t : Fin grid0.N, _)
theorem idx10 : ∀ t : Fin cfg0.N, win0_10.index t (0 : Fin 3) = t.val / 2 ∧ win0_10.index t (1 : Fin 3) = 0 ∧ win0_10.index t (2 : Fin 3) = t.val % 2 :=
  (by decide +kernel : ∀ t : Fin grid0.N, _)

/-! ## The input blocks read off the argument arrays -/

theorem iblk0_apply (c : Dev nD) (t : Fin cfg0.N) (x : S1x2048x128.Idx) (k : Cert.Spec.A3.Idx)
    (hk0 : (k 0).val = t.val / 2) (hk1 : (k 1).val = (x 1).val) (hk2 : (k 2).val = (x 2).val) :
    (iblk m c 0 t : Vec Ideal S1x2048x128 .f32) x = aSm m c k := by
  obtain ⟨e0, e1, e2⟩ := idx0 t
  have hx0 : (x 0).val < 1 := (x 0).isLt
  unfold iblk
  rw [View.read_apply]
  show V m c main_arg0 _ = m (c.tc.loc main_arg0) _
  rw [V_main_arg0]
  refine congrArg _ ?_
  funext a
  apply Fin.ext
  match a with
  | ⟨0, _⟩ => show win0_0.index t (0 : Fin 3) * 1 + 1 * (x 0).val = (k 0).val; omega
  | ⟨1, _⟩ => show win0_0.index t (1 : Fin 3) * 2048 + 1 * (x 1).val = (k 1).val; omega
  | ⟨2, _⟩ => show win0_0.index t (2 : Fin 3) * 128 + 1 * (x 2).val = (k 2).val; omega

theorem V_main_v0 (c : Dev nD) :
    (V m c main_v0 : S16x1x2048.Idx → BitVec 32)
      = shapeCast S16x1x2048 (m (c.tc.loc main_arg4) : S16x2048.Idx → BitVec 32) shapeCasts_S16x2048_S16x1x2048 := by
  show StableHlo.after hostOps0 (fun b => m (c, b)) (Proc.devRef .tc main_v0) = _
  after_results
  rfl

theorem iblk1_apply (c : Dev nD) (t : Fin cfg0.N) (x : S1x2048x128.Idx) (k : Cert.Spec.A3.Idx)
    (hk0 : (k 0).val = t.val / 2) (hk1 : (k 1).val = (x 1).val) (hk2 : (k 2).val = (x 2).val) :
    (iblk m c 1 t : Vec Ideal S1x2048x128 .f32) x = aSp m c k := by
  obtain ⟨e0, e1, e2⟩ := idx1 t
  have hx0 : (x 0).val < 1 := (x 0).isLt
  unfold iblk
  rw [View.read_apply]
  show V m c main_arg1 _ = m (c.tc.loc main_arg1) _
  rw [V_main_arg1]
  refine congrArg _ ?_
  funext a
  apply Fin.ext
  match a with
  | ⟨0, _⟩ => show win0_1.index t (0 : Fin 3) * 1 + 1 * (x 0).val = (k 0).val; omega
  | ⟨1, _⟩ => show win0_1.index t (1 : Fin 3) * 2048 + 1 * (x 1).val = (k 1).val; omega
  | ⟨2, _⟩ => show win0_1.index t (2 : Fin 3) * 128 + 1 * (x 2).val = (k 2).val; omega

/-- The labels' block at a point: the batch's row of the label array. -/
theorem iblk2_apply (c : Dev nD) (t : Fin cfg0.N) (x : S1x1x2048.Idx) (k : Cert.Spec.T2.Idx)
    (hk0 : (k 0).val = t.val / 2) (hk1 : (k 1).val = (x 2).val) :
    (iblk m c 2 t : Vec Ideal S1x1x2048 .i32) x = aTg m c k := by
  obtain ⟨e0, e1, e2⟩ := idx2 t
  have hx0 : (x 0).val < 1 := (x 0).isLt
  have hx1 : (x 1).val < 1 := (x 1).isLt
  have hx2 : (x 2).val < 2048 := (x 2).isLt
  unfold iblk
  rw [View.read_apply]
  show V m c main_v0 _ = m (c.tc.loc main_arg4) _
  rw [V_main_v0]
  refine shapeCast_apply _ _ _ _ ?_
  refine (Shape.rowMajor_val_two (d := ![16, 2048]) k).trans
    (Eq.symm ((Shape.rowMajor_val_three (d := ![16, 1, 2048]) _).trans ?_))
  show ((win0_2.index t (0 : Fin 3) * 1 + 1 * (x 0).val) * 1 + (win0_2.index t (1 : Fin 3) * 1 + 1 * (x 1).val)) * 2048
      + (win0_2.index t (2 : Fin 3) * 2048 + 1 * (x 2).val) = (k 0).val * 2048 + (k 1).val
  rw [e0, e1, e2, hk0, hk1]
  omega

theorem iblk3_apply (c : Dev nD) (t : Fin cfg0.N) (x : S1x256x128.Idx) (k : Cert.Spec.Q3.Idx)
    (hk0 : (k 0).val = t.val / 2) (hk1 : (k 1).val = 256 * (t.val % 2) + (x 1).val) (hk2 : (k 2).val = (x 2).val) :
    (iblk m c 3 t : Vec Ideal S1x256x128 .f32) x = aQm m c k := by
  obtain ⟨e0, e1, e2⟩ := idx3 t
  have hx0 : (x 0).val < 1 := (x 0).isLt
  unfold iblk
  rw [View.read_apply]
  show V m c main_arg2 _ = m (c.tc.loc main_arg2) _
  rw [V_main_arg2]
  refine congrArg _ ?_
  funext a
  apply Fin.ext
  match a with
  | ⟨0, _⟩ => show win0_3.index t (0 : Fin 3) * 1 + 1 * (x 0).val = (k 0).val; omega
  | ⟨1, _⟩ => show win0_3.index t (1 : Fin 3) * 256 + 1 * (x 1).val = (k 1).val; omega
  | ⟨2, _⟩ => show win0_3.index t (2 : Fin 3) * 128 + 1 * (x 2).val = (k 2).val; omega

theorem iblk4_apply (c : Dev nD) (t : Fin cfg0.N) (x : S1x256x128.Idx) (k : Cert.Spec.Q3.Idx)
    (hk0 : (k 0).val = t.val / 2) (hk1 : (k 1).val = 256 * (t.val % 2) + (x 1).val) (hk2 : (k 2).val = (x 2).val) :
    (iblk m c 4 t : Vec Ideal S1x256x128 .f32) x = aQp m c k := by
  obtain ⟨e0, e1, e2⟩ := idx4 t
  have hx0 : (x 0).val < 1 := (x 0).isLt
  unfold iblk
  rw [View.read_apply]
  show V m c main_arg3 _ = m (c.tc.loc main_arg3) _
  rw [V_main_arg3]
  refine congrArg _ ?_
  funext a
  apply Fin.ext
  match a with
  | ⟨0, _⟩ => show win0_4.index t (0 : Fin 3) * 1 + 1 * (x 0).val = (k 0).val; omega
  | ⟨1, _⟩ => show win0_4.index t (1 : Fin 3) * 256 + 1 * (x 1).val = (k 1).val; omega
  | ⟨2, _⟩ => show win0_4.index t (2 : Fin 3) * 128 + 1 * (x 2).val = (k 2).val; omega

/-! ## The class rows of a batch -/

theorem cols0_eq (c : Dev nD) (s : Fin cfg0.N) (b : Fin 16) (hb : b.val = s.val / 2) :
    colsOf (iblk m c 0 s) = Cert.Spec.smAt (aSm m c) b :=
  funext fun n => funext fun e => iblk0_apply m c s (ix3 0 n e) (ix3 b n e) hb rfl rfl

theorem cols1_eq (c : Dev nD) (s : Fin cfg0.N) (b : Fin 16) (hb : b.val = s.val / 2) :
    colsOf (iblk m c 1 s) = Cert.Spec.spAt (aSp m c) b :=
  funext fun n => funext fun e => iblk1_apply m c s (ix3 0 n e) (ix3 b n e) hb rfl rfl

theorem labels_eq (c : Dev nD) (s : Fin cfg0.N) (b : Fin 16) (hb : b.val = s.val / 2) :
    labelsOf (iblk m c 2 s) = Cert.Spec.tgAt (aTg m c) b :=
  funext fun n => iblk2_apply m c s (ix3 0 0 n) (ix2 b n) hb rfl

/-- The class means the body leaves at the point that opens batch `b`. -/
theorem pmAt_apply (c : Dev nD) (s : Fin cfg0.N) (b : Fin 16) (hb : b.val = s.val / 2) (cl : Fin 32) (e : Fin 128) :
    pmAt m c s (ix3 0 cl e) = Cert.Spec.aPM (aSm m c) (aSp m c) (aTg m c) b cl e := by
  unfold pmAt Cert.Spec.aPM
  refine (pmBlk_apply (iblk m c 0 s) (iblk m c 1 s) (iblk m c 2 s) cl e).trans ?_
  rw [cols0_eq m c s b hb, cols1_eq m c s b hb, labels_eq m c s b hb]

/-- The class precisions the body leaves at the point that opens batch `b`. -/
theorem ppAt_apply (c : Dev nD) (s : Fin cfg0.N) (b : Fin 16) (hb : b.val = s.val / 2) (cl : Fin 32) (e : Fin 128) :
    ppAt m c s (ix3 0 cl e) = Cert.Spec.aPP (aSp m c) (aTg m c) b cl e := by
  unfold ppAt Cert.Spec.aPP
  refine (ppBlk_apply (iblk m c 1 s) (iblk m c 2 s) cl e).trans ?_
  rw [cols1_eq m c s b hb, labels_eq m c s b hb]

theorem base_half (t : Fin cfg0.N) : (base t).val / 2 = t.val / 2 := by
  show (t.val - t.val % 2) / 2 = t.val / 2
  omega

/-! ## Window 8: the products' means -/

/-- The stored block of means, at inside-block coordinates, is the specification's array at the covered index. -/
theorem om_point (c : Dev nD) (t : Fin cfg0.N) (u : Fin 1) (cl : Fin 32) (q : Fin 256) (e : Fin 128) (i : Cert.Spec.R4.Idx)
    (h0 : (i 0).val = t.val / 2) (h1 : (i 1).val = cl.val) (h2 : (i 2).val = 256 * (t.val % 2) + q.val) (h3 : (i 3).val = e.val) :
    omAt m c t (ix4 u cl q e) = Cert.Spec.out3 (aSm m c) (aSp m c) (aQm m c) (aQp m c) (aTg m c) i := by
  obtain ⟨b, cl', qq, e', rfl⟩ : ∃ (b : Fin 16) (cl' : Fin 32) (qq : Fin 512) (e' : Fin 128), i = ix4 b cl' qq e' :=
    ⟨i 0, i 1, i 2, i 3, eq_ix4 i⟩
  obtain rfl : cl' = cl := Fin.ext h1
  obtain rfl : e' = e := Fin.ext h3
  obtain rfl : u = 0 := Fin.ext (by omega)
  have hb : b.val = t.val / 2 := h0
  have hq : qq.val = 256 * (t.val % 2) + q.val := h2
  have hb' : b.val = (base t).val / 2 := by rw [base_half]; exact hb
  unfold omAt
  refine (omBlk_apply (pmAt m c (base t)) (ppAt m c (base t)) (iblk m c 3 t) (iblk m c 4 t) cl' q e').trans ?_
  rw [pmAt_apply m c (base t) b hb' cl' e', ppAt_apply m c (base t) b hb' cl' e',
    iblk3_apply m c t (ix3 0 q e') (ix3 b qq e') hb hq rfl, iblk4_apply m c t (ix3 0 q e') (ix3 b qq e') hb hq rfl]
  rfl

theorem flushed8_eq (c : Dev nD) (t : Fin cfg0.N) :
    (dats m 0 c).flushed 8 t
      = ((cfg0.win 8).blk t).view.read (Elt Ideal) (Cert.Spec.out3 (aSm m c) (aSp m c) (aQm m c) (aQp m c) (aTg m c)) := by
  show (cfg0.win 8).cut (grid0.coords t) ((dats m 0 c).after 8 t) = _
  rw [after_8]
  obtain ⟨e0, e1, e2, e3⟩ := idx8 t
  funext y
  obtain ⟨u, cl, q, e, rfl⟩ : ∃ (u : Fin 1) (cl : Fin 32) (q : Fin 256) (e : Fin 128), y = ix4 u cl q e :=
    ⟨y 0, y 1, y 2, y 3, eq_ix4 y⟩
  rw [View.read_apply]
  show omAt m c t (ix4 u cl q e)
    = Cert.Spec.out3 (aSm m c) (aSp m c) (aQm m c) (aQp m c) (aTg m c) (((cfg0.win 8).blk t).view.emb (ix4 u cl q e))
  have hu : u.val < 1 := u.isLt
  refine om_point m c t u cl q e _ ?_ ?_ ?_ ?_
  · show win0_8.index t (0 : Fin 4) * 1 + 1 * u.val = t.val / 2; omega
  · show win0_8.index t (1 : Fin 4) * 32 + 1 * cl.val = cl.val; omega
  · show win0_8.index t (2 : Fin 4) * 256 + 1 * q.val = 256 * (t.val % 2) + q.val; omega
  · show win0_8.index t (3 : Fin 4) * 128 + 1 * e.val = e.val; omega

theorem mem_blk8 (t : Fin cfg0.N) (i : S16x32x512x128.Idx) :
    i ∈ ((cfg0.win 8).blk t).view.set ↔ ∀ a : Fin 4, win0_8.index t a * S1x32x256x128.size a ≤ (i a).val
      ∧ (i a).val < win0_8.index t a * S1x32x256x128.size a + S1x32x256x128.size a := by
  show i ∈ ((View.whole main_v1_3).slice (win0_8.rect t)).set ↔ _
  rw [View.set_slice_whole, Rect.mem_set_unit]
  exact Iff.rfl

theorem cover8 (i : S16x32x512x128.Idx) :
    ∃ t : Fin cfg0.N, (cfg0.win 8).flush t = true ∧ i ∈ ((cfg0.win 8).blk t).view.set := by
  have h0 : (i 0).val < 16 := (i 0).isLt
  have h1 : (i 1).val < 32 := (i 1).isLt
  have h2 : (i 2).val < 512 := (i 2).isLt
  have h3 : (i 3).val < 128 := (i 3).isLt
  have hN : cfg0.N = 32 := N_0
  refine ⟨⟨2 * (i 0).val + (i 2).val / 256, by rw [hN]; omega⟩, flush0_8 _, ?_⟩
  rw [mem_blk8]
  obtain ⟨e0, e1, e2, e3⟩ := idx8 ⟨2 * (i 0).val + (i 2).val / 256, by rw [hN]; omega⟩
  dsimp only at e0 e1 e2 e3
  intro a
  match a with
  | ⟨0, _⟩ => show win0_8.index _ (0 : Fin 4) * 1 ≤ (i 0).val ∧ (i 0).val < win0_8.index _ (0 : Fin 4) * 1 + 1; omega
  | ⟨1, _⟩ => show win0_8.index _ (1 : Fin 4) * 32 ≤ (i 1).val ∧ (i 1).val < win0_8.index _ (1 : Fin 4) * 32 + 32; omega
  | ⟨2, _⟩ => show win0_8.index _ (2 : Fin 4) * 256 ≤ (i 2).val ∧ (i 2).val < win0_8.index _ (2 : Fin 4) * 256 + 256; omega
  | ⟨3, _⟩ => show win0_8.index _ (3 : Fin 4) * 128 ≤ (i 3).val ∧ (i 3).val < win0_8.index _ (3 : Fin 4) * 128 + 128; omega

/-! ## Window 9: the products' precisions -/

theorem op_point (c : Dev nD) (t : Fin cfg0.N) (u : Fin 1) (cl : Fin 32) (q : Fin 256) (e : Fin 128) (i : Cert.Spec.R4.Idx)
    (h0 : (i 0).val = t.val / 2) (h1 : (i 1).val = cl.val) (h2 : (i 2).val = 256 * (t.val % 2) + q.val) (h3 : (i 3).val = e.val) :
    opAt m c t (ix4 u cl q e) = Cert.Spec.out4 (aSp m c) (aQp m c) (aTg m c) i := by
  obtain ⟨b, cl', qq, e', rfl⟩ : ∃ (b : Fin 16) (cl' : Fin 32) (qq : Fin 512) (e' : Fin 128), i = ix4 b cl' qq e' :=
    ⟨i 0, i 1, i 2, i 3, eq_ix4 i⟩
  obtain rfl : cl' = cl := Fin.ext h1
  obtain rfl : e' = e := Fin.ext h3
  obtain rfl : u = 0 := Fin.ext (by omega)
  have hb : b.val = t.val / 2 := h0
  have hq : qq.val = 256 * (t.val % 2) + q.val := h2
  have hb' : b.val = (base t).val / 2 := by rw [base_half]; exact hb
  unfold opAt
  refine (opBlk_apply (ppAt m c (base t)) (iblk m c 4 t) cl' q e').trans ?_
  rw [ppAt_apply m c (base t) b hb' cl' e', iblk4_apply m c t (ix3 0 q e') (ix3 b qq e') hb hq rfl]
  rfl

theorem flushed9_eq (c : Dev nD) (t : Fin cfg0.N) :
    (dats m 0 c).flushed 9 t
      = ((cfg0.win 9).blk t).view.read (Elt Ideal) (Cert.Spec.out4 (aSp m c) (aQp m c) (aTg m c)) := by
  show (cfg0.win 9).cut (grid0.coords t) ((dats m 0 c).after 9 t) = _
  rw [after_9]
  obtain ⟨e0, e1, e2, e3⟩ := idx9 t
  funext y
  obtain ⟨u, cl, q, e, rfl⟩ : ∃ (u : Fin 1) (cl : Fin 32) (q : Fin 256) (e : Fin 128), y = ix4 u cl q e :=
    ⟨y 0, y 1, y 2, y 3, eq_ix4 y⟩
  rw [View.read_apply]
  show opAt m c t (ix4 u cl q e)
    = Cert.Spec.out4 (aSp m c) (aQp m c) (aTg m c) (((cfg0.win 9).blk t).view.emb (ix4 u cl q e))
  have hu : u.val < 1 := u.isLt
  refine op_point m c t u cl q e _ ?_ ?_ ?_ ?_
  · show win0_9.index t (0 : Fin 4) * 1 + 1 * u.val = t.val / 2; omega
  · show win0_9.index t (1 : Fin 4) * 32 + 1 * cl.val = cl.val; omega
  · show win0_9.index t (2 : Fin 4) * 256 + 1 * q.val = 256 * (t.val % 2) + q.val; omega
  · show win0_9.index t (3 : Fin 4) * 128 + 1 * e.val = e.val; omega

theorem mem_blk9 (t : Fin cfg0.N) (i : S16x32x512x128.Idx) :
    i ∈ ((cfg0.win 9).blk t).view.set ↔ ∀ a : Fin 4, win0_9.index t a * S1x32x256x128.size a ≤ (i a).val
      ∧ (i a).val < win0_9.index t a * S1x32x256x128.size a + S1x32x256x128.size a := by
  show i ∈ ((View.whole main_v1_4).slice (win0_9.rect t)).set ↔ _
  rw [View.set_slice_whole, Rect.mem_set_unit]
  exact Iff.rfl

theorem cover9 (i : S16x32x512x128.Idx) :
    ∃ t : Fin cfg0.N, (cfg0.win 9).flush t = true ∧ i ∈ ((cfg0.win 9).blk t).view.set := by
  have h0 : (i 0).val < 16 := (i 0).isLt
  have h1 : (i 1).val < 32 := (i 1).isLt
  have h2 : (i 2).val < 512 := (i 2).isLt
  have h3 : (i 3).val < 128 := (i 3).isLt
  have hN : cfg0.N = 32 := N_0
  refine ⟨⟨2 * (i 0).val + (i 2).val / 256, by rw [hN]; omega⟩, flush0_9 _, ?_⟩
  rw [mem_blk9]
  obtain ⟨e0, e1, e2, e3⟩ := idx9 ⟨2 * (i 0).val + (i 2).val / 256, by rw [hN]; omega⟩
  dsimp only at e0 e1 e2 e3
  intro a
  match a with
  | ⟨0, _⟩ => show win0_9.index _ (0 : Fin 4) * 1 ≤ (i 0).val ∧ (i 0).val < win0_9.index _ (0 : Fin 4) * 1 + 1; omega
  | ⟨1, _⟩ => show win0_9.index _ (1 : Fin 4) * 32 ≤ (i 1).val ∧ (i 1).val < win0_9.index _ (1 : Fin 4) * 32 + 32; omega
  | ⟨2, _⟩ => show win0_9.index _ (2 : Fin 4) * 256 ≤ (i 2).val ∧ (i 2).val < win0_9.index _ (2 : Fin 4) * 256 + 256; omega
  | ⟨3, _⟩ => show win0_9.index _ (3 : Fin 4) * 128 ≤ (i 3).val ∧ (i 3).val < win0_9.index _ (3 : Fin 4) * 128 + 128; omega

/-! ## Window 10: the products' log-normalisers -/

theorem ol_point (c : Dev nD) (t : Fin cfg0.N) (u : Fin 1) (cl : Fin 32) (q : Fin 256) (i : Cert.Spec.R3q.Idx)
    (h0 : (i 0).val = t.val / 2) (h1 : (i 1).val = cl.val) (h2 : (i 2).val = 256 * (t.val % 2) + q.val) :
    olAt m c t (ix3 u cl q) = Cert.Spec.out5 (aSm m c) (aSp m c) (aQm m c) (aQp m c) (aTg m c) i := by
  obtain ⟨b, cl', qq, rfl⟩ : ∃ (b : Fin 16) (cl' : Fin 32) (qq : Fin 512), i = ix3 b cl' qq :=
    ⟨i 0, i 1, i 2, eq_ix3 i⟩
  obtain rfl : cl' = cl := Fin.ext h1
  obtain rfl : u = 0 := Fin.ext (by omega)
  have hb : b.val = t.val / 2 := h0
  have hq : qq.val = 256 * (t.val % 2) + q.val := h2
  have hb' : b.val = (base t).val / 2 := by rw [base_half]; exact hb
  unfold olAt
  refine (olBlk_apply (pmAt m c (base t)) (ppAt m c (base t)) (iblk m c 3 t) (iblk m c 4 t) cl' q).trans ?_
  have e1 : (fun e => pmAt m c (base t) (ix3 0 cl' e)) = fun e => Cert.Spec.aPM (aSm m c) (aSp m c) (aTg m c) b cl' e :=
    funext fun e => pmAt_apply m c (base t) b hb' cl' e
  have e2 : (fun e => ppAt m c (base t) (ix3 0 cl' e)) = fun e => Cert.Spec.aPP (aSp m c) (aTg m c) b cl' e :=
    funext fun e => ppAt_apply m c (base t) b hb' cl' e
  have e3 : (fun e => (iblk m c 3 t : Vec Ideal S1x256x128 .f32) (ix3 0 q e)) = fun e => aQm m c (ix3 b qq e) :=
    funext fun e => iblk3_apply m c t (ix3 0 q e) (ix3 b qq e) hb hq rfl
  have e4 : (fun e => (iblk m c 4 t : Vec Ideal S1x256x128 .f32) (ix3 0 q e)) = fun e => aQp m c (ix3 b qq e) :=
    funext fun e => iblk4_apply m c t (ix3 0 q e) (ix3 b qq e) hb hq rfl
  exact congr (congr (congr (congrArg Cert.Spec.bOL e1) e2) e3) e4

theorem flushed10_eq (c : Dev nD) (t : Fin cfg0.N) :
    (dats m 0 c).flushed 10 t
      = ((cfg0.win 10).blk t).view.read (Elt Ideal) (Cert.Spec.out5 (aSm m c) (aSp m c) (aQm m c) (aQp m c) (aTg m c)) := by
  show (cfg0.win 10).cut (grid0.coords t) ((dats m 0 c).after 10 t) = _
  rw [after_10]
  obtain ⟨e0, e1, e2⟩ := idx10 t
  funext y
  obtain ⟨u, cl, q, rfl⟩ : ∃ (u : Fin 1) (cl : Fin 32) (q : Fin 256), y = ix3 u cl q :=
    ⟨y 0, y 1, y 2, eq_ix3 y⟩
  rw [View.read_apply]
  show olAt m c t (ix3 u cl q)
    = Cert.Spec.out5 (aSm m c) (aSp m c) (aQm m c) (aQp m c) (aTg m c) (((cfg0.win 10).blk t).view.emb (ix3 u cl q))
  have hu : u.val < 1 := u.isLt
  refine ol_point m c t u cl q _ ?_ ?_ ?_
  · show win0_10.index t (0 : Fin 3) * 1 + 1 * u.val = t.val / 2; omega
  · show win0_10.index t (1 : Fin 3) * 32 + 1 * cl.val = cl.val; omega
  · show win0_10.index t (2 : Fin 3) * 256 + 1 * q.val = 256 * (t.val % 2) + q.val; omega

theorem mem_blk10 (t : Fin cfg0.N) (i : S16x32x512.Idx) :
    i ∈ ((cfg0.win 10).blk t).view.set ↔ ∀ a : Fin 3, win0_10.index t a * S1x32x256.size a ≤ (i a).val
      ∧ (i a).val < win0_10.index t a * S1x32x256.size a + S1x32x256.size a := by
  show i ∈ ((View.whole main_v1_5).slice (win0_10.rect t)).set ↔ _
  rw [View.set_slice_whole, Rect.mem_set_unit]
  exact Iff.rfl

theorem cover10 (i : S16x32x512.Idx) :
    ∃ t : Fin cfg0.N, (cfg0.win 10).flush t = true ∧ i ∈ ((cfg0.win 10).blk t).view.set := by
  have h0 : (i 0).val < 16 := (i 0).isLt
  have h1 : (i 1).val < 32 := (i 1).isLt
  have h2 : (i 2).val < 512 := (i 2).isLt
  have hN : cfg0.N = 32 := N_0
  refine ⟨⟨2 * (i 0).val + (i 2).val / 256, by rw [hN]; omega⟩, flush0_10 _, ?_⟩
  rw [mem_blk10]
  obtain ⟨e0, e1, e2⟩ := idx10 ⟨2 * (i 0).val + (i 2).val / 256, by rw [hN]; omega⟩
  dsimp only at e0 e1 e2
  intro a
  match a with
  | ⟨0, _⟩ => show win0_10.index _ (0 : Fin 3) * 1 ≤ (i 0).val ∧ (i 0).val < win0_10.index _ (0 : Fin 3) * 1 + 1; omega
  | ⟨1, _⟩ => show win0_10.index _ (1 : Fin 3) * 32 ≤ (i 1).val ∧ (i 1).val < win0_10.index _ (1 : Fin 3) * 32 + 32; omega
  | ⟨2, _⟩ => show win0_10.index _ (2 : Fin 3) * 256 ≤ (i 2).val ∧ (i 2).val < win0_10.index _ (2 : Fin 3) * 256 + 256; omega

end Outer

/-! ## The three arrays after the run -/

theorem final8 (c : Dev nD) :
    (dats m 0 c).arrAt 8 cfg0.N = Cert.Spec.out3 (aSm m c) (aSp m c) (aQm m c) (aQp m c) (aTg m c) := by
  exact (dats m 0 c).arrAt_eq_of_cover 8 _ (fun t _ => Outer.flushed8_eq m c t) Outer.cover8

theorem final9 (c : Dev nD) :
    (dats m 0 c).arrAt 9 cfg0.N = Cert.Spec.out4 (aSp m c) (aQp m c) (aTg m c) := by
  exact (dats m 0 c).arrAt_eq_of_cover 9 _ (fun t _ => Outer.flushed9_eq m c t) Outer.cover9

theorem final10 (c : Dev nD) :
    (dats m 0 c).arrAt 10 cfg0.N = Cert.Spec.out5 (aSm m c) (aSp m c) (aQm m c) (aQp m c) (aTg m c) := by
  exact (dats m 0 c).arrAt_eq_of_cover 10 _ (fun t _ => Outer.flushed10_eq m c t) Outer.cover10

end Cert.KernelIdeal.KValue

end
-- ==== Proof.KRun.lean ====
/-
  The idealized kernel program's run: every weakly fair execution terminates with the six results at the
  specification's arrays of the arguments and the arguments unchanged. The five arrays the kernel writes are read off
  the pipeline's write-backs; the class log-normalisers leave the region as a [16, 32, 1] array and the one host
  line after the region drops the trailing axis.
-/
import proofs.«409652_j37331855737078_2_alg».proof.Proof.KValueInner
import proofs.«409652_j37331855737078_2_alg».proof.Proof.KValueOuter
import proofs.«409652_j37331855737078_2_alg».proof.Proof.Spec
import proofs.«409652_j37331855737078_2_alg».proof.Proof.KArgs
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.KValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The host line after the region: the [16, 32, 1] array of class log-normalisers as a [16, 32] array. -/
theorem tail2 (c : Dev nD) :
    Pipeline.afterTail₀ cfgs (dats m) 0 (V0 m) [hostOps1] c main_v2 = Cert.Spec.out2 (aSm m c) (aSp m c) (aTg m c) := by
  unfold Pipeline.afterTail₀
  show StableHlo.after hostOps1 _ (Proc.devRef .tc main_v2) = _
  after_results
  funext i
  obtain ⟨b, k, rfl⟩ : ∃ (b : Fin 16) (k : Fin 32), i = ix2 b k := ⟨i 0, i 1, eq_ix2 i⟩
  show shapeCast S16x32 (Pipeline.withArrays spec0 c (V0 m c) (fun w => (dats m 0 c).arrAt w cfg0.N)
      (Proc.devRef .tc main_v1_2)) shapeCasts_S16x32x1_S16x32 (ix2 b k) = _
  rw [shapeCast_apply _ _ (ix2 b k) (ix3 b k 0) (by
    rw [Shape.rowMajor_val_three, Shape.rowMajor_val_two]
    show ((b : ℕ) * 32 + (k : ℕ)) * 1 + 0 = (b : ℕ) * 32 + (k : ℕ)
    omega)]
  have e := Pipeline.withArrays_arr spec0 launch0.win.arr_inj c (V0 m c) (fun w => (dats m 0 c).arrAt w cfg0.N) 7
  rw [show Pipeline.withArrays spec0 c (V0 m c) (fun w => (dats m 0 c).arrAt w cfg0.N) (Proc.devRef .tc main_v1_2)
      = (dats m 0 c).arrAt 7 cfg0.N from e, final7]

theorem run : θ_run (defs (F := Ideal)) (onTc (τ := τ) (main (F := Ideal))) ⟨m, fun _ => 0, ρ⟩ (fun r => ∀ c : Dev nD,
      r.2.mem ((c.tc : Thread nD τ).loc main_v1_0) = Cert.Spec.out0 (aSm m c) (aSp m c) (aTg m c)
      ∧ r.2.mem ((c.tc : Thread nD τ).loc main_v1_1) = Cert.Spec.out1 (aSp m c) (aTg m c)
      ∧ r.2.mem ((c.tc : Thread nD τ).loc main_v2) = Cert.Spec.out2 (aSm m c) (aSp m c) (aTg m c)
      ∧ r.2.mem ((c.tc : Thread nD τ).loc main_v1_3) = Cert.Spec.out3 (aSm m c) (aSp m c) (aQm m c) (aQp m c) (aTg m c)
      ∧ r.2.mem ((c.tc : Thread nD τ).loc main_v1_4) = Cert.Spec.out4 (aSp m c) (aQp m c) (aTg m c)
      ∧ r.2.mem ((c.tc : Thread nD τ).loc main_v1_5) = Cert.Spec.out5 (aSm m c) (aSp m c) (aQm m c) (aQp m c) (aTg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 5).trans (final5 m c), ((h c).1 6).trans (final6 m c),
      ((h c).2 main_v2 (Pipeline.mem_restRefs_of main_v2 (by decide) (by decide))).trans (tail2 m c),
      ((h c).1 8).trans (final8 m c), ((h c).1 9).trans (final9 m c), ((h c).1 10).trans (final10 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      ((h c).2 main_arg4 (Pipeline.mem_restRefs_of main_arg4 (by decide) (by decide))).trans (W_main_arg4 m (dats m) c)⟩)
    (run_main m ρ)

end Cert.KernelIdeal.KValue

end
-- ==== Proof.PreFacts.lean ====
/-
  What the printed precondition says of the argument arrays: the labels are class numbers, the precisions are
  positive, and in every batch every class has a sample.
-/
import proofs.«409652_j37331855737078_2_alg».proof.Pre_finite_inputs
import proofs.«409652_j37331855737078_2_alg».proof.Proof.Gen.Pre_finite_inputs
import proofs.«409652_j37331855737078_2_alg».proof.Proof.Spec
import Idealize.ShloMosaic.Lib.StableHlo.Predicate
import Idealize.ShloMosaic.Lib.ReduceAll
import Idealize.ShloMosaic.Lib.ValueIdx
import Idealize.ShloMosaic.PureOps.Ideal.Laws

noncomputable section

namespace Cert.PreDecode

open Idealize.ShloMosaic Idealize.ShloMosaic.ValueIdx Cert.Pre_finite_inputs

/-- The scalar shape has one index. -/
instance : Subsingleton S_.Idx := ⟨fun a b => funext fun d => d.elim0⟩

/-- A word that is at least 0 and below 32 as a signed number has a value below 32. -/
theorem toNat_lt_of_signed (t : BitVec 32) (h0 : IntOp.cmpi .sge t 0#32 = 1#1) (h1 : IntOp.cmpi .slt t 32#32 = 1#1) :
    t.toNat < 32 := by
  rw [IntOp.cmpi_sge] at h0
  rw [IntOp.cmpi_slt] at h1
  have e0 : (0#32 : BitVec 32).toInt = 0 := by decide
  have e32 : (32#32 : BitVec 32).toInt = 32 := by decide
  rw [e0] at h0
  rw [e32] at h1
  rw [BitVec.toInt_eq_toNat_cond] at h0 h1
  split at h0 <;> omega

/-- On the extended reals "greater than the zero word" is positivity. -/
theorem pos_of_ogt (x : EReal) (h : FloatOps.cmpf (F := Ideal) (φ := .f32) .ogt x (FloatOps.ofBits .f32 0x00000000#32) = 1#1) : 0 < x := by
  rw [Ideal.cmpf_def] at h
  have hz : (FloatOps.ofBits (F := Ideal) .f32 0x00000000#32 : EReal) = 0 := Ideal.ofBits_zero_f32
  rw [hz] at h
  simp only [Ideal.cmp, StableHlo.Predicate.ofBool_eq_one_iff, decide_eq_true_eq] at h
  exact h

/-- A left fold by `or` over one-bit words that came out 1 started at 1 or met a 1. -/
theorem foldl_ori_eq_one {ι : Type} (f : ι → BitVec 1) :
    ∀ (l : List ι) (init : BitVec 1), l.foldl (fun r n => IntOp.ori r (f n)) init = 1#1 → init = 1#1 ∨ ∃ n ∈ l, f n = 1#1
  | [], init, h => Or.inl h
  | a :: l, init, h => by
    rcases foldl_ori_eq_one f l _ h with h1 | ⟨n, hn, hf⟩
    · rcases IntOp.ori_eq_one.1 h1 with hi | ha
      · exact Or.inl hi
      · exact Or.inr ⟨a, List.mem_cons_self, ha⟩
    · exact Or.inr ⟨n, List.mem_cons_of_mem _ hn, hf⟩

section Reads

variable [Cert.Pre_finite_inputs.Facts]

/-- The labels laid along the class axis: at batch b, class c, sample n they read sample n's label in batch b. -/
theorem tg_bcast_apply (a4 : IVec S16x2048 32) (b : Fin 16) (c : Fin 32) (n : Fin 2048) :
    broadcastInDim S16x32x2048 ![0, 1, 2] Facts.bcast_S16x1x2048_S16x32x2048_0_1_2
      (broadcastInDim S16x1x2048 ![0, 2] Facts.bcast_S16x2048_S16x1x2048_0_2 a4) (ix3 b c n) = a4 (ix2 b n) := by
  simp only [broadcastInDim]
  congr 1
  funext a
  match a with
  | ⟨0, _⟩ => rfl
  | ⟨1, _⟩ => rfl

/-- The class numbers laid along the batch and sample axes: at batch b, class c, sample n they read c. -/
theorem iota_bcast_apply (b : Fin 16) (c : Fin 32) (n : Fin 2048) :
    broadcastInDim S16x32x2048 ![0, 1, 2] Facts.bcast_S1x32x1_S16x32x2048_0_1_2
      (broadcastInDim S1x32x1 ![1] Facts.bcast_S32_S1x32x1_1 (iotaInDim S32 32 0)) (ix3 b c n) = BitVec.ofNat 32 c.val := rfl

end Reads

/-- The printed precondition, all ones, says: every label is a class number, every precision is positive, and every
    class has a sample in every batch. -/
theorem facts [Cert.Pre_finite_inputs.Facts]
    (a0 a1 : FVec Ideal S16x2048x128 .f32) (a2 a3 : FVec Ideal S16x512x128 .f32) (a4 : IVec S16x2048 32)
    (h : Cert.Pre_finite_inputs.fn (F := Ideal) a0 a1 a2 a3 a4 = fun _ => 1#1) :
    Cert.Spec.Facts a1 a3 a4 := by
  have h0 := congrFun h ix0
  dsimp only [fn, fn_part1, fn_part2] at h0
  change IntOp.andi (IntOp.andi (IntOp.andi (IntOp.andi (IntOp.andi _ _) _) _) _) _ = 1#1 at h0
  obtain ⟨h0, h41⟩ := IntOp.andi_eq_one.1 h0
  obtain ⟨h0, h32⟩ := IntOp.andi_eq_one.1 h0
  obtain ⟨h0, h28⟩ := IntOp.andi_eq_one.1 h0
  obtain ⟨h0, h24⟩ := IntOp.andi_eq_one.1 h0
  clear h0
  refine ⟨?_, ?_, ?_, ?_⟩
  · intro b n
    have e := Host.reduce_andi_all _ _ _ _ ix0 h24 (ix2 b n)
    obtain ⟨e0, e1⟩ := IntOp.andi_eq_one.1 e
    exact toNat_lt_of_signed _ e0 e1
  · intro i
    exact pos_of_ogt _ (Host.reduce_andi_all _ _ _ _ ix0 h28 i)
  · intro i
    exact pos_of_ogt _ (Host.reduce_andi_all _ _ _ _ ix0 h32 i)
  · intro b c
    have e := Host.reduce_andi_all _ _ _ _ ix0 h41 (ix2 b c)
    rw [Host.reduce_eq_foldl] at e
    rcases foldl_ori_eq_one _ _ _ e with hi | ⟨n, hn, hf⟩
    · exact absurd (show (0#1 : BitVec 1) = 1#1 from hi) (by decide)
    · have hd := of_decide_eq_true (List.mem_filter.1 hn).2
      obtain ⟨p, q, r, rfl⟩ : ∃ (p : Fin 16) (q : Fin 32) (r : Fin 2048), n = ix3 p q r := ⟨n 0, n 1, n 2, eq_ix3 n⟩
      have hp : p = b := Fin.ext (congrArg (fun j : S16x32.Idx => (j ⟨0, by decide⟩ : Nat)) hd)
      have hq : q = c := Fin.ext (congrArg (fun j : S16x32.Idx => (j ⟨1, by decide⟩ : Nat)) hd)
      subst hp hq
      exact ⟨r, (tg_bcast_apply a4 p q r).symm.trans ((IntOp.cmpi_eq.1 hf).trans (iota_bcast_apply p q r))⟩

end Cert.PreDecode

end
-- ==== Proof.RefScatter.lean ====
/-
  The reference's scatter-add of per-sample rows into per-class rows, read at an index on the extended reals.
  Sample n of batch b is sent to row (b, t n) where t n is its label (a label below zero would be raised by 32
  first; none is). An update lands on an element exactly when its batch, its label and its feature are the
  element's, so the element ends at its start value, zero, plus the sum of its class's samples: the weighted sum
  over all samples with the 0/1 class weight.
-/
import proofs.«409652_j37331855737078_2_alg».proof.Proof.Gen.ReferenceIdeal.Run
import proofs.«409652_j37331855737078_2_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

noncomputable section

namespace Cert.ReferenceIdeal.RefValue

open Cert.ReferenceIdeal Cert.ReferenceIdeal.Gen Cert.ReferenceIdeal.Value Idealize.ShloMosaic Idealize.ShloMosaic.TcCoe Idealize.ShloMosaic.StableHlo Idealize.ShloMosaic.ValueIdx

variable (V0 : Valuation τ sig (Elt Ideal))

/-- The (batch, label) pair of every sample, as the reference builds it. -/
def scIdx : IVec S16x2048x2 32 :=
  (concatenate S16x2048x2 2 [⟨S16x2048x1, (broadcastInDim S16x2048x1 ![0, 1] bcast_S16x2048_S16x2048x1_0_1 (broadcastInDim S16x2048 ![0, 1] bcast_S16x1_S16x2048_0_1 (select (cmpi .slt (res_main_v1 V0) (broadcastInDim S16x1 ![] bcast_S_S16x1 (constantI S_ 32 0#32))) (addi (res_main_v1 V0) (broadcastInDim S16x1 ![] bcast_S_S16x1 (constantI S_ 32 16#32))) (res_main_v1 V0))))⟩, ⟨S16x2048x1, (broadcastInDim S16x2048x1 ![0, 1] bcast_S16x2048_S16x2048x1_0_1 (select (cmpi .slt (V0 (Proc.devRef .tc main_arg4)) (broadcastInDim S16x2048 ![] bcast_S_S16x2048 (constantI S_ 32 0#32))) (addi (V0 (Proc.devRef .tc main_arg4)) (broadcastInDim S16x2048 ![] bcast_S_S16x2048 (constantI S_ 32 32#32))) (V0 (Proc.devRef .tc main_arg4))))⟩] concatenates_S16x2048x1_S16x2048x1_S16x2048x2_d2)

/-- The labels. -/
abbrev tgOf : Cert.Spec.T2.Idx → BitVec 32 := V0 (Proc.devRef .tc main_arg4)

/-- The two scatters' dimension numbers, named. -/
abbrev d3 := scatter_S16x32x128_S16x2048x2_S16x2048x128_2_01_01_2
abbrev d2 := scatter_S16x32_S16x2048x2_S16x2048_n_01_01_2

/-! ## Where an update reads its start index, and the window coordinates -/

theorem siIdx3_0 (b' : Fin 16) (n : Fin 2048) (e' : Fin 128) :
    d3.siIdx (ix3 b' n e') ⟨0, by decide⟩ = ix3 b' n 0 := by
  funext a; match a with | ⟨0, _⟩ => rfl | ⟨1, _⟩ => rfl | ⟨2, _⟩ => rfl

theorem siIdx3_1 (b' : Fin 16) (n : Fin 2048) (e' : Fin 128) :
    d3.siIdx (ix3 b' n e') ⟨1, by decide⟩ = ix3 b' n 1 := by
  funext a; match a with | ⟨0, _⟩ => rfl | ⟨1, _⟩ => rfl | ⟨2, _⟩ => rfl

theorem start3_0 (idx : IVec S16x2048x2 32) (b' : Fin 16) (n : Fin 2048) (e' : Fin 128) :
    d3.start (ix3 b' n e') idx 0 = (idx (ix3 b' n 0)).toInt := by
  change (idx (d3.siIdx (ix3 b' n e') ⟨0, _⟩)).toInt = _
  rw [siIdx3_0]

theorem start3_1 (idx : IVec S16x2048x2 32) (b' : Fin 16) (n : Fin 2048) (e' : Fin 128) :
    d3.start (ix3 b' n e') idx 1 = (idx (ix3 b' n 1)).toInt := by
  change (idx (d3.siIdx (ix3 b' n e') ⟨1, _⟩)).toInt = _
  rw [siIdx3_1]

theorem start3_2 (idx : IVec S16x2048x2 32) (b' : Fin 16) (n : Fin 2048) (e' : Fin 128) :
    d3.start (ix3 b' n e') idx 2 = 0 := rfl

theorem window3_0 (b' : Fin 16) (n : Fin 2048) (e' : Fin 128) : d3.window (ix3 b' n e') 0 = 0 := rfl
theorem window3_1 (b' : Fin 16) (n : Fin 2048) (e' : Fin 128) : d3.window (ix3 b' n e') 1 = 0 := rfl
theorem window3_2 (b' : Fin 16) (n : Fin 2048) (e' : Fin 128) : d3.window (ix3 b' n e') 2 = e'.val := rfl

theorem siIdx2_0 (b' : Fin 16) (n : Fin 2048) :
    d2.siIdx (ix2 b' n) ⟨0, by decide⟩ = ix3 b' n 0 := by
  funext a; match a with | ⟨0, _⟩ => rfl | ⟨1, _⟩ => rfl | ⟨2, _⟩ => rfl

theorem siIdx2_1 (b' : Fin 16) (n : Fin 2048) :
    d2.siIdx (ix2 b' n) ⟨1, by decide⟩ = ix3 b' n 1 := by
  funext a; match a with | ⟨0, _⟩ => rfl | ⟨1, _⟩ => rfl | ⟨2, _⟩ => rfl

theorem start2_0 (idx : IVec S16x2048x2 32) (b' : Fin 16) (n : Fin 2048) :
    d2.start (ix2 b' n) idx 0 = (idx (ix3 b' n 0)).toInt := by
  change (idx (d2.siIdx (ix2 b' n) ⟨0, _⟩)).toInt = _
  rw [siIdx2_0]

theorem start2_1 (idx : IVec S16x2048x2 32) (b' : Fin 16) (n : Fin 2048) :
    d2.start (ix2 b' n) idx 1 = (idx (ix3 b' n 1)).toInt := by
  change (idx (d2.siIdx (ix2 b' n) ⟨1, _⟩)).toInt = _
  rw [siIdx2_1]

theorem window2_0 (b' : Fin 16) (n : Fin 2048) : d2.window (ix2 b' n) 0 = 0 := rfl
theorem window2_1 (b' : Fin 16) (n : Fin 2048) : d2.window (ix2 b' n) 1 = 0 := rfl

/-! ## Small integers as 32-bit words -/

theorem ofNat_slt_zero (b : Fin 16) : (BitVec.ofNat 32 b.val).slt 0#32 = false := by
  revert b; decide

theorem toInt_ofNat16 (b : Fin 16) : (BitVec.ofNat 32 b.val).toInt = (b.val : Int) := by
  revert b; decide

theorem toInt_small (t : BitVec 32) (h : t.toNat < 32) : t.toInt = (t.toNat : Int) := by
  rw [BitVec.toInt_eq_toNat_cond]; rw [if_pos (by omega)]

theorem slt_small (t : BitVec 32) (h : t.toNat < 32) : t.slt 0#32 = false := by
  rw [BitVec.slt, toInt_small t h]; simp

/-! ## The index tensor at its two components: the batch number and the label -/

theorem res1_apply (b : Fin 16) : res_main_v1 V0 (ix2 b 0) = BitVec.ofNat 32 b.val := by
  unfold res_main_v1
  rw [broadcastInDim_apply _ _ _ (ix2 b 0) (ix1 b) (by intro a; match a with | ⟨0, _⟩ => rfl)]
  rfl

theorem scIdx_0 (b : Fin 16) (n : Fin 2048) : scIdx V0 (ix3 b n 0) = BitVec.ofNat 32 b.val := by
  unfold scIdx
  refine (concatenate_pair_apply_left (t := S16x2048x2) (s₁ := S16x2048x1) (s₂ := S16x2048x1) 2 _ _ _
    (ix3 b n 0) rfl (ix3 b n 0)
    (by intro a; match a with | ⟨0, _⟩ => rfl | ⟨1, _⟩ => rfl | ⟨2, _⟩ => rfl)).trans ?_
  refine (broadcastInDim_apply (s := S16x2048) (t := S16x2048x1) _ _ _ (ix3 b n 0) (ix2 b n)
    (by intro a; match a with | ⟨0, _⟩ => rfl | ⟨1, _⟩ => rfl)).trans ?_
  refine (broadcastInDim_apply (s := S16x1) (t := S16x2048) _ _ _ (ix2 b n) (ix2 b 0)
    (by intro a; match a with | ⟨0, _⟩ => rfl | ⟨1, _⟩ => rfl)).trans ?_
  rw [select_apply]
  have hc : cmpi .slt (res_main_v1 V0) (broadcastInDim S16x1 ![] bcast_S_S16x1 (constantI S_ 32 0#32)) (ix2 b 0) = 0#1 := by
    show BitVec.ofBool ((res_main_v1 V0 (ix2 b 0)).slt 0#32) = 0#1
    rw [res1_apply, ofNat_slt_zero]; rfl
  rw [hc, select_zero, res1_apply]

theorem scIdx_1 (hlt : ∀ (b : Fin 16) (n : Fin 2048), (tgOf V0 (ix2 b n)).toNat < 32) (b : Fin 16) (n : Fin 2048) :
    scIdx V0 (ix3 b n 1) = tgOf V0 (ix2 b n) := by
  unfold scIdx
  refine (concatenate_pair_apply_right (t := S16x2048x2) (s₁ := S16x2048x1) (s₂ := S16x2048x1) 2 _ _ _
    (ix3 b n 1) rfl rfl (ix3 b n 0)
    (by intro a; match a with | ⟨0, _⟩ => (intro _; rfl) | ⟨1, _⟩ => (intro _; rfl) | ⟨2, _⟩ => (intro h; exact absurd rfl h))
    rfl).trans ?_
  refine (broadcastInDim_apply (s := S16x2048) (t := S16x2048x1) _ _ _ (ix3 b n 0) (ix2 b n)
    (by intro a; match a with | ⟨0, _⟩ => rfl | ⟨1, _⟩ => rfl)).trans ?_
  rw [select_apply]
  have hc : cmpi .slt (V0 (Proc.devRef .tc main_arg4)) (broadcastInDim S16x2048 ![] bcast_S_S16x2048 (constantI S_ 32 0#32)) (ix2 b n) = 0#1 := by
    show BitVec.ofBool ((tgOf V0 (ix2 b n)).slt 0#32) = 0#1
    rw [slt_small _ (hlt b n)]; rfl
  rw [hc, select_zero]

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Only the terms of one first and one last coordinate survive. -/
theorem sum_pick3 {n0 n1 n2 : Nat} (b : Fin n0) (e : Fin n2) (F : Fin n1 → EReal) :
    ∑ b' : Fin n0, ∑ n : Fin n1, ∑ e' : Fin n2, (if b' = b then (if e' = e then F n else 0) else 0) = ∑ n, F n := by
  rw [Finset.sum_eq_single b]
  · refine Finset.sum_congr rfl fun n _ => ?_
    rw [Finset.sum_eq_single e]
    · rw [if_pos rfl, if_pos rfl]
    · intro e' _ he; rw [if_pos rfl, if_neg he]
    · intro h; exact absurd (Finset.mem_univ _) h
  · intro b' _ hb
    refine Finset.sum_eq_zero fun n _ => Finset.sum_eq_zero fun e' _ => ?_
    rw [if_neg hb]
  · intro h; exact absurd (Finset.mem_univ _) h

/-- Only the terms of one first coordinate survive. -/
theorem sum_pick2 {n0 n1 : Nat} (b : Fin n0) (F : Fin n1 → EReal) :
    ∑ b' : Fin n0, ∑ n : Fin n1, (if b' = b then F n else 0) = ∑ n, F n := by
  rw [Finset.sum_eq_single b]
  · refine Finset.sum_congr rfl fun n _ => ?_
    rw [if_pos rfl]
  · intro b' _ hb
    refine Finset.sum_eq_zero fun n _ => ?_
    rw [if_neg hb]
  · intro h; exact absurd (Finset.mem_univ _) h

/-- A label below 32 is class c exactly when its number is c. -/
theorem label_eq_iff (t : BitVec 32) (c : Fin 32) : t = BitVec.ofNat 32 c.val ↔ t.toNat = c.val := by
  constructor
  · intro h; rw [h, BitVec.toNat_ofNat]; have := c.isLt; omega
  · intro h; apply BitVec.eq_of_toNat_eq; rw [h, BitVec.toNat_ofNat]; have := c.isLt; omega

section
variable (hlt : ∀ (b : Fin 16) (n : Fin 2048), (tgOf V0 (ix2 b n)).toNat < 32)
include hlt

/-- Where a row of 128 features lands: row (batch, label), same feature. -/
theorem res3 (b' : Fin 16) (n : Fin 2048) (e' : Fin 128) :
    d3.resultIdx? (ix3 b' n e') (scIdx V0) = some (ix3 b' ⟨(tgOf V0 (ix2 b' n)).toNat, hlt b' n⟩ e') := by
  have s0 : d3.start (ix3 b' n e') (scIdx V0) 0 = (b'.val : Int) := by rw [start3_0, scIdx_0, toInt_ofNat16]
  have s1 : d3.start (ix3 b' n e') (scIdx V0) 1 = ((tgOf V0 (ix2 b' n)).toNat : Int) := by
    rw [start3_1, scIdx_1 V0 hlt, toInt_small _ (hlt b' n)]
  have s2 : d3.start (ix3 b' n e') (scIdx V0) 2 = 0 := rfl
  have z0 : S16x32x128.size 0 = 16 := rfl
  have z1 : S16x32x128.size 1 = 32 := rfl
  have z2 : S16x32x128.size 2 = 128 := rfl
  have hb := b'.isLt
  have he := e'.isLt
  have ht := hlt b' n
  have H : ∀ a, 0 ≤ d3.start (ix3 b' n e') (scIdx V0) a + d3.window (ix3 b' n e') a ∧
      d3.start (ix3 b' n e') (scIdx V0) a + d3.window (ix3 b' n e') a < S16x32x128.size a := by
    intro a
    match a with
    | ⟨0, _⟩ => show 0 ≤ d3.start (ix3 b' n e') (scIdx V0) 0 + (d3.window (ix3 b' n e') 0 : Nat) ∧ d3.start (ix3 b' n e') (scIdx V0) 0 + (d3.window (ix3 b' n e') 0 : Nat) < (S16x32x128.size 0 : Nat)
                rw [s0, window3_0, z0]; omega
    | ⟨1, _⟩ => show 0 ≤ d3.start (ix3 b' n e') (scIdx V0) 1 + (d3.window (ix3 b' n e') 1 : Nat) ∧ d3.start (ix3 b' n e') (scIdx V0) 1 + (d3.window (ix3 b' n e') 1 : Nat) < (S16x32x128.size 1 : Nat)
                rw [s1, window3_1, z1]; omega
    | ⟨2, _⟩ => show 0 ≤ d3.start (ix3 b' n e') (scIdx V0) 2 + (d3.window (ix3 b' n e') 2 : Nat) ∧ d3.start (ix3 b' n e') (scIdx V0) 2 + (d3.window (ix3 b' n e') 2 : Nat) < (S16x32x128.size 2 : Nat)
                rw [s2, window3_2, z2]; omega
  unfold ScatterDims.resultIdx?
  rw [dif_pos H]
  congr 1
  funext a
  match a with
  | ⟨0, _⟩ => apply Fin.ext
              show (d3.start (ix3 b' n e') (scIdx V0) 0 + (d3.window (ix3 b' n e') 0 : Nat)).toNat = b'.val
              rw [s0, window3_0]; omega
  | ⟨1, _⟩ => apply Fin.ext
              show (d3.start (ix3 b' n e') (scIdx V0) 1 + (d3.window (ix3 b' n e') 1 : Nat)).toNat = (tgOf V0 (ix2 b' n)).toNat
              rw [s1, window3_1]; omega
  | ⟨2, _⟩ => apply Fin.ext
              show (d3.start (ix3 b' n e') (scIdx V0) 2 + (d3.window (ix3 b' n e') 2 : Nat)).toNat = e'.val
              rw [s2, window3_2]; omega

/-- Where one number per sample lands: element (batch, label). -/
theorem res2 (b' : Fin 16) (n : Fin 2048) :
    d2.resultIdx? (ix2 b' n) (scIdx V0) = some (ix2 b' ⟨(tgOf V0 (ix2 b' n)).toNat, hlt b' n⟩) := by
  have s0 : d2.start (ix2 b' n) (scIdx V0) 0 = (b'.val : Int) := by rw [start2_0, scIdx_0, toInt_ofNat16]
  have s1 : d2.start (ix2 b' n) (scIdx V0) 1 = ((tgOf V0 (ix2 b' n)).toNat : Int) := by
    rw [start2_1, scIdx_1 V0 hlt, toInt_small _ (hlt b' n)]
  have z0 : S16x32.size 0 = 16 := rfl
  have z1 : S16x32.size 1 = 32 := rfl
  have hb := b'.isLt
  have ht := hlt b' n
  have H : ∀ a, 0 ≤ d2.start (ix2 b' n) (scIdx V0) a + d2.window (ix2 b' n) a ∧
      d2.start (ix2 b' n) (scIdx V0) a + d2.window (ix2 b' n) a < S16x32.size a := by
    intro a
    match a with
    | ⟨0, _⟩ => show 0 ≤ d2.start (ix2 b' n) (scIdx V0) 0 + (d2.window (ix2 b' n) 0 : Nat) ∧ d2.start (ix2 b' n) (scIdx V0) 0 + (d2.window (ix2 b' n) 0 : Nat) < (S16x32.size 0 : Nat)
                rw [s0, window2_0, z0]; omega
    | ⟨1, _⟩ => show 0 ≤ d2.start (ix2 b' n) (scIdx V0) 1 + (d2.window (ix2 b' n) 1 : Nat) ∧ d2.start (ix2 b' n) (scIdx V0) 1 + (d2.window (ix2 b' n) 1 : Nat) < (S16x32.size 1 : Nat)
                rw [s1, window2_1, z1]; omega
  unfold ScatterDims.resultIdx?
  rw [dif_pos H]
  congr 1
  funext a
  match a with
  | ⟨0, _⟩ => apply Fin.ext
              show (d2.start (ix2 b' n) (scIdx V0) 0 + (d2.window (ix2 b' n) 0 : Nat)).toNat = b'.val
              rw [s0, window2_0]; omega
  | ⟨1, _⟩ => apply Fin.ext
              show (d2.start (ix2 b' n) (scIdx V0) 1 + (d2.window (ix2 b' n) 1 : Nat)).toNat = (tgOf V0 (ix2 b' n)).toNat
              rw [s1, window2_1]; omega

end

/-- A scatter-add of rows of 128 features into the zero array: the class sums. -/
theorem segsum3 (hlt : ∀ (b : Fin 16) (n : Fin 2048), (tgOf V0 (ix2 b n)).toNat < 32)
    (upd : FVec Ideal S16x2048x128 .f32) (b : Fin 16) (c : Fin 32) (e : Fin 128) :
    Host.scatterAdd (F := Ideal) scatter_S16x32x128_S16x2048x2_S16x2048x128_2_01_01_2 (res_main_v22 V0) (scIdx V0) upd (ix3 b c e)
      = ∑ n : Fin 2048, Cert.Spec.hot (Cert.Spec.tgAt (tgOf V0) b) c n * upd (ix3 b n e) := by
  have hz : (res_main_v22 V0 : FVec Ideal S16x32x128 .f32) (ix3 b c e) = (0 : EReal) := by
    unfold res_main_v22; exact Ideal.ofBits_zero_f32
  have key : ∀ (b' : Fin 16) (n : Fin 2048) (e' : Fin 128),
      (if d3.resultIdx? (ix3 b' n e') (scIdx V0) = some (ix3 b c e) then upd (ix3 b' n e') else 0)
        = if b' = b then (if e' = e then Cert.Spec.hot (Cert.Spec.tgAt (tgOf V0) b) c n * upd (ix3 b n e) else 0) else 0 := by
    intro b' n e'
    rw [res3 V0 hlt]
    by_cases hb : b' = b
    · by_cases he : e' = e
      · rw [if_pos hb, if_pos he, hb, he]
        unfold Cert.Spec.hot Cert.Spec.tgAt
        by_cases ht : tgOf V0 (ix2 b n) = BitVec.ofNat 32 c.val
        · have hc : (⟨(tgOf V0 (ix2 b n)).toNat, hlt b n⟩ : Fin 32) = c := Fin.ext ((label_eq_iff _ c).1 ht)
          rw [if_pos ht, one_mul, hc, if_pos rfl]
        · rw [if_neg ht, zero_mul, if_neg]
          intro h
          have h1 := congrFun (Option.some.inj h) 1
          exact ht ((label_eq_iff _ c).2 (congrArg Fin.val h1))
      · rw [if_pos hb, if_neg he, if_neg]
        intro h
        exact he (congrFun (Option.some.inj h) 2)
    · rw [if_neg hb, if_neg]
      intro h
      exact hb (congrFun (Option.some.inj h) 0)
  change Ideal.hostScatterAdd d3 (res_main_v22 V0) (scIdx V0) upd (ix3 b c e) = _
  simp only [Ideal.hostScatterAdd]
  rw [hz, zero_add, Finset.sum_filter, sum_idx3]
  simp only [key]
  exact sum_pick3 b e _

/-- A scatter-add of one number per sample into the zero array: the class sums. -/
theorem segsum2 (hlt : ∀ (b : Fin 16) (n : Fin 2048), (tgOf V0 (ix2 b n)).toNat < 32)
    (upd : FVec Ideal S16x2048 .f32) (b : Fin 16) (c : Fin 32) :
    Host.scatterAdd (F := Ideal) scatter_S16x32_S16x2048x2_S16x2048_n_01_01_2
        (broadcastInDim S16x32 ![] bcast_S_S16x32 (constant S_ .f32 0x00000000#32)) (scIdx V0) upd (ix2 b c)
      = ∑ n : Fin 2048, Cert.Spec.hot (Cert.Spec.tgAt (tgOf V0) b) c n * upd (ix2 b n) := by
  have hz : (broadcastInDim S16x32 ![] bcast_S_S16x32 (constant (F := Ideal) S_ .f32 0x00000000#32)) (ix2 b c) = (0 : EReal) :=
    Ideal.ofBits_zero_f32
  have key : ∀ (b' : Fin 16) (n : Fin 2048),
      (if d2.resultIdx? (ix2 b' n) (scIdx V0) = some (ix2 b c) then upd (ix2 b' n) else 0)
        = if b' = b then Cert.Spec.hot (Cert.Spec.tgAt (tgOf V0) b) c n * upd (ix2 b n) else 0 := by
    intro b' n
    rw [res2 V0 hlt]
    by_cases hb : b' = b
    · rw [if_pos hb, hb]
      unfold Cert.Spec.hot Cert.Spec.tgAt
      by_cases ht : tgOf V0 (ix2 b n) = BitVec.ofNat 32 c.val
      · have hc : (⟨(tgOf V0 (ix2 b n)).toNat, hlt b n⟩ : Fin 32) = c := Fin.ext ((label_eq_iff _ c).1 ht)
        rw [if_pos ht, one_mul, hc, if_pos rfl]
      · rw [if_neg ht, zero_mul, if_neg]
        intro h
        have h1 := congrFun (Option.some.inj h) 1
        exact ht ((label_eq_iff _ c).2 (congrArg Fin.val h1))
    · rw [if_neg hb, if_neg]
      intro h
      exact hb (congrFun (Option.some.inj h) 0)
  change Ideal.hostScatterAdd d2 (broadcastInDim S16x32 ![] bcast_S_S16x32 (constant (F := Ideal) S_ .f32 0x00000000#32)) (scIdx V0) upd (ix2 b c) = _
  simp only [Ideal.hostScatterAdd]
  rw [hz, zero_add, Finset.sum_filter, sum_idx2]
  simp only [key]
  exact sum_pick2 b _

end Cert.ReferenceIdeal.RefValue

end
-- ==== Proof.RefInner.lean ====
/-
  The reference's class precisions, class means and class log-normalisers are the specification's.
  The one step that is not a reading: the reference multiplies the reciprocal of the class precision into the
  weighted sum where the specification divides; the two agree because the precision, a sum of positive numbers
  over a class that has a sample, is not zero.
-/
import proofs.«409652_j37331855737078_2_alg».proof.Proof.RefScatter
import proofs.«409652_j37331855737078_2_alg».proof.Proof.Spec
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import Idealize.ShloMosaic.Lib.StableHlo.Predicate

noncomputable section

namespace Cert.ReferenceIdeal.RefValue

open Cert.ReferenceIdeal Cert.ReferenceIdeal.Gen Cert.ReferenceIdeal.Value Idealize.ShloMosaic Idealize.ShloMosaic.TcCoe Idealize.ShloMosaic.StableHlo Idealize.ShloMosaic.ValueIdx

variable (V0 : Valuation τ sig (Elt Ideal))

/-- A scalar literal broadcast to any shape reads the literal's value everywhere. -/
private theorem bc0 {T : Shape} (h : S_.BroadcastsInDim T ![]) (w : BitVec 32) (j : T.Idx) :
    broadcastInDim T ![] h (constant (F := Ideal) S_ .f32 w) j = Ideal.ofBits .f32 w := by
  rw [broadcastInDim_scalar_apply]; rfl

/-- The class precisions at an index. -/
theorem v37_at (hf : Cert.Spec.Facts (V0 (Proc.devRef .tc main_arg1)) (V0 (Proc.devRef .tc main_arg3)) (V0 (Proc.devRef .tc main_arg4)))
    (b : Fin 16) (c : Fin 32) (e : Fin 128) :
    res_main_v37 (F := Ideal) V0 (ix3 b c e) = Cert.Spec.aPP (V0 (Proc.devRef .tc main_arg1)) (V0 (Proc.devRef .tc main_arg4)) b c e := by
  show Host.scatterAdd (F := Ideal) scatter_S16x32x128_S16x2048x2_S16x2048x128_2_01_01_2 (res_main_v22 V0) (scIdx V0) (V0 (Proc.devRef .tc main_arg1)) (ix3 b c e) = _
  rw [segsum3 V0 hf.tg_lt]
  rfl

theorem out1_eq (hf : Cert.Spec.Facts (V0 (Proc.devRef .tc main_arg1)) (V0 (Proc.devRef .tc main_arg3)) (V0 (Proc.devRef .tc main_arg4))) :
    res_main_v37 (F := Ideal) V0 = Cert.Spec.out1 (V0 (Proc.devRef .tc main_arg1)) (V0 (Proc.devRef .tc main_arg4)) := by
  funext i
  rw [eq_ix3 i]
  exact v37_at V0 hf (i 0) (i 1) (i 2)

/-- A class's precision is positive: every term of the sum is zero or a positive precision, and the class has a sample. -/
theorem bPP_pos (xp : Fin 2048 → Fin 128 → EReal) (t : Fin 2048 → BitVec 32) (c : Fin 32) (e : Fin 128)
    (hp : ∀ n, 0 < xp n e) (hc : ∃ n, t n = BitVec.ofNat 32 c.val) : 0 < Cert.Spec.bPP xp t c e := by
  obtain ⟨n0, hn0⟩ := hc
  unfold Cert.Spec.bPP
  have hnn : ∀ n ∈ (Finset.univ : Finset (Fin 2048)), 0 ≤ Cert.Spec.hot t c n * xp n e := by
    intro n _
    unfold Cert.Spec.hot
    split
    · rw [one_mul]; exact (hp n).le
    · rw [zero_mul]
  have h1 : Cert.Spec.hot t c n0 * xp n0 e ≤ ∑ n, Cert.Spec.hot t c n * xp n e :=
    Finset.single_le_sum hnn (Finset.mem_univ n0)
  have h2 : 0 < Cert.Spec.hot t c n0 * xp n0 e := by
    unfold Cert.Spec.hot; rw [if_pos hn0, one_mul]; exact hp n0
  exact lt_of_lt_of_le h2 h1

theorem aPP_ne (hf : Cert.Spec.Facts (V0 (Proc.devRef .tc main_arg1)) (V0 (Proc.devRef .tc main_arg3)) (V0 (Proc.devRef .tc main_arg4)))
    (b : Fin 16) (c : Fin 32) (e : Fin 128) :
    Cert.Spec.aPP (V0 (Proc.devRef .tc main_arg1)) (V0 (Proc.devRef .tc main_arg4)) b c e ≠ 0 :=
  ne_of_gt (bPP_pos _ _ c e (fun n => hf.sp_pos (ix3 b n e)) (hf.cls b c))

/-- The class means at an index: the reciprocal of the precision times the weighted sum is the quotient. -/
theorem v56_at (hf : Cert.Spec.Facts (V0 (Proc.devRef .tc main_arg1)) (V0 (Proc.devRef .tc main_arg3)) (V0 (Proc.devRef .tc main_arg4)))
    (b : Fin 16) (c : Fin 32) (e : Fin 128) :
    res_main_v56 (F := Ideal) V0 (ix3 b c e)
      = Cert.Spec.aPM (V0 (Proc.devRef .tc main_arg0)) (V0 (Proc.devRef .tc main_arg1)) (V0 (Proc.devRef .tc main_arg4)) b c e := by
  show mulf (Host.divf (broadcastInDim S16x32x128 ![] bcast_S_S16x32x128 (constant S_ .f32 0x3F800000#32)) (res_main_v37 V0))
      (Host.scatterAdd (F := Ideal) scatter_S16x32x128_S16x2048x2_S16x2048x128_2_01_01_2 (res_main_v22 V0) (scIdx V0)
        (mulf (V0 (Proc.devRef .tc main_arg1)) (V0 (Proc.devRef .tc main_arg0)))) (ix3 b c e) = _
  rw [mulf_apply, hostDivf_apply, bc0, Ideal.ofBits_one_f32, v37_at V0 hf, segsum3 V0 hf.tg_lt, mul_comm,
    Ideal.mul_one_div (aPP_ne V0 hf b c e)]
  rfl

theorem out0_eq (hf : Cert.Spec.Facts (V0 (Proc.devRef .tc main_arg1)) (V0 (Proc.devRef .tc main_arg3)) (V0 (Proc.devRef .tc main_arg4))) :
    res_main_v56 (F := Ideal) V0 = Cert.Spec.out0 (V0 (Proc.devRef .tc main_arg0)) (V0 (Proc.devRef .tc main_arg1)) (V0 (Proc.devRef .tc main_arg4)) := by
  funext i
  rw [eq_ix3 i]
  exact v56_at V0 hf (i 0) (i 1) (i 2)

/-- The host's logarithm at an index. -/
private theorem hlog_apply {s : Shape} (x : FVec Ideal s .f32) (i : s.Idx) : Host.log x i = Ideal.log (x i) := rfl

/-- One number per class, copied along the features. -/
private theorem bc_e (y : FVec Ideal S16x32x1 .f32) (b : Fin 16) (c : Fin 32) (e : Fin 128) :
    broadcastInDim S16x32x128 ![0, 1, 2] bcast_S16x32x1_S16x32x128_0_1_2 y (ix3 b c e) = y (ix3 b c (0 : Fin 1)) :=
  broadcastInDim_apply _ _ _ _ _ (fun a => match a with | ⟨0, _⟩ => rfl | ⟨1, _⟩ => rfl | ⟨2, _⟩ => rfl)

/-- A trailing unit axis added. -/
private theorem bc_1 (y : FVec Ideal S16x32 .f32) (b : Fin 16) (c : Fin 32) :
    broadcastInDim S16x32x1 ![0, 1] bcast_S16x32_S16x32x1_0_1 y (ix3 b c (0 : Fin 1)) = y (ix2 b c) :=
  broadcastInDim_apply _ _ _ _ _ (fun a => match a with | ⟨0, _⟩ => rfl | ⟨1, _⟩ => rfl)

/-- The sum over the features, from zero. -/
private theorem reduce_at (x : FVec Ideal S16x32x128 .f32) (b : Fin 16) (c : Fin 32) :
    Host.reduceAdd x (constant S_ .f32 0x00000000#32) reducesTo_S16x32x128_S16x32_d2 h_S_ (ix2 b c)
      = ∑ e : Fin 128, x (ix3 b c e) := by
  rw [hostReduceAdd_apply, Ideal.hostReduceAdd_single _ (by decide : Shape.Reduces S16x32x128 [2] S16x32)]
  rw [constant_apply, Ideal.ofBits_zero_f32, zero_add]
  refine Finset.sum_congr rfl fun e _ => congrArg x ?_
  funext a
  match a with
  | ⟨0, _⟩ => rfl
  | ⟨1, _⟩ => rfl
  | ⟨2, _⟩ => rfl

/-- The class counts: the class sums of the all-ones array. -/
private theorem cnt_at (hf : Cert.Spec.Facts (V0 (Proc.devRef .tc main_arg1)) (V0 (Proc.devRef .tc main_arg3)) (V0 (Proc.devRef .tc main_arg4)))
    (b : Fin 16) (c : Fin 32) :
    Host.scatterAdd (F := Ideal) scatter_S16x32_S16x2048x2_S16x2048_n_01_01_2
        (broadcastInDim S16x32 ![] bcast_S_S16x32 (constant S_ .f32 0x00000000#32)) (scIdx V0)
        (broadcastInDim S16x2048 ![] bcast_S_S16x2048 (constant S_ .f32 0x3F800000#32)) (ix2 b c)
      = Cert.Spec.cnt (Cert.Spec.tgAt (V0 (Proc.devRef .tc main_arg4)) b) c := by
  rw [segsum2 V0 hf.tg_lt]
  unfold Cert.Spec.cnt
  refine Finset.sum_congr rfl fun n _ => ?_
  rw [bc0, Ideal.ofBits_one_f32, mul_one]

/-- The class log-normalisers at an index. -/
theorem v108_at (hf : Cert.Spec.Facts (V0 (Proc.devRef .tc main_arg1)) (V0 (Proc.devRef .tc main_arg3)) (V0 (Proc.devRef .tc main_arg4)))
    (b : Fin 16) (c : Fin 32) :
    val4 (F := Ideal) V0 (Proc.devRef .tc main_v108) (ix2 b c)
      = Cert.Spec.bLN (Cert.Spec.smAt (V0 (Proc.devRef .tc main_arg0)) b) (Cert.Spec.spAt (V0 (Proc.devRef .tc main_arg1)) b)
          (Cert.Spec.tgAt (V0 (Proc.devRef .tc main_arg4)) b) c := by
  have h3 := fun upd e => segsum3 V0 hf.tg_lt upd b c e
  have h2 := cnt_at V0 hf b c
  unfold scIdx at h3 h2
  rw [val4_main_v108, reduce_at]
  unfold Cert.Spec.bLN
  show (_ : EReal) = _
  refine Finset.sum_congr rfl fun e _ => ?_
  simp only [addf_apply, mulf_apply, subf_apply, hlog_apply, h3, v37_at V0 hf, v56_at V0 hf]
  rw [bc_e]
  simp only [mulf_apply, subf_apply]
  rw [bc_1, maximumf_apply, h2, bc0, bc0, bc0, bc0, bc0]
  rfl

theorem out2_eq (hf : Cert.Spec.Facts (V0 (Proc.devRef .tc main_arg1)) (V0 (Proc.devRef .tc main_arg3)) (V0 (Proc.devRef .tc main_arg4))) :
    val4 (F := Ideal) V0 (Proc.devRef .tc main_v108) = Cert.Spec.out2 (V0 (Proc.devRef .tc main_arg0)) (V0 (Proc.devRef .tc main_arg1)) (V0 (Proc.devRef .tc main_arg4)) := by
  funext i
  rw [eq_ix2 i]
  exact v108_at V0 hf (i 0) (i 1)

end Cert.ReferenceIdeal.RefValue

end
-- ==== Proof.RefOuter.lean ====
/-
  The reference's products of every class with every query are the specification's: the sum of the two
  precisions in the other order, and the reciprocal of that sum multiplied in where the specification divides;
  the sum of two positive precisions is not zero.
-/
import proofs.«409652_j37331855737078_2_alg».proof.Proof.RefInner
import proofs.«409652_j37331855737078_2_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate
import Idealize.ShloMosaic.Lib.IdealHost

noncomputable section

namespace Cert.ReferenceIdeal.RefValue

open Cert.ReferenceIdeal Cert.ReferenceIdeal.Gen Cert.ReferenceIdeal.Value Idealize.ShloMosaic Idealize.ShloMosaic.TcCoe Idealize.ShloMosaic.StableHlo Idealize.ShloMosaic.ValueIdx

namespace Outer

/-! ## The broadcasts read at an index -/

section Reads
variable {α : Type}

theorem bcast_q3 (h : S16x512x128.BroadcastsInDim S16x1x512x128 ![0, 2, 3]) (x : S16x512x128.Idx → α)
    (b : Fin 16) (z : Fin 1) (q : Fin 512) (e : Fin 128) :
    broadcastInDim S16x1x512x128 ![0, 2, 3] h x (ix4 b z q e) = x (ix3 b q e) :=
  broadcastInDim_apply _ h x _ _ fun a => match a with
    | ⟨0, _⟩ => rfl
    | ⟨1, _⟩ => rfl
    | ⟨2, _⟩ => rfl

theorem bcast_c3 (h : S16x32x128.BroadcastsInDim S16x32x1x128 ![0, 1, 3]) (x : S16x32x128.Idx → α)
    (b : Fin 16) (c : Fin 32) (z : Fin 1) (e : Fin 128) :
    broadcastInDim S16x32x1x128 ![0, 1, 3] h x (ix4 b c z e) = x (ix3 b c e) :=
  broadcastInDim_apply _ h x _ _ fun a => match a with
    | ⟨0, _⟩ => rfl
    | ⟨1, _⟩ => rfl
    | ⟨2, _⟩ => rfl

theorem bcast_q4 (h : S16x1x512x128.BroadcastsInDim S16x32x512x128 ![0, 1, 2, 3]) (x : S16x1x512x128.Idx → α)
    (b : Fin 16) (c : Fin 32) (q : Fin 512) (e : Fin 128) :
    broadcastInDim S16x32x512x128 ![0, 1, 2, 3] h x (ix4 b c q e) = x (ix4 b (0 : Fin 1) q e) :=
  broadcastInDim_apply _ h x _ _ fun a => match a with
    | ⟨0, _⟩ => rfl
    | ⟨1, _⟩ => rfl
    | ⟨2, _⟩ => rfl
    | ⟨3, _⟩ => rfl

theorem bcast_c4 (h : S16x32x1x128.BroadcastsInDim S16x32x512x128 ![0, 1, 2, 3]) (x : S16x32x1x128.Idx → α)
    (b : Fin 16) (c : Fin 32) (q : Fin 512) (e : Fin 128) :
    broadcastInDim S16x32x512x128 ![0, 1, 2, 3] h x (ix4 b c q e) = x (ix4 b c (0 : Fin 1) e) :=
  broadcastInDim_apply _ h x _ _ fun a => match a with
    | ⟨0, _⟩ => rfl
    | ⟨1, _⟩ => rfl
    | ⟨2, _⟩ => rfl
    | ⟨3, _⟩ => rfl

end Reads

/-! ## The arithmetic on the extended reals -/

/-- A class's precision is positive: its terms are non-negative and the class's sample contributes a positive one. -/
theorem aPP_pos (sp : Cert.Spec.A3.Idx → EReal) (tg : Cert.Spec.T2.Idx → BitVec 32) (hsp : ∀ i, 0 < sp i)
    (hcls : ∀ (b : Fin 16) (c : Fin 32), ∃ n : Fin 2048, tg (ix2 b n) = BitVec.ofNat 32 c.val)
    (b : Fin 16) (c : Fin 32) (e : Fin 128) : 0 < Cert.Spec.aPP sp tg b c e := by
  obtain ⟨n0, hn0⟩ := hcls b c
  have hn0' : Cert.Spec.tgAt tg b n0 = BitVec.ofNat 32 c.val := hn0
  unfold Cert.Spec.aPP Cert.Spec.bPP
  have hterm : ∀ n ∈ (Finset.univ : Finset (Fin 2048)),
      0 ≤ Cert.Spec.hot (Cert.Spec.tgAt tg b) c n * Cert.Spec.spAt sp b n e := by
    intro n _
    unfold Cert.Spec.hot
    split
    · rw [one_mul]; exact (hsp _).le
    · rw [zero_mul]
  have h0 : 0 < Cert.Spec.hot (Cert.Spec.tgAt tg b) c n0 * Cert.Spec.spAt sp b n0 e := by
    unfold Cert.Spec.hot
    rw [if_pos hn0', one_mul]; exact hsp _
  exact lt_of_lt_of_le h0 (Finset.single_le_sum hterm (Finset.mem_univ n0))

/-- The sum of two positive precisions is not zero. -/
theorem sOP_ne_zero (pp yp : EReal) (hp : 0 < pp) (hy : 0 < yp) : Cert.Spec.sOP pp yp ≠ 0 :=
  ne_of_gt (EReal.add_pos hp hy)

/-- Multiplying by the reciprocal of a non-zero number is dividing by it. -/
theorem div_one_mul (a p : EReal) (hp : p ≠ 0) : Ideal.div 1 p * a = Ideal.div a p := by
  unfold Ideal.div
  rw [if_neg hp, if_neg hp, one_mul, mul_comm]

/-! ## The sum over the features -/

/-- The host's logarithm at an index. -/
theorem hostLog_apply {s : Shape} (x : FVec Ideal s .f32) (i : s.Idx) : Host.log x i = Ideal.log (x i) := rfl

/-- The reduction over the last axis at (b, c, q): the initial value plus the sum over the features. -/
theorem reduce_last (h' : S16x32x512x128.ReducesTo [3] S16x32x512) (x : S16x32x512x128.Idx → EReal) (init : EReal)
    (b : Fin 16) (c : Fin 32) (q : Fin 512) :
    Ideal.hostReduceAdd h' x init (ix3 b c q) = init + ∑ e : Fin 128, x (ix4 b c q e) := by
  have hR : S16x32x512x128.Reduces [3] S16x32x512 := by decide
  rw [Ideal.hostReduceAdd_single h' hR]
  refine congrArg (init + ·) (Finset.sum_congr rfl fun e _ => congrArg x ?_)
  funext a
  match a with
  | ⟨0, _⟩ => rfl
  | ⟨1, _⟩ => rfl
  | ⟨2, _⟩ => rfl
  | ⟨3, _⟩ => rfl

/-- The specification's pair log-normaliser at (b, c, q), as the sum over the features. -/
theorem out5_apply (sm sp : Cert.Spec.A3.Idx → EReal) (qm qp : Cert.Spec.Q3.Idx → EReal) (tg : Cert.Spec.T2.Idx → BitVec 32)
    (b : Fin 16) (c : Fin 32) (q : Fin 512) :
    Cert.Spec.out5 sm sp qm qp tg (ix3 b c q)
      = ∑ e : Fin 128, Cert.Spec.sOL (Cert.Spec.aPM sm sp tg b c e) (Cert.Spec.aPP sp tg b c e) (qm (ix3 b q e)) (qp (ix3 b q e)) := rfl

/-! ## The reference's arrays at an index -/

variable (V0 : Valuation τ sig (Elt Ideal))

theorem v109_apply (b : Fin 16) (q : Fin 512) (e : Fin 128) :
    res_main_v109 (F := Ideal) V0 (ix4 b (0 : Fin 1) q e) = (V0 (Proc.devRef .tc main_arg2)) (ix3 b q e) := by
  unfold res_main_v109
  exact bcast_q3 _ _ b 0 q e

theorem v110_apply (b : Fin 16) (q : Fin 512) (e : Fin 128) :
    res_main_v110 (F := Ideal) V0 (ix4 b (0 : Fin 1) q e) = (V0 (Proc.devRef .tc main_arg3)) (ix3 b q e) := by
  unfold res_main_v110
  exact bcast_q3 _ _ b 0 q e

theorem v112_apply (hf : Cert.Spec.Facts (V0 (Proc.devRef .tc main_arg1)) (V0 (Proc.devRef .tc main_arg3)) (V0 (Proc.devRef .tc main_arg4)))
    (b : Fin 16) (c : Fin 32) (e : Fin 128) :
    res_main_v112 (F := Ideal) V0 (ix4 b c (0 : Fin 1) e) = Cert.Spec.aPP (V0 (Proc.devRef .tc main_arg1)) (V0 (Proc.devRef .tc main_arg4)) b c e := by
  unfold res_main_v112
  rw [out1_eq V0 hf]
  exact bcast_c3 _ _ b c 0 e

theorem v111_apply (hf : Cert.Spec.Facts (V0 (Proc.devRef .tc main_arg1)) (V0 (Proc.devRef .tc main_arg3)) (V0 (Proc.devRef .tc main_arg4)))
    (b : Fin 16) (c : Fin 32) (e : Fin 128) :
    res_main_v111 (F := Ideal) V0 (ix4 b c (0 : Fin 1) e) = Cert.Spec.aPM (V0 (Proc.devRef .tc main_arg0)) (V0 (Proc.devRef .tc main_arg1)) (V0 (Proc.devRef .tc main_arg4)) b c e := by
  unfold res_main_v111
  rw [out0_eq V0 hf]
  exact bcast_c3 _ _ b c 0 e

/-- The precision of a class times a query: the reference adds the two in the other order. -/
theorem v115_apply (hf : Cert.Spec.Facts (V0 (Proc.devRef .tc main_arg1)) (V0 (Proc.devRef .tc main_arg3)) (V0 (Proc.devRef .tc main_arg4)))
    (b : Fin 16) (c : Fin 32) (q : Fin 512) (e : Fin 128) :
    res_main_v115 (F := Ideal) V0 (ix4 b c q e)
      = Cert.Spec.sOP (Cert.Spec.aPP (V0 (Proc.devRef .tc main_arg1)) (V0 (Proc.devRef .tc main_arg4)) b c e) ((V0 (Proc.devRef .tc main_arg3)) (ix3 b q e)) := by
  unfold res_main_v115
  rw [addf_apply, bcast_q4, bcast_c4, v110_apply, v112_apply V0 hf]
  exact @add_comm EReal _ _ _

theorem OP_ne_zero (hf : Cert.Spec.Facts (V0 (Proc.devRef .tc main_arg1)) (V0 (Proc.devRef .tc main_arg3)) (V0 (Proc.devRef .tc main_arg4)))
    (b : Fin 16) (c : Fin 32) (q : Fin 512) (e : Fin 128) :
    Cert.Spec.sOP (Cert.Spec.aPP (V0 (Proc.devRef .tc main_arg1)) (V0 (Proc.devRef .tc main_arg4)) b c e) ((V0 (Proc.devRef .tc main_arg3)) (ix3 b q e)) ≠ 0 :=
  sOP_ne_zero _ _ (aPP_pos _ _ hf.sp_pos hf.cls b c e) (hf.qp_pos _)

/-- Its mean: the reference multiplies by the reciprocal of the precision, which is not zero. -/
theorem v123_apply (hf : Cert.Spec.Facts (V0 (Proc.devRef .tc main_arg1)) (V0 (Proc.devRef .tc main_arg3)) (V0 (Proc.devRef .tc main_arg4)))
    (b : Fin 16) (c : Fin 32) (q : Fin 512) (e : Fin 128) :
    res_main_v123 (F := Ideal) V0 (ix4 b c q e)
      = Cert.Spec.sOM (Cert.Spec.aPM (V0 (Proc.devRef .tc main_arg0)) (V0 (Proc.devRef .tc main_arg1)) (V0 (Proc.devRef .tc main_arg4)) b c e) (Cert.Spec.aPP (V0 (Proc.devRef .tc main_arg1)) (V0 (Proc.devRef .tc main_arg4)) b c e)
          ((V0 (Proc.devRef .tc main_arg2)) (ix3 b q e)) ((V0 (Proc.devRef .tc main_arg3)) (ix3 b q e)) := by
  unfold res_main_v123
  rw [mulf_apply, hostDivf_apply, broadcastInDim_scalar_apply, constant_apply, Ideal.ofBits_one_f32, v115_apply V0 hf,
    addf_apply, bcast_q4, bcast_c4, mulf_apply, mulf_apply, v110_apply, v109_apply, v112_apply V0 hf, v111_apply V0 hf]
  unfold Cert.Spec.sOM
  exact div_one_mul _ _ (OP_ne_zero V0 hf b c q e)

end Outer

open Outer

variable (V0 : Valuation τ sig (Elt Ideal))

/-! ## The three results -/

theorem out4_eq (hf : Cert.Spec.Facts (V0 (Proc.devRef .tc main_arg1)) (V0 (Proc.devRef .tc main_arg3)) (V0 (Proc.devRef .tc main_arg4))) :
    res_main_v115 (F := Ideal) V0 = Cert.Spec.out4 (V0 (Proc.devRef .tc main_arg1)) (V0 (Proc.devRef .tc main_arg3)) (V0 (Proc.devRef .tc main_arg4)) := by
  funext i
  obtain ⟨b, c, q, e, rfl⟩ : ∃ b c q e, i = ix4 b c q e := ⟨_, _, _, _, eq_ix4 i⟩
  exact v115_apply V0 hf b c q e

theorem out3_eq (hf : Cert.Spec.Facts (V0 (Proc.devRef .tc main_arg1)) (V0 (Proc.devRef .tc main_arg3)) (V0 (Proc.devRef .tc main_arg4))) :
    res_main_v123 (F := Ideal) V0 = Cert.Spec.out3 (V0 (Proc.devRef .tc main_arg0)) (V0 (Proc.devRef .tc main_arg1)) (V0 (Proc.devRef .tc main_arg2)) (V0 (Proc.devRef .tc main_arg3)) (V0 (Proc.devRef .tc main_arg4)) := by
  funext i
  obtain ⟨b, c, q, e, rfl⟩ : ∃ b c q e, i = ix4 b c q e := ⟨_, _, _, _, eq_ix4 i⟩
  exact v123_apply V0 hf b c q e

theorem out5_eq (hf : Cert.Spec.Facts (V0 (Proc.devRef .tc main_arg1)) (V0 (Proc.devRef .tc main_arg3)) (V0 (Proc.devRef .tc main_arg4))) :
    val4 (F := Ideal) V0 (Proc.devRef .tc main_v148) = Cert.Spec.out5 (V0 (Proc.devRef .tc main_arg0)) (V0 (Proc.devRef .tc main_arg1)) (V0 (Proc.devRef .tc main_arg2)) (V0 (Proc.devRef .tc main_arg3)) (V0 (Proc.devRef .tc main_arg4)) := by
  rw [val4_main_v148]
  funext i
  obtain ⟨b, c, q, rfl⟩ : ∃ b c q, i = ix3 b c q := ⟨_, _, _, eq_ix3 i⟩
  refine ((reduce_last _ _ _ b c q).trans ?_).trans (out5_apply _ _ _ _ _ b c q).symm
  rw [constant_apply, Ideal.ofBits_zero_f32, zero_add]
  refine Finset.sum_congr rfl fun e _ => ?_
  simp only [addf_apply, mulf_apply, subf_apply, v115_apply V0 hf, v123_apply V0 hf]
  rw [broadcastInDim_scalar_apply, broadcastInDim_scalar_apply, bcast_q4, bcast_q4, bcast_c4, bcast_c4]
  simp only [constant_apply, hostLog_apply, mulf_apply, v115_apply V0 hf, v110_apply, v109_apply, v112_apply V0 hf, v111_apply V0 hf]
  rfl

end Cert.ReferenceIdeal.RefValue

end
-- ==== Proof.lean ====
/-
  The certificate's five claims.

  The three frames: the kernel program, read at words and read at extended reals, runs at every grid point by the
  two cases of its body (Proof/BodyBits.lean, Proof/Body.lean: one text for any float instance), and the reference is a
  host program whose run is read back operation by operation. Nothing was rewritten between the word-level kernel and
  its idealization, so that claim is empty. The algebraic claim: on the extended reals both programs end at ONE function
  of the five argument arrays (Proof/Spec.lean): the kernel sums a class's samples by a 0/1-weighted matrix product and
  divides, the reference scatters the samples into their classes and multiplies by a reciprocal; the two agree because
  the precondition makes every class's precision a sum of positive numbers over at least one sample, hence not zero
  (Proof/PreFacts.lean reads the precondition; Proof/RefInner.lean and Proof/RefOuter.lean use it).
-/
import proofs.«409652_j37331855737078_2_alg».proof.Defs
import proofs.«409652_j37331855737078_2_alg».proof.Proof.Gen.Kernel
import proofs.«409652_j37331855737078_2_alg».proof.Proof.Gen.KernelIdeal
import proofs.«409652_j37331855737078_2_alg».proof.Proof.Gen.ReferenceIdeal
import proofs.«409652_j37331855737078_2_alg».proof.Proof.Gen.Pre_finite_inputs
import proofs.«409652_j37331855737078_2_alg».proof.Proof.Gen.ReferenceIdeal.Run
import proofs.«409652_j37331855737078_2_alg».proof.Proof.BodyBits
import proofs.«409652_j37331855737078_2_alg».proof.Proof.KRun
import proofs.«409652_j37331855737078_2_alg».proof.Proof.PreFacts
import proofs.«409652_j37331855737078_2_alg».proof.Proof.RefOuter
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2.2.2.2.2)
    (Cert.ReferenceIdeal.Value.run (F := Ideal) m ρ)

theorem preserves : Cert.preserves_Kernel_KernelIdeal := trivial

open Cert.KernelIdeal.KValue Cert.ReferenceIdeal.RefValue in
/-- Both idealized programs end at the specification's six arrays of the arguments. -/
theorem algebraic : Cert.algebraic_KernelIdeal_ReferenceIdeal := by
  intro m ρ m' ρ' hpre hagree
  refine ⟨fun c => Cert.Spec.out0 (aSm m c) (aSp m c) (aTg m c), fun c => Cert.Spec.out1 (aSp m c) (aTg m c),
    fun c => Cert.Spec.out2 (aSm m c) (aSp m c) (aTg m c),
    fun c => Cert.Spec.out3 (aSm m c) (aSp m c) (aQm m c) (aQp m c) (aTg m c),
    fun c => Cert.Spec.out4 (aSp m c) (aQp m c) (aTg m c),
    fun c => Cert.Spec.out5 (aSm m c) (aSp m c) (aQm m c) (aQp m c) (aTg m c),
    Cert.KernelIdeal.KValue.run m ρ, ?_⟩
  refine (θ_run Cert.ReferenceIdeal.defs _ _).mono (fun r h c => ?_) (Cert.ReferenceIdeal.Value.run (F := Ideal) m' ρ')
  obtain ⟨h0, h1, h2, h3, h4, h5, hargs⟩ := h c
  obtain ⟨e0, e1, e2, e3, e4⟩ := hagree c
  have hf : Cert.Spec.Facts (aSp m c) (aQp m c) (aTg m c) := Cert.PreDecode.facts _ _ _ _ _ (hpre c)
  have hf' : Cert.Spec.Facts (StableHlo.launchContents m' c (Proc.devRef .tc Cert.ReferenceIdeal.main_arg1)) (StableHlo.launchContents m' c (Proc.devRef .tc Cert.ReferenceIdeal.main_arg3)) (StableHlo.launchContents m' c (Proc.devRef .tc Cert.ReferenceIdeal.main_arg4)) := by
    rw [show StableHlo.launchContents m' c (Proc.devRef .tc Cert.ReferenceIdeal.main_arg1) = aSp m c from e1, show StableHlo.launchContents m' c (Proc.devRef .tc Cert.ReferenceIdeal.main_arg3) = aQp m c from e3, show StableHlo.launchContents m' c (Proc.devRef .tc Cert.ReferenceIdeal.main_arg4) = aTg m c from e4]; exact hf
  have e0' : StableHlo.launchContents m' c (Proc.devRef .tc Cert.ReferenceIdeal.main_arg0) = aSm m c := e0
  have e1' : StableHlo.launchContents m' c (Proc.devRef .tc Cert.ReferenceIdeal.main_arg1) = aSp m c := e1
  have e2' : StableHlo.launchContents m' c (Proc.devRef .tc Cert.ReferenceIdeal.main_arg2) = aQm m c := e2
  have e3' : StableHlo.launchContents m' c (Proc.devRef .tc Cert.ReferenceIdeal.main_arg3) = aQp m c := e3
  have e4' : StableHlo.launchContents m' c (Proc.devRef .tc Cert.ReferenceIdeal.main_arg4) = aTg m c := e4
  exact ⟨h0.trans ((out0_eq _ hf').trans (by rw [e0', e1', e4'])),
    h1.trans ((out1_eq _ hf').trans (by rw [e1', e4'])),
    h2.trans (((Cert.ReferenceIdeal.Value.val4_main_v108 _).symm.trans (out2_eq _ hf')).trans (by rw [e0', e1', e4'])),
    h3.trans ((out3_eq _ hf').trans (by rw [e0', e1', e2', e3', e4'])),
    h4.trans ((out4_eq _ hf').trans (by rw [e1', e3', e4'])),
    h5.trans (((Cert.ReferenceIdeal.Value.val4_main_v148 _).symm.trans (out5_eq _ hf')).trans (by rw [e0', e1', e2', e3', e4'])),
    hargs⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
